-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x4096 .f32 .bf16
  ∧ IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v130)) (v2 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v130) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  reducesTo_S256x256_S256_d1 : S256x256.ReducesTo [1] S256
  bcast_S_S256 : S_.BroadcastsInDim S256 (![] : Fin 0 → Fin S256.rank)
  reducesTo_S256_S_d0 : S256.ReducesTo [0] S_

variable [Facts]

def fn_part1 {F : FTy → Type} [FloatOps F] (main_arg2 : FVec F S256x256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x256 .f32 := mulf main_arg2 main_arg2
  let main_cst_6 : FVec F S_ .f32 := constant S_ .f32 0x00000000#32
  let main_v20 : FVec F S256 .f32 := (fun x v => Host.reduceAdd x v reducesTo_S256x256_S256_d1 h_S_) main_v19 main_cst_6
  let main_cst_7 : FVec F S_ .f32 := constant S_ .f32 0x00000000#32
  let main_v21 : FVec F S256 .f32 := broadcastInDim S256 ![] bcast_S_S256 main_cst_7
  let main_v22 : IVec S256 1 := cmpf .ogt main_v20 main_v21
  let main_c_8 : IVec S_ 1 := constantI S_ 1 1#1
  let main_v23 : IVec S_ 1 := (fun x v => Host.reduce IntOp.andi x v reducesTo_S256_S_d0 h_S_) main_v22 main_c_8
  let main_v24 : IVec S_ 1 := andi main_v18 main_v23
  main_v24

def fn {F : FTy → Type} [FloatOps F] (main_arg0 : FVec F S256x256 .f32) (main_arg1 : FVec F S256x256 .f32) (main_arg2 : FVec F S256x256 .f32) (main_arg3 : FVec F S65536x256 .f32) (main_arg4 : IVec S256 32) (main_arg5 : IVec S65536 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg2 main_v13 main_v16
-- ==== Kernel.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩
abbrev S256x1 : Shape := ⟨2, ![256, 1]⟩
abbrev S65536x1 : Shape := ⟨2, ![65536, 1]⟩
abbrev S256x8192 : Shape := ⟨2, ![256, 8192]⟩
abbrev S1x8192 : Shape := ⟨2, ![1, 8192]⟩
abbrev S512x256 : Shape := ⟨2, ![512, 256]⟩
abbrev S512x1 : Shape := ⟨2, ![512, 1]⟩
abbrev S256x4096 : Shape := ⟨2, ![256, 4096]⟩
abbrev S1x4096 : Shape := ⟨2, ![1, 4096]⟩
abbrev S4096x256 : Shape := ⟨2, ![4096, 256]⟩
abbrev S512x4096 : Shape := ⟨2, ![512, 4096]⟩
abbrev S4096 : Shape := ⟨1, ![4096]⟩
abbrev S8192 : Shape := ⟨1, ![8192]⟩
abbrev S256x2 : Shape := ⟨2, ![256, 2]⟩
abbrev S1x256 : Shape := ⟨2, ![1, 256]⟩

abbrev nBuf : Space → Nat
  | .hbm => 187
  | .vmem => 8
  | .smem => 0
  | _ => 0

abbrev hbmTy0_0 (i : Nat) : BufTy := match i % 128 with
  | 0 => ⟨S256x256, .f32⟩
  | 1 => ⟨S256x256, .f32⟩
  | 2 => ⟨S256x256, .f32⟩
  | 3 => ⟨S65536x256, .f32⟩
  | 4 => ⟨S256, .i32⟩
  | 5 => ⟨S65536, .i32⟩
  | 6 => ⟨S256x256, .f32⟩
  | 7 => ⟨S_, .f32⟩
  | 8 => ⟨S256, .f32⟩
  | 9 => ⟨S256x1, .f32⟩
  | 10 => ⟨S256x1, .f32⟩
  | 11 => ⟨S256x256, .f32⟩
  | 12 => ⟨S256x256, .f32⟩
  | 13 => ⟨S256x256, .f32⟩
  | 14 => ⟨S_, .f32⟩
  | 15 => ⟨S256, .f32⟩
  | 16 => ⟨S256x1, .f32⟩
  | 17 => ⟨S256x1, .f32⟩
  | 18 => ⟨S256x256, .f32⟩
  | 19 => ⟨S256x256, .f32⟩
  | 20 => ⟨S256x256, .f32⟩
  | 21 => ⟨S_, .f32⟩
  | 22 => ⟨S256, .f32⟩
  | 23 => ⟨S256x1, .f32⟩
  | 24 => ⟨S256x1, .f32⟩
  | 25 => ⟨S256x256, .f32⟩
  | 26 => ⟨S256x256, .f32⟩
  | 27 => ⟨S256x256, .f32⟩
  | 28 => ⟨S256x256, .f32⟩
  | 29 => ⟨S_, .f32⟩
  | 30 => ⟨S256x256, .f32⟩
  | 31 => ⟨S256x256, .f32⟩
  | 32 => ⟨S256x256, .f32⟩
  | 33 => ⟨S256x256, .f32⟩
  | 34 => ⟨S_, .f32⟩
  | 35 => ⟨S256x256, .f32⟩
  | 36 => ⟨S256x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S256x1, .i32⟩
  | 50 => ⟨S256, .i32⟩
  | 51 => ⟨S65536x256, .bf16⟩
  | 52 => ⟨S65536x1, .i32⟩
  | 53 => ⟨S256x8192, .f32⟩
  | 54 => ⟨S1x8192, .f32⟩
  | 55 => ⟨S8192, .f32⟩
  | 56 => ⟨S_, .f32⟩
  | 57 => ⟨S8192, .f32⟩
  | 58 => ⟨S8192, .i1⟩
  | 59 => ⟨S8192, .f32⟩
  | 60 => ⟨S_, .f32⟩
  | 61 => ⟨S8192, .f32⟩
  | 62 => ⟨S8192, .i1⟩
  | 63 => ⟨S_, .f32⟩
  | 64 => ⟨S_, .f32⟩
  | 65 => ⟨S8192, .f32⟩
  | 66 => ⟨S8192, .f32⟩
  | 67 => ⟨S1x8192, .f32⟩
  | 68 => ⟨S256x8192, .f32⟩
  | 69 => ⟨S256x8192, .f32⟩
  | 70 => ⟨S256x8192, .f32⟩
  | 71 => ⟨S1x8192, .f32⟩
  | 72 => ⟨S256x8192, .f32⟩
  | 73 => ⟨S256x8192, .f32⟩
  | 74 => ⟨S_, .f32⟩
  | 75 => ⟨S256, .f32⟩
  | 76 => ⟨S_, .f32⟩
  | 77 => ⟨S256, .f32⟩
  | 78 => ⟨S256, .f32⟩
  | 79 => ⟨S256, .i32⟩
  | 80 => ⟨S_, .i32⟩
  | 81 => ⟨S256, .i32⟩
  | 82 => ⟨S256, .i1⟩
  | 83 => ⟨S_, .i32⟩
  | 84 => ⟨S256, .i32⟩
  | 85 => ⟨S256, .i32⟩
  | 86 => ⟨S256, .i32⟩
  | 87 => ⟨S_, .i32⟩
  | 88 => ⟨S256, .i32⟩
  | 89 => ⟨S256, .i1⟩
  | 90 => ⟨S_, .i32⟩
  | 91 => ⟨S256, .i32⟩
  | 92 => ⟨S256, .i32⟩
  | 93 => ⟨S256, .i32⟩
  | 94 => ⟨S256x1, .i32⟩
  | 95 => ⟨S256x1, .i32⟩
  | 96 => ⟨S256x2, .i32⟩
  | 97 => ⟨S256, .f32⟩
  | 98 => ⟨S256, .f32⟩
  | 99 => ⟨S_, .f32⟩
  | 100 => ⟨S256, .f32⟩
  | 101 => ⟨S256, .f32⟩
  | 102 => ⟨S256, .f32⟩
  | 103 => ⟨S_, .f32⟩
  | 104 => ⟨S_, .f32⟩
  | 105 => ⟨S_, .f32⟩
  | 106 => ⟨S_, .f32⟩
  | 107 => ⟨S_, .f32⟩
  | 108 => ⟨S256x256, .f32⟩
  | 109 => ⟨S256x256, .f32⟩
  | 110 => ⟨S256x256, .f32⟩
  | 111 => ⟨S256x1, .i32⟩
  | 112 => ⟨S1x256, .i32⟩
  | 113 => ⟨S256x256, .i32⟩
  | 114 => ⟨S256x256, .i32⟩
  | 115 => ⟨S256x256, .i1⟩
  | 116 => ⟨S256x256, .f32⟩
  | 117 => ⟨S_, .f32⟩
  | 118 => ⟨S256x256, .f32⟩
  | 119 => ⟨S256x256, .f32⟩
  | 120 => ⟨S256x256, .f32⟩
  | 121 => ⟨S256x256, .f32⟩
  | 122 => ⟨S_, .f32⟩
  | 123 => ⟨S256, .f32⟩
  | 124 => ⟨S_, .f32⟩
  | 125 => ⟨S256, .f32⟩
  | 126 => ⟨S256, .f32⟩
  | 127 => ⟨S256x1, .f32⟩
  | _ => ⟨S256x256, .f32⟩

abbrev hbmTy0_1 (i : Nat) : BufTy := match i % 128 with
  | 0 => ⟨S256x256, .f32⟩
  | 1 => ⟨S256x256, .f32⟩
  | 2 => ⟨S_, .f32⟩
  | 3 => ⟨S256x256, .f32⟩
  | 4 => ⟨S256x256, .f32⟩
  | 5 => ⟨S256x256, .f32⟩
  | 6 => ⟨S_, .f32⟩
  | 7 => ⟨S256x256, .f32⟩
  | 8 => ⟨S256x256, .f32⟩
  | 9 => ⟨S256x256, .f32⟩
  | 10 => ⟨S256x256, .f32⟩
  | 11 => ⟨S256x1, .f32⟩
  | 12 => ⟨S256x256, .f32⟩
  | 13 => ⟨S256x256, .f32⟩
  | 14 => ⟨S_, .f32⟩
  | 15 => ⟨S256x256, .f32⟩
  | 16 => ⟨S256x256, .f32⟩
  | 17 => ⟨S256x256, .f32⟩
  | 18 => ⟨S_, .f32⟩
  | 19 => ⟨S256x256, .f32⟩
  | 20 => ⟨S256x256, .f32⟩
  | 21 => ⟨S256x256, .f32⟩
  | 22 => ⟨S256x256, .f32⟩
  | 23 => ⟨S256x256, .f32⟩
  | 24 => ⟨S256x256, .f32⟩
  | 25 => ⟨S_, .f32⟩
  | 26 => ⟨S256, .f32⟩
  | 27 => ⟨S_, .f32⟩
  | 28 => ⟨S_, .f32⟩
  | 29 => ⟨S_, .f32⟩
  | 30 => ⟨S_, .f32⟩
  | 31 => ⟨S256x256, .f32⟩
  | 32 => ⟨S_, .f32⟩
  | 33 => ⟨S256, .f32⟩
  | 34 => ⟨S_, .f32⟩
  | 35 => ⟨S256, .f32⟩
  | 36 => ⟨S256, .f32⟩
  | 37 => ⟨S_, .f32⟩
  | 38 => ⟨S256, .f32⟩
  | 39 => ⟨S256, .f32⟩
  | 40 => ⟨S256x1, .f32⟩
  | 41 => ⟨S256x256, .f32⟩
  | 42 => ⟨S256x256, .f32⟩
  | 43 => ⟨S_, .f32⟩
  | 44 => ⟨S256x256, .f32⟩
  | 45 => ⟨S256x256, .f32⟩
  | 46 => ⟨S256x256, .f32⟩
  | 47 => ⟨S_, .f32⟩
  | 48 => ⟨S256x256, .f32⟩
  | 49 => ⟨S256x256, .f32⟩
  | 50 => ⟨S256x256, .f32⟩
  | 51 => ⟨S256x256, .f32⟩
  | 52 => ⟨S256x256, .f32⟩
  | 53 => ⟨S_, .f32⟩
  | 54 => ⟨S256, .f32⟩
  | 55 => ⟨S_, .f32⟩
  | 56 => ⟨S_, .f32⟩
  | 57 => ⟨S_, .f32⟩
  | 58 => ⟨S_, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x1, .i32⟩
  | .local _ .vmem, ⟨3, _⟩ => ⟨S512x1, .i32⟩
  | .local _ .vmem, ⟨4, _⟩ => ⟨S256x256, .f32⟩
  | .local _ .vmem, ⟨5, _⟩ => ⟨S256x4096, .f32⟩
  | .local _ .vmem, ⟨6, _⟩ => ⟨S1x4096, .f32⟩
  | .local _ .vmem, ⟨7, _⟩ => ⟨S4096x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call2_v0 : Ref sig .tc := ⟨.hbm, 20, rfl⟩
abbrev main_call2_cst : Ref sig .tc := ⟨.hbm, 21, rfl⟩
abbrev main_call2_v1 : Ref sig .tc := ⟨.hbm, 22, rfl⟩
abbrev main_call2_v2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_call3_v0 : Ref sig .tc := ⟨.hbm, 64, rfl⟩
abbrev main_call3_v1 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_8 : Ref sig .tc := ⟨.hbm, 80, rfl⟩
abbrev main_v49 : Ref sig .tc := ⟨.hbm, 81, rfl⟩
abbrev main_v50 : Ref sig .tc := ⟨.hbm, 82, rfl⟩
abbrev main_c_9 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_20 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_21 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_22 : Ref sig .tc := ⟨.hbm, 153, rfl⟩
abbrev main_v108 : Ref sig .tc := ⟨.hbm, 154, rfl⟩
abbrev main_cst_23 : Ref sig .tc := ⟨.hbm, 155, rfl⟩
abbrev main_v109 : Ref sig .tc := ⟨.hbm, 156, rfl⟩
abbrev main_cst_24 : Ref sig .tc := ⟨.hbm, 157, rfl⟩
abbrev main_v110 : Ref sig .tc := ⟨.hbm, 158, rfl⟩
abbrev main_v111 : Ref sig .tc := ⟨.hbm, 159, rfl⟩
abbrev main_cst_25 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_28 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_29 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_30 : Ref sig .tc := ⟨.hbm, 181, rfl⟩
abbrev main_v128 : Ref sig .tc := ⟨.hbm, 182, rfl⟩
abbrev main_cst_31 : Ref sig .tc := ⟨.hbm, 183, rfl⟩
abbrev main_v129 : Ref sig .tc := ⟨.hbm, 184, rfl⟩
abbrev main_cst_32 : Ref sig .tc := ⟨.hbm, 185, rfl⟩
abbrev main_v130 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v30 : BitVec 1 := Scalar.cmpi .eq arg1 c127_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  bcast_S_S256x256 : S_.BroadcastsInDim S256x256 (![] : Fin 0 → Fin S256x256.rank)
  bcast_S_S256 : S_.BroadcastsInDim S256 (![] : Fin 0 → Fin S256.rank)
  bitsLt_bf16_f32 : FTy.bits .bf16 < FTy.bits .f32
  shapeCasts_S65536_S65536x1 : S65536.ShapeCasts S65536x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x4096_d1_w32 : S1x4096.Iotas .tc 32 [1]
  broadcasts_S512x1_S512x4096 : S512x1.Broadcasts S512x4096
  broadcasts_S1x4096_S512x4096 : S1x4096.Broadcasts S512x4096
  natLt_1_32 : 1 < 32
  reduces_S512x4096_S4096 : S512x4096.Reduces [0] S4096
  shapeCasts_S4096_S1x4096 : S4096.ShapeCasts S1x4096
  shapeCasts_S1x4096_S1x4096 : S1x4096.ShapeCasts S1x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4096_S256x4096_0_0 : ∀ a, (![0, 0] : Fin 2 → Nat) a + S256x4096.size a ≤ S256x4096.size a
  h_S256x4096 : 0 < S256x4096.numel
  shapeCasts_S1x8192_S8192 : S1x8192.ShapeCasts S8192
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  reducesTo_S256x8192_S256_d1 : S256x8192.ReducesTo [1] S256
  concatenates_S256x1_S256x1_S256x2_d1 : Shape.Concatenates [S256x1, S256x1] S256x2 1
  reducesTo_S256_S_d0 : S256.ReducesTo [0] S_
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  dot_S256x256_S256x256_S256x256_1_0_0_1_n_n_wf : DotDims.WF S256x256 S256x256 S256x256 [1] [0] [0] [1] [] []
  gather_S65536_S256x1_S256_n_0_n_n_0_1_1_wf : GatherDims.WF S65536 S256x1 S256 [] [0] [] [0] [] 1 ![1]
  dot_S512x4096_S512x256_S4096x256_0_0_1_1_n_n_wf : DotDims.WF S512x4096 S512x256 S4096x256 [0] [0] [1] [1] [] []
  dot_S256x256_S4096x256_S256x4096_1_1_0_0_n_n_wf : DotDims.WF S256x256 S4096x256 S256x4096 [1] [1] [0] [0] [] []
  gather_S256x8192_S256x2_S256_n_01_n_n_01_1_11_wf : GatherDims.WF S256x8192 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .bf16 = 32 ∨ (Rect.block (s := S65536x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .i32 = 32 ∨ (Rect.block (s := S65536x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x8192.size a
  hwx0_3 : ∀ i : grid0.Coords, EltTy.bits .f32 = 32 ∨ (Rect.block (s := S256x8192) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x8192.size a
  hwx0_4 : ∀ i : grid0.Coords, EltTy.bits .f32 = 32 ∨ (Rect.block (s := S1x8192) S1x4096.size (cc0_transform_4 i) (hinb0_4 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def dot_S512x4096_S512x256_S4096x256_0_0_1_1_n_n : DotDims S512x4096 S512x256 S4096x256 where
  lhsContracting := [0]
  rhsContracting := [0]
  lhsNonContracting := [1]
  rhsNonContracting := [1]
  lhsBatch := []
  rhsBatch := []
  wf := dot_S512x4096_S512x256_S4096x256_0_0_1_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def gather_S256x8192_S256x2_S256_n_01_n_n_01_1_11 : GatherDims S256x8192 S256x2 S256 where
  offsetDims := []
  collapsedSliceDims := [0, 1]
  operandBatchingDims := []
  startIndicesBatchingDims := []
  startIndexMap := [0, 1]
  indexVectorDim := 1
  sliceSizes := ![1, 1]
  wf := gather_S256x8192_S256x2_S256_n_01_n_n_01_1_11_wf

abbrev win0_0 : Pipeline.Window sig grid0 :=
  Pipeline.Window.ofSpec (Memref.whole main_v28) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S256x4096.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S1x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩
abbrev S256x1 : Shape := ⟨2, ![256, 1]⟩
abbrev S256x65536 : Shape := ⟨2, ![256, 65536]⟩
abbrev S8192x256 : Shape := ⟨2, ![8192, 256]⟩
abbrev S65536x1 : Shape := ⟨2, ![65536, 1]⟩
abbrev S8192 : Shape := ⟨1, ![8192]⟩
abbrev S8192x1 : Shape := ⟨2, ![8192, 1]⟩
abbrev S256x8192 : Shape := ⟨2, ![256, 8192]⟩
abbrev S1x8192 : Shape := ⟨2, ![1, 8192]⟩
abbrev S256x2 : Shape := ⟨2, ![256, 2]⟩
abbrev S1x256 : Shape := ⟨2, ![1, 256]⟩

abbrev nBuf : Space → Nat
  | .hbm => 201
  | .vmem => 0
  | .smem => 0
  | _ => 0

abbrev hbmTy0_0 (i : Nat) : BufTy := match i % 128 with
  | 0 => ⟨S256x256, .f32⟩
  | 1 => ⟨S256x256, .f32⟩
  | 2 => ⟨S256x256, .f32⟩
  | 3 => ⟨S65536x256, .f32⟩
  | 4 => ⟨S256, .i32⟩
  | 5 => ⟨S65536, .i32⟩
  | 6 => ⟨S256x256, .f32⟩
  | 7 => ⟨S_, .f32⟩
  | 8 => ⟨S256, .f32⟩
  | 9 => ⟨S256x1, .f32⟩
  | 10 => ⟨S256x1, .f32⟩
  | 11 => ⟨S256x256, .f32⟩
  | 12 => ⟨S256x256, .f32⟩
  | 13 => ⟨S256x256, .f32⟩
  | 14 => ⟨S_, .f32⟩
  | 15 => ⟨S256, .f32⟩
  | 16 => ⟨S256x1, .f32⟩
  | 17 => ⟨S256x1, .f32⟩
  | 18 => ⟨S256x256, .f32⟩
  | 19 => ⟨S256x256, .f32⟩
  | 20 => ⟨S256x256, .f32⟩
  | 21 => ⟨S_, .f32⟩
  | 22 => ⟨S256, .f32⟩
  | 23 => ⟨S256x1, .f32⟩
  | 24 => ⟨S256x1, .f32⟩
  | 25 => ⟨S256x256, .f32⟩
  | 26 => ⟨S256x256, .f32⟩
  | 27 => ⟨S256x256, .f32⟩
  | 28 => ⟨S256x256, .f32⟩
  | 29 => ⟨S_, .f32⟩
  | 30 => ⟨S256x256, .f32⟩
  | 31 => ⟨S256x256, .f32⟩
  | 32 => ⟨S256x256, .f32⟩
  | 33 => ⟨S256x256, .f32⟩
  | 34 => ⟨S_, .f32⟩
  | 35 => ⟨S256x256, .f32⟩
  | 36 => ⟨S256x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S256x65536, .f32⟩
  | 43 => ⟨S256x65536, .f32⟩
  | 44 => ⟨S_, .f32⟩
  | 45 => ⟨S256x65536, .f32⟩
  | 46 => ⟨S256x65536, .f32⟩
  | 47 => ⟨S_, .i32⟩
  | 48 => ⟨S256, .i32⟩
  | 49 => ⟨S256, .i1⟩
  | 50 => ⟨S_, .i32⟩
  | 51 => ⟨S256, .i32⟩
  | 52 => ⟨S256, .i32⟩
  | 53 => ⟨S256, .i32⟩
  | 54 => ⟨S256x1, .i32⟩
  | 55 => ⟨S256, .i32⟩
  | 56 => ⟨S65536x256, .f32⟩
  | 57 => ⟨S_, .f32⟩
  | 58 => ⟨S8192x256, .f32⟩
  | 59 => ⟨S65536x1, .i32⟩
  | 60 => ⟨S8192x256, .f32⟩
  | 61 => ⟨S_, .f32⟩
  | 62 => ⟨S65536, .f32⟩
  | 63 => ⟨S_, .f32⟩
  | 64 => ⟨S8192, .f32⟩
  | 65 => ⟨S65536x1, .i32⟩
  | 66 => ⟨S8192, .f32⟩
  | 67 => ⟨S8192x1, .f32⟩
  | 68 => ⟨S_, .f32⟩
  | 69 => ⟨S8192x1, .f32⟩
  | 70 => ⟨S8192x1, .i1⟩
  | 71 => ⟨S8192x1, .f32⟩
  | 72 => ⟨S_, .f32⟩
  | 73 => ⟨S8192x1, .f32⟩
  | 74 => ⟨S8192x1, .i1⟩
  | 75 => ⟨S_, .f32⟩
  | 76 => ⟨S_, .f32⟩
  | 77 => ⟨S8192x1, .f32⟩
  | 78 => ⟨S8192x1, .f32⟩
  | 79 => ⟨S8192x256, .f32⟩
  | 80 => ⟨S8192x256, .f32⟩
  | 81 => ⟨S256x8192, .f32⟩
  | 82 => ⟨S256x8192, .f32⟩
  | 83 => ⟨S1x8192, .f32⟩
  | 84 => ⟨S256x8192, .f32⟩
  | 85 => ⟨S256x8192, .f32⟩
  | 86 => ⟨S_, .f32⟩
  | 87 => ⟨S256, .f32⟩
  | 88 => ⟨S256x1, .f32⟩
  | 89 => ⟨S_, .f32⟩
  | 90 => ⟨S256x1, .f32⟩
  | 91 => ⟨S256x1, .f32⟩
  | 92 => ⟨S256x8192, .f32⟩
  | 93 => ⟨S256x8192, .f32⟩
  | 94 => ⟨S256, .i32⟩
  | 95 => ⟨S_, .i32⟩
  | 96 => ⟨S256, .i32⟩
  | 97 => ⟨S256, .i1⟩
  | 98 => ⟨S_, .i32⟩
  | 99 => ⟨S256, .i32⟩
  | 100 => ⟨S256, .i32⟩
  | 101 => ⟨S256, .i32⟩
  | 102 => ⟨S_, .i32⟩
  | 103 => ⟨S256, .i32⟩
  | 104 => ⟨S256, .i1⟩
  | 105 => ⟨S_, .i32⟩
  | 106 => ⟨S256, .i32⟩
  | 107 => ⟨S256, .i32⟩
  | 108 => ⟨S256, .i32⟩
  | 109 => ⟨S256x1, .i32⟩
  | 110 => ⟨S256x1, .i32⟩
  | 111 => ⟨S256x2, .i32⟩
  | 112 => ⟨S256, .f32⟩
  | 113 => ⟨S_, .f32⟩
  | 114 => ⟨S256, .f32⟩
  | 115 => ⟨S256, .f32⟩
  | 116 => ⟨S256, .f32⟩
  | 117 => ⟨S_, .f32⟩
  | 118 => ⟨S_, .f32⟩
  | 119 => ⟨S_, .f32⟩
  | 120 => ⟨S_, .f32⟩
  | 121 => ⟨S_, .f32⟩
  | 122 => ⟨S256x256, .f32⟩
  | 123 => ⟨S256x256, .f32⟩
  | 124 => ⟨S256x256, .f32⟩
  | 125 => ⟨S256x1, .i32⟩
  | 126 => ⟨S1x256, .i32⟩
  | 127 => ⟨S256x256, .i32⟩
  | _ => ⟨S256x256, .f32⟩

abbrev hbmTy0_1 (i : Nat) : BufTy := match i % 128 with
  | 0 => ⟨S256x256, .i32⟩
  | 1 => ⟨S256x256, .i1⟩
  | 2 => ⟨S256x256, .f32⟩
  | 3 => ⟨S_, .f32⟩
  | 4 => ⟨S256x256, .f32⟩
  | 5 => ⟨S256x256, .f32⟩
  | 6 => ⟨S256x256, .f32⟩
  | 7 => ⟨S256x256, .f32⟩
  | 8 => ⟨S_, .f32⟩
  | 9 => ⟨S256, .f32⟩
  | 10 => ⟨S_, .f32⟩
  | 11 => ⟨S256, .f32⟩
  | 12 => ⟨S256, .f32⟩
  | 13 => ⟨S256x1, .f32⟩
  | 14 => ⟨S256x256, .f32⟩
  | 15 => ⟨S256x256, .f32⟩
  | 16 => ⟨S_, .f32⟩
  | 17 => ⟨S256x256, .f32⟩
  | 18 => ⟨S256x256, .f32⟩
  | 19 => ⟨S256x256, .f32⟩
  | 20 => ⟨S_, .f32⟩
  | 21 => ⟨S256x256, .f32⟩
  | 22 => ⟨S256x256, .f32⟩
  | 23 => ⟨S256x256, .f32⟩
  | 24 => ⟨S256x256, .f32⟩
  | 25 => ⟨S256x1, .f32⟩
  | 26 => ⟨S256x256, .f32⟩
  | 27 => ⟨S256x256, .f32⟩
  | 28 => ⟨S_, .f32⟩
  | 29 => ⟨S256x256, .f32⟩
  | 30 => ⟨S256x256, .f32⟩
  | 31 => ⟨S256x256, .f32⟩
  | 32 => ⟨S_, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S256x256, .f32⟩
  | 39 => ⟨S_, .f32⟩
  | 40 => ⟨S256, .f32⟩
  | 41 => ⟨S_, .f32⟩
  | 42 => ⟨S_, .f32⟩
  | 43 => ⟨S_, .f32⟩
  | 44 => ⟨S_, .f32⟩
  | 45 => ⟨S256x256, .f32⟩
  | 46 => ⟨S_, .f32⟩
  | 47 => ⟨S256, .f32⟩
  | 48 => ⟨S_, .f32⟩
  | 49 => ⟨S256, .f32⟩
  | 50 => ⟨S256, .f32⟩
  | 51 => ⟨S_, .f32⟩
  | 52 => ⟨S256, .f32⟩
  | 53 => ⟨S256, .f32⟩
  | 54 => ⟨S256x1, .f32⟩
  | 55 => ⟨S256x256, .f32⟩
  | 56 => ⟨S256x256, .f32⟩
  | 57 => ⟨S_, .f32⟩
  | 58 => ⟨S256x256, .f32⟩
  | 59 => ⟨S256x256, .f32⟩
  | 60 => ⟨S256x256, .f32⟩
  | 61 => ⟨S_, .f32⟩
  | 62 => ⟨S256x256, .f32⟩
  | 63 => ⟨S256x256, .f32⟩
  | 64 => ⟨S256x256, .f32⟩
  | 65 => ⟨S256x256, .f32⟩
  | 66 => ⟨S256x256, .f32⟩
  | 67 => ⟨S_, .f32⟩
  | 68 => ⟨S256, .f32⟩
  | 69 => ⟨S_, .f32⟩
  | 70 => ⟨S_, .f32⟩
  | 71 => ⟨S_, .f32⟩
  | 72 => ⟨S_, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call2_v0 : Ref sig .tc := ⟨.hbm, 20, rfl⟩
abbrev main_call2_cst : Ref sig .tc := ⟨.hbm, 21, rfl⟩
abbrev main_call2_v1 : Ref sig .tc := ⟨.hbm, 22, rfl⟩
abbrev main_call2_v2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_call3_v0 : Ref sig .tc := ⟨.hbm, 76, rfl⟩
abbrev main_call3_v1 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_c_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_17 : Ref sig .tc := ⟨.hbm, 117, rfl⟩
abbrev main_v78 : Ref sig .tc := ⟨.hbm, 118, rfl⟩
abbrev main_cst_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_20 : Ref sig .tc := ⟨.hbm, 136, rfl⟩
abbrev main_v94 : Ref sig .tc := ⟨.hbm, 137, rfl⟩
abbrev main_cst_21 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_24 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_25 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_26 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_cst_28 : Ref sig .tc := ⟨.hbm, 171, rfl⟩
abbrev main_v121 : Ref sig .tc := ⟨.hbm, 172, rfl⟩
abbrev main_v122 : Ref sig .tc := ⟨.hbm, 173, rfl⟩
abbrev main_cst_29 : Ref sig .tc := ⟨.hbm, 174, rfl⟩
abbrev main_v123 : Ref sig .tc := ⟨.hbm, 175, rfl⟩
abbrev main_cst_30 : Ref sig .tc := ⟨.hbm, 176, rfl⟩
abbrev main_v124 : Ref sig .tc := ⟨.hbm, 177, rfl⟩
abbrev main_v125 : Ref sig .tc := ⟨.hbm, 178, rfl⟩
abbrev main_cst_31 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_32 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_33 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_34 : Ref sig .tc := ⟨.hbm, 195, rfl⟩
abbrev main_v139 : Ref sig .tc := ⟨.hbm, 196, rfl⟩
abbrev main_cst_35 : Ref sig .tc := ⟨.hbm, 197, rfl⟩
abbrev main_v140 : Ref sig .tc := ⟨.hbm, 198, rfl⟩
abbrev main_cst_36 : Ref sig .tc := ⟨.hbm, 199, rfl⟩
abbrev main_v141 : Ref sig .tc := ⟨.hbm, 200, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  bcast_S_S256x256 : S_.BroadcastsInDim S256x256 (![] : Fin 0 → Fin S256x256.rank)
  transposes_S65536x256_S256x65536_1_0 : S65536x256.Transposes [1, 0] S256x65536
  bcast_S_S256x65536 : S_.BroadcastsInDim S256x65536 (![] : Fin 0 → Fin S256x65536.rank)
  bcast_S_S256 : S_.BroadcastsInDim S256 (![] : Fin 0 → Fin S256.rank)
  transposes_S256x65536_S65536x256_1_0 : S256x65536.Transposes [1, 0] S65536x256
  bcast_S_S8192x256 : S_.BroadcastsInDim S8192x256 (![] : Fin 0 → Fin S8192x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  transposes_S8192x1_S1x8192_1_0 : S8192x1.Transposes [1, 0] S1x8192
  bcast_S1x8192_S256x8192_0_1 : S1x8192.BroadcastsInDim S256x8192 (![0, 1] : Fin 2 → Fin S256x8192.rank)
  reducesTo_S256x8192_S256_d1 : S256x8192.ReducesTo [1] S256
  bcast_S_S256x1 : S_.BroadcastsInDim S256x1 (![] : Fin 0 → Fin S256x1.rank)
  bcast_S256x1_S256x8192_0_1 : S256x1.BroadcastsInDim S256x8192 (![0, 1] : Fin 2 → Fin S256x8192.rank)
  concatenates_S256x1_S256x1_S256x2_d1 : Shape.Concatenates [S256x1, S256x1] S256x2 1
  reducesTo_S256_S_d0 : S256.ReducesTo [0] S_
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  dot_S256x256_S256x256_S256x256_1_0_0_1_n_n_wf : DotDims.WF S256x256 S256x256 S256x256 [1] [0] [0] [1] [] []
  dot_S256x256_S256x65536_S256x65536_1_0_0_1_n_n_wf : DotDims.WF S256x256 S256x65536 S256x65536 [1] [0] [0] [1] [] []
  gather_S65536_S256x1_S256_n_0_n_n_0_1_1_wf : GatherDims.WF S65536 S256x1 S256 [] [0] [] [0] [] 1 ![1]
  scatter_S8192x256_S65536x1_S65536x256_1_0_0_1_wf : ScatterDims.WF S8192x256 S65536x1 S65536x256 [1] [0] [0] 1
  scatter_S8192_S65536x1_S65536_n_0_0_1_wf : ScatterDims.WF S8192 S65536x1 S65536 [] [0] [0] 1
  gather_S256x8192_S256x2_S256_n_01_n_n_01_1_11_wf : GatherDims.WF S256x8192 S256x2 S256 [] [0, 1] [] [0, 1] [] 1 ![1, 1]

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x65536_S256x65536_1_0_0_1_n_n : DotDims S256x256 S256x65536 S256x65536 where
  lhsContracting := [1]
  rhsContracting := [0]
  lhsNonContracting := [0]
  rhsNonContracting := [1]
  lhsBatch := []
  rhsBatch := []
  wf := dot_S256x256_S256x65536_S256x65536_1_0_0_1_n_n_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def scatter_S8192x256_S65536x1_S65536x256_1_0_0_1 : ScatterDims S8192x256 S65536x1 S65536x256 where
  updateWindowDims := [1]
  insertedWindowDims := [0]
  scatterDimsToOperandDims := [0]
  indexVectorDim := 1
  wf := scatter_S8192x256_S65536x1_S65536x256_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S256x8192_S256x2_S256_n_01_n_n_01_1_11 : GatherDims S256x8192 S256x2 S256 where
  offsetDims := []
  collapsedSliceDims := [0, 1]
  operandBatchingDims := []
  startIndicesBatchingDims := []
  startIndexMap := [0, 1]
  indexVectorDim := 1
  sliceSizes := ![1, 1]
  wf := gather_S256x8192_S256x2_S256_n_01_n_n_01_1_11_wf

class Facts : Prop extends Facts₀ where

variable [Facts]
-- ==== Proof.K.Base.lean ====
/-
  The host side of the kernel program around its one pallas_call, and the vocabulary the body's runs are stated in.

  The program is: host operations computing the three row-normalised matrices, their pairwise products, the target
  labels and the bf16 copy of the memory bank; the pallas_call over a 2 x 128 grid (class half, tile of the bank);
  then host operations reading the call's two results.  Here: the contents every unscoped buffer has when the call
  is entered (V0), the reduction of the program to "the call, continued by the later host operations", the facts
  that those later operations touch only unscoped buffers, allocate nothing and write none of the call's five
  arrays, the block of each window at a grid point, and the two branch conditions of the body in closed form:
  the first holds at the first tile of each class half (t mod 128 = 0), the second at the last (t mod 128 = 127).
-/
import proofs.«406952_j62079457296450_3_alg».proof.Proof.Gen.Kernel.Launch
import proofs.«406952_j62079457296450_3_alg».proof.Proof.Gen.Kernel.Skeleton
import proofs.«406952_j62079457296450_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before and after the call -/

/-- The stretches of host operations before the call, in order. -/
abbrev preOps : List (List (HloOp τ sig (Elt F))) := [hostOps0, hostOps0_1, hostOps0_2, hostOps0_3, hostOps0_4, hostOps0_5]
/-- The stretches of host operations after the call, in order. -/
abbrev tailOps : List (List (HloOp τ sig (Elt F))) := [hostOps1, hostOps1_1, hostOps1_2]

/-- What every unscoped buffer of core `c` holds when the call is entered. -/
abbrev V0 (c : Dev nD) : Valuation τ sig (Elt F) := StableHlo.after (List.flatten (preOps (F := F))) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- The program reduces to the call continued by the later host operations, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

end Cert.Kernel.Fr

end
-- ==== Proof.K.Conds.lean ====
/-
  The two branch conditions of the kernel body, as propositions over the grid point, and their closed forms over the
  256 points of the 2 x 128 grid: the reset branch is taken at the first tile of each class half, the epilogue
  branch (the product with the augmented features, scaled) at the last tile of each class half.
-/
import proofs.«406952_j62079457296450_3_alg».proof.Proof.Gen.Kernel.Launch
import proofs.«406952_j62079457296450_3_alg».proof.Proof.Gen.Kernel.Skeleton
import proofs.«406952_j62079457296450_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The reset branch's condition: the tile coordinate is zero. -/
abbrev cond0_0 (i : grid0.Coords) : Prop := (Scalar.cmpi .ne (Scalar.extui (Scalar.cmpi .eq (BitVec.ofNat 32 (i 1).val) 0#32)) 0#32) = 1#1
/-- It holds exactly at the points t with t mod 128 = 0. -/
theorem hcond0_0 : ∀ t : Fin cfg0.N, cond0_0 (grid0.coords t) ↔ t.val % 128 = 0 :=
  (by decide +kernel : ∀ t : Fin grid0.N, cond0_0 (grid0.coords t) ↔ t.val % 128 = 0)

/-- The epilogue branch's condition: the tile coordinate is the last, 127. -/
abbrev cond0_1 (i : grid0.Coords) : Prop := k0_cond2 i = 1#1
/-- It holds exactly at the points t with t mod 128 = 127. -/
theorem hcond0_1 : ∀ t : Fin cfg0.N, cond0_1 (grid0.coords t) ↔ t.val % 128 = 127 :=
  (by decide +kernel : ∀ t : Fin grid0.N, cond0_1 (grid0.coords t) ↔ t.val % 128 = 127)

/-- The zero offsets of a whole-buffer rectangle of rank two. -/
theorem hz2 : (![0, 0] : Fin 2 → Nat) = fun _ => 0 := by
  funext a; fin_cases a <;> rfl

end Cert.Kernel.Fr

end
-- ==== Proof.K.Sched.lean ====
/-
  Each window's block at a grid point, what an input window's staging buffer holds there, where the scaled-product
  window is idle (every tile but the last of a class half) and not written back, the staging buffers as the pipeline
  passes them to the body, and the region's invariant with the scratch accumulator made explicit.
-/
import proofs.«406952_j62079457296450_3_alg».proof.Proof.K.Base
import proofs.«406952_j62079457296450_3_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 512 bank rows of the tile, in bf16. -/
abbrev xblk (c : Dev nD) (t : Fin cfg0.N) : Vec F S512x256 .bf16 := iblk m c 0 t
/-- Their 512 labels, as a column. -/
abbrev lblk (c : Dev nD) (t : Fin cfg0.N) : Vec F S512x1 .i32 := iblk m c 1 t
/-- The normalised augmented features, whole. -/
abbrev ablk (c : Dev nD) (t : Fin cfg0.N) : Vec F S256x256 .f32 := iblk m c 2 t

/-- An input window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_4 : ∀ t : Fin cfg0.N, cfg0.idle 4 (grid0.coords t) = false := fun _ => rfl
/-- The scaled-product window is idle at every tile but the last of a class half, -/
theorem idleAt0_3 : ∀ t : Fin cfg0.N, ¬cond0_1 (grid0.coords t) → cfg0.idle 3 (grid0.coords t) = true := by decide +kernel
/-- is not written back there, -/
theorem noFlush0_3 : ∀ t : Fin cfg0.N, ¬cond0_1 (grid0.coords t) → (cfg0.win 3).flush t = false := by decide +kernel
/-- and is live at the last tile. -/
theorem liveAt0_3 : ∀ t : Fin cfg0.N, cond0_1 (grid0.coords t) → cfg0.idle 3 (grid0.coords t) = false := by decide +kernel

/-! ## The staging buffers at a point, and the scratch -/

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM : Memref sig .tc .vmem S4096x256 .f32 := Memref.whole cc0_scratch0

/-- The class's invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.K.Keeps.lean ====
/-
  None of the host operations after the pallas_call writes one of the call's five arrays: each writes only its own
  result buffer, and the result buffers of the later operations are all distinct from the bf16 bank, the label
  column, the normalised augmented features and the call's two results.
-/
import proofs.«406952_j62079457296450_3_alg».proof.Proof.Gen.Kernel.Launch
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Writing none of the call's arrays, for one operation. -/
abbrev KeepsArrays (op : HloOp τ sig (Elt F)) : Prop := ∀ w, Proc.devRef .tc (Pipeline.arrRef spec0 w) ∉ op.writes

theorem hostOps1_keeps : (hostOps1 : List (HloOp τ sig (Elt F))).Forall KeepsArrays := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_1_keeps : (hostOps1_1 : List (HloOp τ sig (Elt F))).Forall KeepsArrays := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

set_option maxHeartbeats 40000000 in
theorem hostOps1_2_keeps : (hostOps1_2 : List (HloOp τ sig (Elt F))).Forall KeepsArrays := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- The later operations write no array of the call. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

end Cert.Kernel.Fr

end
-- ==== Proof.K.RunA.lean ====
/-
  The kernel body run at the first tile of a class half, as one triple over whole staging buffers: which buffers the body needs at
  which contents, and what it leaves in each, named by the body's own arithmetic (the skeleton's payloads).
-/
import proofs.«406952_j62079457296450_3_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first tile the body zeroes the scratch and the counts before it reads them, so it needs them at no
    particular contents; it leaves the scratch at zero plus the one-hot product of this tile and the counts at zero
    plus this tile's column sums of the one-hot block; the result block for the scaled product is not touched. -/
theorem runA (c : Dev nD) (i : grid0.Coords)
    (arg2 : Memref sig .tc .vmem S512x256 .bf16) (harg2 : arg2.IsWhole) (arg3 : Memref sig .tc .vmem S512x1 .i32) (harg3 : arg3.IsWhole)
    (arg4 : Memref sig .tc .vmem S256x256 .f32) (harg4 : arg4.IsWhole) (arg5 : Memref sig .tc .vmem S256x4096 .f32) (harg5 : arg5.IsWhole)
    (arg6 : Memref sig .tc .vmem S1x4096 .f32) (harg6 : arg6.IsWhole) (arg7 : Memref sig .tc .vmem S4096x256 .f32) (harg7 : arg7.IsWhole)
    (hc0 : cond0_0 i) (hc1 : ¬cond0_1 i)
    (x0 : Vec F S512x256 .bf16) (x1 : Vec F S512x1 .i32) (x2 : Vec F S256x256 .f32) (x3 : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 i x1 (k0_pay2 (F := F)))
            ∗ owns (c : Thread nD τ) arg7 fullShare (k0_pay4 i x0 x1 (k0_pay1 (F := F)))) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => ⟨_, List.mem_cons_self, View.mem_set_unit_zero hz2 inb_S1x4096_S1x4096_0_0 y⟩), View.canon_cons_unit_zero hz2]
    sl_unfold_words
    simp only [View.readAt_eq_ld, harg3.read_unread, View.ld_unit_zero (S := S512x1) hz2, View.readCov_unit_zero (S := S1x4096) _ hz2]
  · iexists _; isplitr
    swap; · iexact HS
    ipureintro
    rw [View.read_writes_eq_canon _ _ _ (fun y => ⟨_, List.mem_cons_self, View.mem_set_unit_zero hz2 inb_S4096x256_S4096x256_0_0 y⟩), View.canon_cons_unit_zero hz2]
    sl_unfold_words
    simp only [View.readAt_eq_ld, harg2.read_unread, harg3.read_unread, View.ld_unit_zero (S := S512x256) hz2, View.ld_unit_zero (S := S512x1) hz2, View.readCov_unit_zero (S := S4096x256) _ hz2]

end Cert.Kernel.Fr

end
-- ==== Proof.K.RunB.lean ====
/-
  The kernel body run at a middle tile (neither the first nor the last of its class half), as one triple over whole staging buffers: which buffers the body needs at
  which contents, and what it leaves in each, named by the body's own arithmetic (the skeleton's payloads).
-/
import proofs.«406952_j62079457296450_3_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle tile the body reads the bank block `x0`, the label block `x1`, the scratch `ys` and the counts `y4`;
    it leaves the scratch at the scratch plus the one-hot product of this tile and the counts at the counts plus this
    tile's column sums of the one-hot block; the result block for the scaled product is not touched. -/
theorem runB (c : Dev nD) (i : grid0.Coords)
    (arg2 : Memref sig .tc .vmem S512x256 .bf16) (harg2 : arg2.IsWhole) (arg3 : Memref sig .tc .vmem S512x1 .i32) (harg3 : arg3.IsWhole)
    (arg4 : Memref sig .tc .vmem S256x256 .f32) (harg4 : arg4.IsWhole) (arg5 : Memref sig .tc .vmem S256x4096 .f32) (harg5 : arg5.IsWhole)
    (arg6 : Memref sig .tc .vmem S1x4096 .f32) (harg6 : arg6.IsWhole) (arg7 : Memref sig .tc .vmem S4096x256 .f32) (harg7 : arg7.IsWhole)
    (hc0 : ¬cond0_0 i) (hc1 : ¬cond0_1 i)
    (x0 : Vec F S512x256 .bf16) (x1 : Vec F S512x1 .i32) (x2 : Vec F S256x256 .f32) (x3 : Vec F S256x4096 .f32)
    (y4 : Vec F S1x4096 .f32) (ys : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y4 ∗ owns (c : Thread nD τ) arg7 fullShare ys
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 i x1 y4)
            ∗ owns (c : Thread nD τ) arg7 fullShare (k0_pay4 i x0 x1 ys)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => ⟨_, List.mem_singleton_self _, View.mem_set_unit_zero hz2 inb_S1x4096_S1x4096_0_0 y⟩), View.canon_unit_zero hz2]
    simp only [View.readAt_eq_ld, harg3.read_unread, harg6.read_unread, View.ld_unit_zero (S := S512x1) hz2, View.ld_unit_zero (S := S1x4096) hz2]
  · iexists _; isplitr
    swap; · iexact HS
    ipureintro
    rw [View.read_writes_eq_canon _ _ _ (fun y => ⟨_, List.mem_singleton_self _, View.mem_set_unit_zero hz2 inb_S4096x256_S4096x256_0_0 y⟩), View.canon_unit_zero hz2]
    simp only [View.readAt_eq_ld, harg2.read_unread, harg3.read_unread, harg7.read_unread, View.ld_unit_zero (S := S512x256) hz2, View.ld_unit_zero (S := S512x1) hz2, View.ld_unit_zero (S := S4096x256) hz2]

end Cert.Kernel.Fr

end
-- ==== Proof.K.RunC.lean ====
/-
  The kernel body run at the last tile of a class half, as one triple over whole staging buffers: which buffers the body needs at
  which contents, and what it leaves in each, named by the body's own arithmetic (the skeleton's payloads).
-/
import proofs.«406952_j62079457296450_3_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last tile the body updates the scratch and the counts as at a middle tile, then reads the updated scratch
    back and stores, into the result block (needed at no particular contents), the product of the augmented features
    with the scratch, scaled. -/
theorem runC (c : Dev nD) (i : grid0.Coords)
    (arg2 : Memref sig .tc .vmem S512x256 .bf16) (harg2 : arg2.IsWhole) (arg3 : Memref sig .tc .vmem S512x1 .i32) (harg3 : arg3.IsWhole)
    (arg4 : Memref sig .tc .vmem S256x256 .f32) (harg4 : arg4.IsWhole) (arg5 : Memref sig .tc .vmem S256x4096 .f32) (harg5 : arg5.IsWhole)
    (arg6 : Memref sig .tc .vmem S1x4096 .f32) (harg6 : arg6.IsWhole) (arg7 : Memref sig .tc .vmem S4096x256 .f32) (harg7 : arg7.IsWhole)
    (hc0 : ¬cond0_0 i) (hc1 : cond0_1 i)
    (x0 : Vec F S512x256 .bf16) (x1 : Vec F S512x1 .i32) (x2 : Vec F S256x256 .f32)
    (y4 : Vec F S1x4096 .f32) (ys : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y4 ∗ owns (c : Thread nD τ) arg7 fullShare ys
        ∗ (iprop(owns (c : Thread nD τ) arg2 fullShare x0 ∗ owns (c : Thread nD τ) arg3 fullShare x1 ∗ owns (c : Thread nD τ) arg4 fullShare x2
            ∗ owns (c : Thread nD τ) arg5 fullShare (k0_pay6 x2 (k0_pay4 i x0 x1 ys)) ∗ owns (c : Thread nD τ) arg6 fullShare (k0_pay5 i x1 y4)
            ∗ owns (c : Thread nD τ) arg7 fullShare (k0_pay4 i x0 x1 ys)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2
  obtain rfl := harg6.eq_unread hf4; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, View.mem_set_unit_zero hz2 inb_S256x4096_S256x4096_0_0 y⟩), View.canon_unit_zero hz2]
    sl_unfold_words
    simp only [View.readAt_eq_ld, harg2.read_unread, harg3.read_unread, harg4.read_unread, harg7.read_unread, View.ld_unit_zero (S := S512x256) hz2, View.ld_unit_zero (S := S512x1) hz2, View.ld_unit_zero (S := S256x256) hz2, View.ld_unit_zero (S := S4096x256) hz2, View.readCov_unit_zero (S := S4096x256) _ hz2]
  isplitl [H4]
  · iexists _; isplitr
    swap; · iexact H4
    ipureintro
    rw [View.read_writes_eq_canon _ _ _ (fun y => ⟨_, List.mem_singleton_self _, View.mem_set_unit_zero hz2 inb_S1x4096_S1x4096_0_0 y⟩), View.canon_unit_zero hz2]
    simp only [View.readAt_eq_ld, harg3.read_unread, harg6.read_unread, View.ld_unit_zero (S := S512x1) hz2, View.ld_unit_zero (S := S1x4096) hz2]
  · iexists _; isplitr
    swap; · iexact HS
    ipureintro
    sl_unfold_words
    rw [View.read_writes_eq_canon _ _ _ (fun y => ⟨_, List.mem_singleton_self _, View.mem_set_unit_zero hz2 inb_S4096x256_S4096x256_0_0 y⟩), View.canon_unit_zero hz2]
    simp only [View.readAt_eq_ld, harg2.read_unread, harg3.read_unread, harg7.read_unread, View.ld_unit_zero (S := S512x256) hz2, View.ld_unit_zero (S := S512x1) hz2, View.ld_unit_zero (S := S4096x256) hz2]

end Cert.Kernel.Fr

end
-- ==== Proof.K.Frame.lean ====
/-
  The pallas_call's proof data and the run of the whole program.

  What the counts buffer and the scratch accumulator hold after grid point n is defined by recursion on n: at the
  first tile of a class half (n mod 128 = 0) the body's update applied to zero, at every later tile the body's update
  applied to what the point before left.  The scaled-product window holds, after a point, the product of the augmented
  features with that point's scratch, scaled (it is consulted only at the last tile of a class half, the one point
  where the body stores it and the pipeline writes it back).  The region's invariant carries the scratch at these
  contents from point to point.  The body obligation is discharged by cases on the point (first / middle / last tile)
  with the three runs of the body, and the program's run follows from the launch theorem for a call with host
  operations on both sides.
-/
import proofs.«406952_j62079457296450_3_alg».proof.Proof.K.Sched
import proofs.«406952_j62079457296450_3_alg».proof.Proof.K.Keeps
import proofs.«406952_j62079457296450_3_alg».proof.Proof.K.RunA
import proofs.«406952_j62079457296450_3_alg».proof.Proof.K.RunB
import proofs.«406952_j62079457296450_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators, point by point -/

/-- The counts buffer and the scratch after the body at point `n`. -/
def accAt (c : Dev nD) : (n : ℕ) → n < cfg0.N → Vec F S1x4096 .f32 × Vec F S4096x256 .f32
  | 0, hn => (k0_pay5 (grid0.coords ⟨0, hn⟩) (lblk m c ⟨0, hn⟩) (k0_pay2 (F := F)),
              k0_pay4 (grid0.coords ⟨0, hn⟩) (xblk m c ⟨0, hn⟩) (lblk m c ⟨0, hn⟩) (k0_pay1 (F := F)))
  | n + 1, hn =>
    if (n + 1) % 128 = 0 then
      (k0_pay5 (grid0.coords ⟨n + 1, hn⟩) (lblk m c ⟨n + 1, hn⟩) (k0_pay2 (F := F)),
       k0_pay4 (grid0.coords ⟨n + 1, hn⟩) (xblk m c ⟨n + 1, hn⟩) (lblk m c ⟨n + 1, hn⟩) (k0_pay1 (F := F)))
    else
      (k0_pay5 (grid0.coords ⟨n + 1, hn⟩) (lblk m c ⟨n + 1, hn⟩) (accAt c n (Nat.lt_of_succ_lt hn)).1,
       k0_pay4 (grid0.coords ⟨n + 1, hn⟩) (xblk m c ⟨n + 1, hn⟩) (lblk m c ⟨n + 1, hn⟩) (accAt c n (Nat.lt_of_succ_lt hn)).2)

/-- At the first tile of a class half: the update of zero. -/
theorem accAt_first (c : Dev nD) (t : Fin cfg0.N) (h : t.val % 128 = 0) :
    accAt m c t.val t.isLt = (k0_pay5 (grid0.coords t) (lblk m c t) (k0_pay2 (F := F)),
      k0_pay4 (grid0.coords t) (xblk m c t) (lblk m c t) (k0_pay1 (F := F))) := by
  obtain ⟨n, hn⟩ := t
  cases n with
  | zero => rfl
  | succ n => exact if_pos h

/-- At a later tile: the update of what the point before left. -/
theorem accAt_later (c : Dev nD) (t : Fin cfg0.N) (h : ¬t.val % 128 = 0) :
    accAt m c t.val t.isLt = (k0_pay5 (grid0.coords t) (lblk m c t) (accAt m c (t.val - 1) (Nat.lt_of_le_of_lt (Nat.sub_le _ _) t.isLt)).1,
      k0_pay4 (grid0.coords t) (xblk m c t) (lblk m c t) (accAt m c (t.val - 1) (Nat.lt_of_le_of_lt (Nat.sub_le _ _) t.isLt)).2) := by
  obtain ⟨n, hn⟩ := t
  cases n with
  | zero => exact absurd (Nat.zero_mod _) h
  | succ n => exact if_neg h

/-- The scaled product of the augmented features with the scratch after point `t`. -/
def simAt (c : Dev nD) (t : Fin cfg0.N) : Vec F S256x4096 .f32 := k0_pay6 (ablk m c t) (accAt m c t.val t.isLt).2

/-- The invariant before point `n`: before the first point the class's; afterwards the scratch at what the point
    before left, and the generator register at some state. -/
def PhiS (c : Dev nD) : (n : ℕ) → n ≤ cfg0.N → sProp 𝕄
  | 0, _ => Pipeline.ΦA spec0 c
  | n + 1, hn => iprop(iprop(owns (c : Thread nD τ) scM fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((accAt m c (n - 1) (by omega)).2)) ∗ (∃ r, prngReg c r)) := by
  cases n with
  | zero => exact absurd rfl hz
  | succ n => rfl

/-! ## The proof data -/

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => simAt m c t
    | ⟨4, _⟩ => (accAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = simAt m c t := by dsimp only [dats]
theorem after0_4 (c : Dev nD) (t : Fin cfg0.N) : (dats m 0 c).after 4 t = (accAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first tile of a class half the counts buffer holds what the point before left: it is an output the
    pipeline writes back only after the last tile. -/
theorem before0_4_later (c : Dev nD) (t : Fin cfg0.N) (h : ¬t.val % 128 = 0) (d) :
    (dats m 0 c).before 4 t d = (accAt m c (t.val - 1) (Nat.lt_of_le_of_lt (Nat.sub_le _ _) t.isLt)).1 := by
  have ht : t.val ≠ 0 := fun e => h (by rw [e])
  have hfl : (cfg0.win 4).flush ⟨t.val - 1, Nat.lt_of_le_of_lt (Nat.sub_le _ _) t.isLt⟩ = false := by
    apply Bool.eq_false_iff.mpr
    intro hf
    have := (flush0_4 ⟨t.val - 1, Nat.lt_of_le_of_lt (Nat.sub_le _ _) t.isLt⟩).mp hf
    simp only at this
    omega
  rw [Dat.before_out_kept (dats m 0 c) 4 rfl t ht hfl (fun _ => rfl) (fun _ _ => rfl) d, after0_4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves4 (c : Dev nD) (t : Fin cfg0.N) :
    (dats m 0 c).leavesExact 4 t = owns (c : Thread nD τ) (ms0_4 t) fullShare (accAt m c t.val t.isLt).1 := by
  unfold Dat.leavesExact; rw [liveAt0_4 t, after0_4]
theorem leaves3_live (c : Dev nD) (t : Fin cfg0.N) (h : cond0_1 (grid0.coords t)) :
    (dats m 0 c).leavesExact 3 t = owns (c : Thread nD τ) (ms0_3 t) fullShare (simAt m c t) := by
  unfold Dat.leavesExact; rw [liveAt0_3 t h, after0_3]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves4]
  have hN : t.val < 256 := lt_of_lt_of_eq t.isLt (show cfg0.N = 256 from N_0)
  by_cases h0 : t.val % 128 = 0
  · have h1 : ¬t.val % 128 = 127 := by omega
    have hc0 : cond0_0 (grid0.coords t) := (hcond0_0 t).mpr h0
    have hc1 : ¬cond0_1 (grid0.coords t) := fun h => h1 ((hcond0_1 t).mp h)
    rw [Dat.leavesExact_idle (dats m 0 c) 3 t (idleAt0_3 t hc1) (noFlush0_3 t hc1)]
    rw [accAt_first m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply (runA c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) ((dats m 0 c).before 3 t d3) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (runA c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) ((dats m 0 c).before 3 t d3) Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      iexact H4
  · have hz : t.val ≠ 0 := fun e => h0 (by rw [e])
    have hc0 : ¬cond0_0 (grid0.coords t) := fun h => h0 ((hcond0_0 t).mp h)
    rw [PhiS_castSucc m c t, PhiS_pos m c _ _ hz]
    simp only [before0_4_later m c t h0]
    rw [accAt_later m c t h0]
    by_cases h1 : t.val % 128 = 127
    · have hc1 : cond0_1 (grid0.coords t) := (hcond0_1 t).mpr h1
      rw [leaves3_live m c t hc1]
      unfold simAt
      rw [accAt_later m c t h0]
      iintro ⟨⟨HS, Hg⟩, Ho, ⟨%d0, H0⟩, ⟨%d1, H1⟩, ⟨%d2, H2⟩, ⟨%d3, H3⟩, ⟨%d4, H4⟩⟩
      iapply (runC c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 3 t (idleAt0_3 t hc1) (noFlush0_3 t hc1)]
      iintro ⟨⟨HS, Hg⟩, Ho, ⟨%d0, H0⟩, ⟨%d1, H1⟩, ⟨%d2, H2⟩, ⟨%d3, H3⟩, ⟨%d4, H4⟩⟩
      iapply (runB c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) ((dats m 0 c).before 3 t d3) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS, Hg⟩
  isplitl [HS]
  · iexists _; iexact HS
  iexact Hg

/-! ## The run -/

set_option backward.isDefEq.respectTransparency.types false in
/-- Every weakly fair execution of the program terminates, with each array of the call at what the proof data compute
    and every other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Fr

end
-- ==== Proof.K.Args.lean ====
/-
  No host operation of the program writes one of its six arguments: each operation writes exactly one buffer, its
  own result, and no result buffer is an argument.  So an argument holds, after the host operations that follow the
  pallas_call, what the launch memory held; and each argument is one of the buffers that bypass the call (it is
  unscoped and is none of the call's five arrays).
-/
import proofs.«406952_j62079457296450_3_alg».proof.Proof.K.Base
import Idealize.ShloMosaic.Lib.StableHlo.Run

set_option maxRecDepth 16384

noncomputable section

namespace Cert.Kernel.Fr

open Cert.Kernel Cert.Kernel.Gen
open Idealize.ShloMosaic Idealize.ShloMosaic.TcCoe

variable {F : FTy → Type} [FloatOps F]

/-- The six arguments, as references. -/
abbrev argRefs : List (Ref sig .tc) := [main_arg0, main_arg1, main_arg2, main_arg3, main_arg4, main_arg5]

/-- Writing none of the arguments, for one operation. -/
abbrev KeepsArgs (op : HloOp τ sig (Elt F)) : Prop := ∀ r ∈ argRefs, Proc.devRef .tc r ∉ op.writes

/-- An operation that writes the one buffer `y`, not an argument, writes no argument. -/
theorem keepsArgs_of_writes {op : HloOp τ sig (Elt F)} {y : Ref sig .tc} (hw : op.writes = {Proc.devRef .tc y})
    (hy : y ∉ argRefs) : KeepsArgs op := by
  intro r hr hm
  rw [hw, Finset.mem_singleton] at hm
  exact hy (Proc.devRef_injective _ hm ▸ hr)

/-- Closes `KeepsArgs op` for a literal operation of the builders: its one written buffer, told apart from the arguments. -/
local macro "keeps_args" : tactic =>
  `(tactic| first
    | exact keepsArgs_of_writes (StableHlo.nullary_writes ..) (by decide)
    | exact keepsArgs_of_writes (StableHlo.unary_writes ..) (by decide)
    | exact keepsArgs_of_writes (StableHlo.binary_writes ..) (by decide)
    | exact keepsArgs_of_writes (StableHlo.ternary_writes ..) (by decide)
    | exact keepsArgs_of_writes (StableHlo.reshape_writes ..) (by decide)
    | exact keepsArgs_of_writes (StableHlo.quaternary_writes ..) (by decide)
    | exact keepsArgs_of_writes (StableHlo.nary_writes ..) (by decide)
    | exact keepsArgs_of_writes (StableHlo.unaryIndexed_writes ..) (by decide)
    | exact keepsArgs_of_writes (StableHlo.binaryIndexed_writes ..) (by decide))

theorem hostOps0_keepsArgs : (hostOps0 : List (HloOp τ sig (Elt F))).Forall KeepsArgs := by
  simp only [List.Forall]; repeat' constructor
  all_goals keeps_args
theorem hostOps0_1_keepsArgs : (hostOps0_1 : List (HloOp τ sig (Elt F))).Forall KeepsArgs := by
  simp only [List.Forall]; repeat' constructor
  all_goals keeps_args
theorem hostOps0_2_keepsArgs : (hostOps0_2 : List (HloOp τ sig (Elt F))).Forall KeepsArgs := by
  simp only [List.Forall]; repeat' constructor
  all_goals keeps_args
theorem hostOps0_3_keepsArgs : (hostOps0_3 : List (HloOp τ sig (Elt F))).Forall KeepsArgs := by
  simp only [List.Forall]; repeat' constructor
  all_goals keeps_args
theorem hostOps0_4_keepsArgs : (hostOps0_4 : List (HloOp τ sig (Elt F))).Forall KeepsArgs := by
  simp only [List.Forall]; repeat' constructor
  all_goals keeps_args
theorem hostOps0_5_keepsArgs : (hostOps0_5 : List (HloOp τ sig (Elt F))).Forall KeepsArgs := by
  simp only [List.Forall]; repeat' constructor
  all_goals keeps_args
theorem hostOps1_keepsArgs : (hostOps1 : List (HloOp τ sig (Elt F))).Forall KeepsArgs := by
  simp only [List.Forall]; repeat' constructor
  all_goals keeps_args
theorem hostOps1_1_keepsArgs : (hostOps1_1 : List (HloOp τ sig (Elt F))).Forall KeepsArgs := by
  simp only [List.Forall]; repeat' constructor
  all_goals keeps_args
set_option maxHeartbeats 40000000 in
theorem hostOps1_2_keepsArgs : (hostOps1_2 : List (HloOp τ sig (Elt F))).Forall KeepsArgs := by
  simp only [List.Forall]; repeat' constructor
  all_goals keeps_args

/-- No operation before the call writes an argument. -/
theorem pre_keepsArgs : ∀ op ∈ (preOps (F := F)).flatten, KeepsArgs op := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps0_keepsArgs) op hop
  · exact (List.forall_iff_forall_mem.mp hostOps0_1_keepsArgs) op hop
  · exact (List.forall_iff_forall_mem.mp hostOps0_2_keepsArgs) op hop
  · exact (List.forall_iff_forall_mem.mp hostOps0_3_keepsArgs) op hop
  · exact (List.forall_iff_forall_mem.mp hostOps0_4_keepsArgs) op hop
  · exact (List.forall_iff_forall_mem.mp hostOps0_5_keepsArgs) op hop

/-- No operation after the call writes an argument. -/
theorem tail_keepsArgs : ∀ op ∈ (tailOps (F := F)).flatten, KeepsArgs op := by
  intro op hop
  obtain ⟨ops, hops, hop⟩ := List.mem_flatten.mp hop
  simp only [List.mem_cons, List.mem_nil_iff, or_false] at hops
  rcases hops with rfl | rfl | rfl
  · exact (List.forall_iff_forall_mem.mp hostOps1_keepsArgs) op hop
  · exact (List.forall_iff_forall_mem.mp hostOps1_1_keepsArgs) op hop
  · exact (List.forall_iff_forall_mem.mp hostOps1_2_keepsArgs) op hop

variable (m : (ℓ : Loc nD τ sig) → Buf (Elt F) ℓ) (c : Dev nD)
  (dats : (p : Fin 1) → (c : Dev nD) → Pipeline.Dat τ (Elt F) Unit ℕ (UR sig nD τ) ℕ (cfgs p) c)

/-- An argument that is none of the call's arrays holds, after the whole program's host operations, what the launch
    memory held. -/
theorem tail_of_arg (r : Ref sig .tc) (hr : r ∈ argRefs) (harr : ∀ w, Pipeline.arrRef spec0 w ≠ r) :
    Pipeline.afterTail₀ cfgs dats 0 (V0 m) tailOps c r = m ((c.tc : Thread nD τ).loc r) := by
  unfold Pipeline.afterTail₀
  rw [StableHlo.after_of_forall_not_mem _ _ (fun op hop => tail_keepsArgs op hop r hr),
    Pipeline.withArrays_of_ne _ c _ _ r harr]
  exact StableHlo.after_of_forall_not_mem _ _ (fun op hop => pre_keepsArgs op hop r hr)

theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem arg2_rest : main_arg2 ∈ Pipeline.restRefs sig spec0 := Pipeline.mem_restRefs_of main_arg2 rfl (by decide)
theorem arg3_rest : main_arg3 ∈ Pipeline.restRefs sig spec0 := Pipeline.mem_restRefs_of main_arg3 rfl (by decide)
theorem arg4_rest : main_arg4 ∈ Pipeline.restRefs sig spec0 := Pipeline.mem_restRefs_of main_arg4 rfl (by decide)
theorem arg5_rest : main_arg5 ∈ Pipeline.restRefs sig spec0 := Pipeline.mem_restRefs_of main_arg5 rfl (by decide)

theorem tail_arg0 : Pipeline.afterTail₀ cfgs dats 0 (V0 m) tailOps c main_arg0 = m ((c.tc : Thread nD τ).loc main_arg0) :=
  tail_of_arg m c dats main_arg0 (by decide) (by decide)
theorem tail_arg1 : Pipeline.afterTail₀ cfgs dats 0 (V0 m) tailOps c main_arg1 = m ((c.tc : Thread nD τ).loc main_arg1) :=
  tail_of_arg m c dats main_arg1 (by decide) (by decide)
theorem tail_arg2 : Pipeline.afterTail₀ cfgs dats 0 (V0 m) tailOps c main_arg2 = m ((c.tc : Thread nD τ).loc main_arg2) :=
  tail_of_arg m c dats main_arg2 (by decide) (by decide)
theorem tail_arg3 : Pipeline.afterTail₀ cfgs dats 0 (V0 m) tailOps c main_arg3 = m ((c.tc : Thread nD τ).loc main_arg3) :=
  tail_of_arg m c dats main_arg3 (by decide) (by decide)
theorem tail_arg4 : Pipeline.afterTail₀ cfgs dats 0 (V0 m) tailOps c main_arg4 = m ((c.tc : Thread nD τ).loc main_arg4) :=
  tail_of_arg m c dats main_arg4 (by decide) (by decide)
theorem tail_arg5 : Pipeline.afterTail₀ cfgs dats 0 (V0 m) tailOps c main_arg5 = m ((c.tc : Thread nD τ).loc main_arg5) :=
  tail_of_arg m c dats main_arg5 (by decide) (by decide)

end Cert.Kernel.Fr

end
-- ==== Proof.K.FrameClaim.lean ====
/-
  The frame of the program: every weakly fair execution terminates without a fault and the six argument arrays end
  as they began.  From the program's run: an argument is none of the call's five arrays, so it ends as the later host
  operations leave it, and no host operation, before or after the call, writes an argument.
-/
import proofs.«406952_j62079457296450_3_alg».proof.Proof.K.Frame
import proofs.«406952_j62079457296450_3_alg».proof.Proof.K.Args

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_arg0 arg0_rest).trans (tail_arg0 m c (dats m)),
     ((h c).2 main_arg1 arg1_rest).trans (tail_arg1 m c (dats m)),
     ((h c).2 main_arg2 arg2_rest).trans (tail_arg2 m c (dats m)),
     ((h c).2 main_arg3 arg3_rest).trans (tail_arg3 m c (dats m)),
     ((h c).2 main_arg4 arg4_rest).trans (tail_arg4 m c (dats m)),
     ((h c).2 main_arg5 arg5_rest).trans (tail_arg5 m c (dats m))⟩)
    (run_main m ρ)

end Cert.Kernel.Fr

end
-- ==== Proof.KI.Base.lean ====
/-
  The host side of the kernel program around its one pallas_call, and the vocabulary the body's runs are stated in.

  The program is: host operations computing the three row-normalised matrices, their pairwise products, the target
  labels and the bf16 copy of the memory bank; the pallas_call over a 2 x 128 grid (class half, tile of the bank);
  then host operations reading the call's two results.  Here: the contents every unscoped buffer has when the call
  is entered (V0), the reduction of the program to "the call, continued by the later host operations", the facts
  that those later operations touch only unscoped buffers, allocate nothing and write none of the call's five
  arrays, the block of each window at a grid point, and the two branch conditions of the body in closed form:
  the first holds at the first tile of each class half (t mod 128 = 0), the second at the last (t mod 128 = 127).
-/
import proofs.«406952_j62079457296450_3_alg».proof.Proof.Gen.KernelIdeal.Launch
import proofs.«406952_j62079457296450_3_alg».proof.Proof.Gen.KernelIdeal.Skeleton
import proofs.«406952_j62079457296450_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before and after the call -/

/-- The stretches of host operations before the call, in order. -/
abbrev preOps : List (List (HloOp τ sig (Elt F))) := [hostOps0, hostOps0_1, hostOps0_2, hostOps0_3, hostOps0_4, hostOps0_5]
/-- The stretches of host operations after the call, in order. -/
abbrev tailOps : List (List (HloOp τ sig (Elt F))) := [hostOps1, hostOps1_1, hostOps1_2]

/-- What every unscoped buffer of core `c` holds when the call is entered. -/
abbrev V0 (c : Dev nD) : Valuation τ sig (Elt F) := StableHlo.after (List.flatten (preOps (F := F))) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- The program reduces to the call continued by the later host operations, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

end Cert.KernelIdeal.Fr

end
-- ==== Proof.KI.Conds.lean ====
/-
  The two branch conditions of the kernel body, as propositions over the grid point, and their closed forms over the
  256 points of the 2 x 128 grid: the reset branch is taken at the first tile of each class half, the epilogue
  branch (the product with the augmented features, scaled) at the last tile of each class half.
-/
import proofs.«406952_j62079457296450_3_alg».proof.Proof.Gen.KernelIdeal.Launch
import proofs.«406952_j62079457296450_3_alg».proof.Proof.Gen.KernelIdeal.Skeleton
import proofs.«406952_j62079457296450_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The reset branch's condition: the tile coordinate is zero. -/
abbrev cond0_0 (i : grid0.Coords) : Prop := (Scalar.cmpi .ne (Scalar.extui (Scalar.cmpi .eq (BitVec.ofNat 32 (i 1).val) 0#32)) 0#32) = 1#1
/-- It holds exactly at the points t with t mod 128 = 0. -/
theorem hcond0_0 : ∀ t : Fin cfg0.N, cond0_0 (grid0.coords t) ↔ t.val % 128 = 0 :=
  (by decide +kernel : ∀ t : Fin grid0.N, cond0_0 (grid0.coords t) ↔ t.val % 128 = 0)

/-- The epilogue branch's condition: the tile coordinate is the last, 127. -/
abbrev cond0_1 (i : grid0.Coords) : Prop := k0_cond2 i = 1#1
/-- It holds exactly at the points t with t mod 128 = 127. -/
theorem hcond0_1 : ∀ t : Fin cfg0.N, cond0_1 (grid0.coords t) ↔ t.val % 128 = 127 :=
  (by decide +kernel : ∀ t : Fin grid0.N, cond0_1 (grid0.coords t) ↔ t.val % 128 = 127)

/-- The zero offsets of a whole-buffer rectangle of rank two. -/
theorem hz2 : (![0, 0] : Fin 2 → Nat) = fun _ => 0 := by
  funext a; fin_cases a <;> rfl

end Cert.KernelIdeal.Fr

end
-- ==== Proof.KI.Sched.lean ====
/-
  Each window's block at a grid point, what an input window's staging buffer holds there, where the scaled-product
  window is idle (every tile but the last of a class half) and not written back, the staging buffers as the pipeline
  passes them to the body, and the region's invariant with the scratch accumulator made explicit.
-/
import proofs.«406952_j62079457296450_3_alg».proof.Proof.KI.Base
import proofs.«406952_j62079457296450_3_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 512 bank rows of the tile, in bf16. -/
abbrev xblk (c : Dev nD) (t : Fin cfg0.N) : Vec F S512x256 .bf16 := iblk m c 0 t
/-- Their 512 labels, as a column. -/
abbrev lblk (c : Dev nD) (t : Fin cfg0.N) : Vec F S512x1 .i32 := iblk m c 1 t
/-- The normalised augmented features, whole. -/
abbrev ablk (c : Dev nD) (t : Fin cfg0.N) : Vec F S256x256 .f32 := iblk m c 2 t

/-- An input window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_4 : ∀ t : Fin cfg0.N, cfg0.idle 4 (grid0.coords t) = false := fun _ => rfl
/-- The scaled-product window is idle at every tile but the last of a class half, -/
theorem idleAt0_3 : ∀ t : Fin cfg0.N, ¬cond0_1 (grid0.coords t) → cfg0.idle 3 (grid0.coords t) = true := by decide +kernel
/-- is not written back there, -/
theorem noFlush0_3 : ∀ t : Fin cfg0.N, ¬cond0_1 (grid0.coords t) → (cfg0.win 3).flush t = false := by decide +kernel
/-- and is live at the last tile. -/
theorem liveAt0_3 : ∀ t : Fin cfg0.N, cond0_1 (grid0.coords t) → cfg0.idle 3 (grid0.coords t) = false := by decide +kernel

/-! ## The staging buffers at a point, and the scratch -/

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM : Memref sig .tc .vmem S4096x256 .f32 := Memref.whole cc0_scratch0

/-- The class's invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KI.Keeps.lean ====
/-
  None of the host operations after the pallas_call writes one of the call's five arrays: each writes only its own
  result buffer, and the result buffers of the later operations are all distinct from the bf16 bank, the label
  column, the normalised augmented features and the call's two results.
-/
import proofs.«406952_j62079457296450_3_alg».proof.Proof.Gen.KernelIdeal.Launch
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Writing none of the call's arrays, for one operation. -/
abbrev KeepsArrays (op : HloOp τ sig (Elt F)) : Prop := ∀ w, Proc.devRef .tc (Pipeline.arrRef spec0 w) ∉ op.writes

theorem hostOps1_keeps : (hostOps1 : List (HloOp τ sig (Elt F))).Forall KeepsArrays := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_1_keeps : (hostOps1_1 : List (HloOp τ sig (Elt F))).Forall KeepsArrays := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

set_option maxHeartbeats 40000000 in
theorem hostOps1_2_keeps : (hostOps1_2 : List (HloOp τ sig (Elt F))).Forall KeepsArrays := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- The later operations write no array of the call. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

end Cert.KernelIdeal.Fr

end
-- ==== Proof.KI.RunA.lean ====
/-
  The kernel body run at the first tile of a class half, as one triple over whole staging buffers: which buffers the body needs at
  which contents, and what it leaves in each, named by the body's own arithmetic (the skeleton's payloads).
-/
import proofs.«406952_j62079457296450_3_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the first tile the body zeroes the scratch and the counts before it reads them, so it needs them at no
    particular contents; it leaves the scratch at zero plus the one-hot product of this tile and the counts at zero
    plus this tile's column sums of the one-hot block; the result block for the scaled product is not touched. -/
theorem runA (c : Dev nD) (i : grid0.Coords)
    (arg2 : Memref sig .tc .vmem S512x256 .bf16) (harg2 : arg2.IsWhole) (arg3 : Memref sig .tc .vmem S512x1 .i32) (harg3 : arg3.IsWhole)
    (arg4 : Memref sig .tc .vmem S256x256 .f32) (harg4 : arg4.IsWhole) (arg5 : Memref sig .tc .vmem S256x4096 .f32) (harg5 : arg5.IsWhole)
    (arg6 : Memref sig .tc .vmem S1x4096 .f32) (harg6 : arg6.IsWhole) (arg7 : Memref sig .tc .vmem S4096x256 .f32) (harg7 : arg7.IsWhole)
    (hc0 : cond0_0 i) (hc1 : ¬cond0_1 i)
    (x0 : Vec F S512x256 .bf16) (x1 : Vec F S512x1 .i32) (x2 : Vec F S256x256 .f32) (x3 : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 i x1 (k0_pay2 (F := F)))
            ∗ owns (c : Thread nD τ) arg7 fullShare (k0_pay4 i x0 x1 (k0_pay1 (F := F)))) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => ⟨_, List.mem_cons_self, View.mem_set_unit_zero hz2 inb_S1x4096_S1x4096_0_0 y⟩), View.canon_cons_unit_zero hz2]
    sl_unfold_words
    simp only [View.readAt_eq_ld, harg3.read_unread, View.ld_unit_zero (S := S512x1) hz2, View.readCov_unit_zero (S := S1x4096) _ hz2]
  · iexists _; isplitr
    swap; · iexact HS
    ipureintro
    rw [View.read_writes_eq_canon _ _ _ (fun y => ⟨_, List.mem_cons_self, View.mem_set_unit_zero hz2 inb_S4096x256_S4096x256_0_0 y⟩), View.canon_cons_unit_zero hz2]
    sl_unfold_words
    simp only [View.readAt_eq_ld, harg2.read_unread, harg3.read_unread, View.ld_unit_zero (S := S512x256) hz2, View.ld_unit_zero (S := S512x1) hz2, View.readCov_unit_zero (S := S4096x256) _ hz2]

end Cert.KernelIdeal.Fr

end
-- ==== Proof.KI.RunB.lean ====
/-
  The kernel body run at a middle tile (neither the first nor the last of its class half), as one triple over whole staging buffers: which buffers the body needs at
  which contents, and what it leaves in each, named by the body's own arithmetic (the skeleton's payloads).
-/
import proofs.«406952_j62079457296450_3_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At a middle tile the body reads the bank block `x0`, the label block `x1`, the scratch `ys` and the counts `y4`;
    it leaves the scratch at the scratch plus the one-hot product of this tile and the counts at the counts plus this
    tile's column sums of the one-hot block; the result block for the scaled product is not touched. -/
theorem runB (c : Dev nD) (i : grid0.Coords)
    (arg2 : Memref sig .tc .vmem S512x256 .bf16) (harg2 : arg2.IsWhole) (arg3 : Memref sig .tc .vmem S512x1 .i32) (harg3 : arg3.IsWhole)
    (arg4 : Memref sig .tc .vmem S256x256 .f32) (harg4 : arg4.IsWhole) (arg5 : Memref sig .tc .vmem S256x4096 .f32) (harg5 : arg5.IsWhole)
    (arg6 : Memref sig .tc .vmem S1x4096 .f32) (harg6 : arg6.IsWhole) (arg7 : Memref sig .tc .vmem S4096x256 .f32) (harg7 : arg7.IsWhole)
    (hc0 : ¬cond0_0 i) (hc1 : ¬cond0_1 i)
    (x0 : Vec F S512x256 .bf16) (x1 : Vec F S512x1 .i32) (x2 : Vec F S256x256 .f32) (x3 : Vec F S256x4096 .f32)
    (y4 : Vec F S1x4096 .f32) (ys : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y4 ∗ owns (c : Thread nD τ) arg7 fullShare ys
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 i x1 y4)
            ∗ owns (c : Thread nD τ) arg7 fullShare (k0_pay4 i x0 x1 ys)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => ⟨_, List.mem_singleton_self _, View.mem_set_unit_zero hz2 inb_S1x4096_S1x4096_0_0 y⟩), View.canon_unit_zero hz2]
    simp only [View.readAt_eq_ld, harg3.read_unread, harg6.read_unread, View.ld_unit_zero (S := S512x1) hz2, View.ld_unit_zero (S := S1x4096) hz2]
  · iexists _; isplitr
    swap; · iexact HS
    ipureintro
    rw [View.read_writes_eq_canon _ _ _ (fun y => ⟨_, List.mem_singleton_self _, View.mem_set_unit_zero hz2 inb_S4096x256_S4096x256_0_0 y⟩), View.canon_unit_zero hz2]
    simp only [View.readAt_eq_ld, harg2.read_unread, harg3.read_unread, harg7.read_unread, View.ld_unit_zero (S := S512x256) hz2, View.ld_unit_zero (S := S512x1) hz2, View.ld_unit_zero (S := S4096x256) hz2]

end Cert.KernelIdeal.Fr

end
-- ==== Proof.KI.RunC.lean ====
/-
  The kernel body run at the last tile of a class half, as one triple over whole staging buffers: which buffers the body needs at
  which contents, and what it leaves in each, named by the body's own arithmetic (the skeleton's payloads).
-/
import proofs.«406952_j62079457296450_3_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the last tile the body updates the scratch and the counts as at a middle tile, then reads the updated scratch
    back and stores, into the result block (needed at no particular contents), the product of the augmented features
    with the scratch, scaled. -/
theorem runC (c : Dev nD) (i : grid0.Coords)
    (arg2 : Memref sig .tc .vmem S512x256 .bf16) (harg2 : arg2.IsWhole) (arg3 : Memref sig .tc .vmem S512x1 .i32) (harg3 : arg3.IsWhole)
    (arg4 : Memref sig .tc .vmem S256x256 .f32) (harg4 : arg4.IsWhole) (arg5 : Memref sig .tc .vmem S256x4096 .f32) (harg5 : arg5.IsWhole)
    (arg6 : Memref sig .tc .vmem S1x4096 .f32) (harg6 : arg6.IsWhole) (arg7 : Memref sig .tc .vmem S4096x256 .f32) (harg7 : arg7.IsWhole)
    (hc0 : ¬cond0_0 i) (hc1 : cond0_1 i)
    (x0 : Vec F S512x256 .bf16) (x1 : Vec F S512x1 .i32) (x2 : Vec F S256x256 .f32)
    (y4 : Vec F S1x4096 .f32) (ys : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y4 ∗ owns (c : Thread nD τ) arg7 fullShare ys
        ∗ (iprop(owns (c : Thread nD τ) arg2 fullShare x0 ∗ owns (c : Thread nD τ) arg3 fullShare x1 ∗ owns (c : Thread nD τ) arg4 fullShare x2
            ∗ owns (c : Thread nD τ) arg5 fullShare (k0_pay6 x2 (k0_pay4 i x0 x1 ys)) ∗ owns (c : Thread nD τ) arg6 fullShare (k0_pay5 i x1 y4)
            ∗ owns (c : Thread nD τ) arg7 fullShare (k0_pay4 i x0 x1 ys)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2
  obtain rfl := harg6.eq_unread hf4; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, View.mem_set_unit_zero hz2 inb_S256x4096_S256x4096_0_0 y⟩), View.canon_unit_zero hz2]
    sl_unfold_words
    simp only [View.readAt_eq_ld, harg2.read_unread, harg3.read_unread, harg4.read_unread, harg7.read_unread, View.ld_unit_zero (S := S512x256) hz2, View.ld_unit_zero (S := S512x1) hz2, View.ld_unit_zero (S := S256x256) hz2, View.ld_unit_zero (S := S4096x256) hz2, View.readCov_unit_zero (S := S4096x256) _ hz2]
  isplitl [H4]
  · iexists _; isplitr
    swap; · iexact H4
    ipureintro
    rw [View.read_writes_eq_canon _ _ _ (fun y => ⟨_, List.mem_singleton_self _, View.mem_set_unit_zero hz2 inb_S1x4096_S1x4096_0_0 y⟩), View.canon_unit_zero hz2]
    simp only [View.readAt_eq_ld, harg3.read_unread, harg6.read_unread, View.ld_unit_zero (S := S512x1) hz2, View.ld_unit_zero (S := S1x4096) hz2]
  · iexists _; isplitr
    swap; · iexact HS
    ipureintro
    sl_unfold_words
    rw [View.read_writes_eq_canon _ _ _ (fun y => ⟨_, List.mem_singleton_self _, View.mem_set_unit_zero hz2 inb_S4096x256_S4096x256_0_0 y⟩), View.canon_unit_zero hz2]
    simp only [View.readAt_eq_ld, harg2.read_unread, harg3.read_unread, harg7.read_unread, View.ld_unit_zero (S := S512x256) hz2, View.ld_unit_zero (S := S512x1) hz2, View.ld_unit_zero (S := S4096x256) hz2]

end Cert.KernelIdeal.Fr

end
-- ==== Proof.KI.Frame.lean ====
/-
  The pallas_call's proof data and the run of the whole program.

  What the counts buffer and the scratch accumulator hold after grid point n is defined by recursion on n: at the
  first tile of a class half (n mod 128 = 0) the body's update applied to zero, at every later tile the body's update
  applied to what the point before left.  The scaled-product window holds, after a point, the product of the augmented
  features with that point's scratch, scaled (it is consulted only at the last tile of a class half, the one point
  where the body stores it and the pipeline writes it back).  The region's invariant carries the scratch at these
  contents from point to point.  The body obligation is discharged by cases on the point (first / middle / last tile)
  with the three runs of the body, and the program's run follows from the launch theorem for a call with host
  operations on both sides.
-/
import proofs.«406952_j62079457296450_3_alg».proof.Proof.KI.Sched
import proofs.«406952_j62079457296450_3_alg».proof.Proof.KI.Keeps
import proofs.«406952_j62079457296450_3_alg».proof.Proof.KI.RunA
import proofs.«406952_j62079457296450_3_alg».proof.Proof.KI.RunB
import proofs.«406952_j62079457296450_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The accumulators, point by point -/

/-- The counts buffer and the scratch after the body at point `n`. -/
def accAt (c : Dev nD) : (n : ℕ) → n < cfg0.N → Vec F S1x4096 .f32 × Vec F S4096x256 .f32
  | 0, hn => (k0_pay5 (grid0.coords ⟨0, hn⟩) (lblk m c ⟨0, hn⟩) (k0_pay2 (F := F)),
              k0_pay4 (grid0.coords ⟨0, hn⟩) (xblk m c ⟨0, hn⟩) (lblk m c ⟨0, hn⟩) (k0_pay1 (F := F)))
  | n + 1, hn =>
    if (n + 1) % 128 = 0 then
      (k0_pay5 (grid0.coords ⟨n + 1, hn⟩) (lblk m c ⟨n + 1, hn⟩) (k0_pay2 (F := F)),
       k0_pay4 (grid0.coords ⟨n + 1, hn⟩) (xblk m c ⟨n + 1, hn⟩) (lblk m c ⟨n + 1, hn⟩) (k0_pay1 (F := F)))
    else
      (k0_pay5 (grid0.coords ⟨n + 1, hn⟩) (lblk m c ⟨n + 1, hn⟩) (accAt c n (Nat.lt_of_succ_lt hn)).1,
       k0_pay4 (grid0.coords ⟨n + 1, hn⟩) (xblk m c ⟨n + 1, hn⟩) (lblk m c ⟨n + 1, hn⟩) (accAt c n (Nat.lt_of_succ_lt hn)).2)

/-- At the first tile of a class half: the update of zero. -/
theorem accAt_first (c : Dev nD) (t : Fin cfg0.N) (h : t.val % 128 = 0) :
    accAt m c t.val t.isLt = (k0_pay5 (grid0.coords t) (lblk m c t) (k0_pay2 (F := F)),
      k0_pay4 (grid0.coords t) (xblk m c t) (lblk m c t) (k0_pay1 (F := F))) := by
  obtain ⟨n, hn⟩ := t
  cases n with
  | zero => rfl
  | succ n => exact if_pos h

/-- At a later tile: the update of what the point before left. -/
theorem accAt_later (c : Dev nD) (t : Fin cfg0.N) (h : ¬t.val % 128 = 0) :
    accAt m c t.val t.isLt = (k0_pay5 (grid0.coords t) (lblk m c t) (accAt m c (t.val - 1) (Nat.lt_of_le_of_lt (Nat.sub_le _ _) t.isLt)).1,
      k0_pay4 (grid0.coords t) (xblk m c t) (lblk m c t) (accAt m c (t.val - 1) (Nat.lt_of_le_of_lt (Nat.sub_le _ _) t.isLt)).2) := by
  obtain ⟨n, hn⟩ := t
  cases n with
  | zero => exact absurd (Nat.zero_mod _) h
  | succ n => exact if_neg h

/-- The scaled product of the augmented features with the scratch after point `t`. -/
def simAt (c : Dev nD) (t : Fin cfg0.N) : Vec F S256x4096 .f32 := k0_pay6 (ablk m c t) (accAt m c t.val t.isLt).2

/-- The invariant before point `n`: before the first point the class's; afterwards the scratch at what the point
    before left, and the generator register at some state. -/
def PhiS (c : Dev nD) : (n : ℕ) → n ≤ cfg0.N → sProp 𝕄
  | 0, _ => Pipeline.ΦA spec0 c
  | n + 1, hn => iprop(iprop(owns (c : Thread nD τ) scM fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((accAt m c (n - 1) (by omega)).2)) ∗ (∃ r, prngReg c r)) := by
  cases n with
  | zero => exact absurd rfl hz
  | succ n => rfl

/-! ## The proof data -/

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => simAt m c t
    | ⟨4, _⟩ => (accAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = simAt m c t := by dsimp only [dats]
theorem after0_4 (c : Dev nD) (t : Fin cfg0.N) : (dats m 0 c).after 4 t = (accAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first tile of a class half the counts buffer holds what the point before left: it is an output the
    pipeline writes back only after the last tile. -/
theorem before0_4_later (c : Dev nD) (t : Fin cfg0.N) (h : ¬t.val % 128 = 0) (d) :
    (dats m 0 c).before 4 t d = (accAt m c (t.val - 1) (Nat.lt_of_le_of_lt (Nat.sub_le _ _) t.isLt)).1 := by
  have ht : t.val ≠ 0 := fun e => h (by rw [e])
  have hfl : (cfg0.win 4).flush ⟨t.val - 1, Nat.lt_of_le_of_lt (Nat.sub_le _ _) t.isLt⟩ = false := by
    apply Bool.eq_false_iff.mpr
    intro hf
    have := (flush0_4 ⟨t.val - 1, Nat.lt_of_le_of_lt (Nat.sub_le _ _) t.isLt⟩).mp hf
    simp only at this
    omega
  rw [Dat.before_out_kept (dats m 0 c) 4 rfl t ht hfl (fun _ => rfl) (fun _ _ => rfl) d, after0_4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves4 (c : Dev nD) (t : Fin cfg0.N) :
    (dats m 0 c).leavesExact 4 t = owns (c : Thread nD τ) (ms0_4 t) fullShare (accAt m c t.val t.isLt).1 := by
  unfold Dat.leavesExact; rw [liveAt0_4 t, after0_4]
theorem leaves3_live (c : Dev nD) (t : Fin cfg0.N) (h : cond0_1 (grid0.coords t)) :
    (dats m 0 c).leavesExact 3 t = owns (c : Thread nD τ) (ms0_3 t) fullShare (simAt m c t) := by
  unfold Dat.leavesExact; rw [liveAt0_3 t h, after0_3]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves4]
  have hN : t.val < 256 := lt_of_lt_of_eq t.isLt (show cfg0.N = 256 from N_0)
  by_cases h0 : t.val % 128 = 0
  · have h1 : ¬t.val % 128 = 127 := by omega
    have hc0 : cond0_0 (grid0.coords t) := (hcond0_0 t).mpr h0
    have hc1 : ¬cond0_1 (grid0.coords t) := fun h => h1 ((hcond0_1 t).mp h)
    rw [Dat.leavesExact_idle (dats m 0 c) 3 t (idleAt0_3 t hc1) (noFlush0_3 t hc1)]
    rw [accAt_first m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply (runA c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) ((dats m 0 c).before 3 t d3) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (runA c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) ((dats m 0 c).before 3 t d3) Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      iexact H4
  · have hz : t.val ≠ 0 := fun e => h0 (by rw [e])
    have hc0 : ¬cond0_0 (grid0.coords t) := fun h => h0 ((hcond0_0 t).mp h)
    rw [PhiS_castSucc m c t, PhiS_pos m c _ _ hz]
    simp only [before0_4_later m c t h0]
    rw [accAt_later m c t h0]
    by_cases h1 : t.val % 128 = 127
    · have hc1 : cond0_1 (grid0.coords t) := (hcond0_1 t).mpr h1
      rw [leaves3_live m c t hc1]
      unfold simAt
      rw [accAt_later m c t h0]
      iintro ⟨⟨HS, Hg⟩, Ho, ⟨%d0, H0⟩, ⟨%d1, H1⟩, ⟨%d2, H2⟩, ⟨%d3, H3⟩, ⟨%d4, H4⟩⟩
      iapply (runC c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 3 t (idleAt0_3 t hc1) (noFlush0_3 t hc1)]
      iintro ⟨⟨HS, Hg⟩, Ho, ⟨%d0, H0⟩, ⟨%d1, H1⟩, ⟨%d2, H2⟩, ⟨%d3, H3⟩, ⟨%d4, H4⟩⟩
      iapply (runB c (grid0.coords t) (ms0_0 t) (hs0_0 t) (ms0_1 t) (hs0_1 t) (ms0_2 t) (hs0_2 t) (ms0_3 t) (hs0_3 t) (ms0_4 t) (hs0_4 t) scM (Memref.isWhole_whole _) hc0 hc1 (xblk m c t) (lblk m c t) (ablk m c t) ((dats m 0 c).before 3 t d3) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS, Hg⟩
  isplitl [HS]
  · iexists _; iexact HS
  iexact Hg

/-! ## The run -/

set_option backward.isDefEq.respectTransparency.types false in
/-- Every weakly fair execution of the program terminates, with each array of the call at what the proof data compute
    and every other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Fr

end
-- ==== Proof.KI.Args.lean ====
/-
  No host operation of the program writes one of its six arguments: each operation writes exactly one buffer, its
  own result, and no result buffer is an argument.  So an argument holds, after the host operations that follow the
  pallas_call, what the launch memory held; and each argument is one of the buffers that bypass the call (it is
  unscoped and is none of the call's five arrays).
-/
import proofs.«406952_j62079457296450_3_alg».proof.Proof.KI.Base
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe

variable {F : FTy → Type} [FloatOps F] [Named F]

/-- The six arguments, as references. -/
abbrev argRefs : List (Ref sig .tc) := [main_arg0, main_arg1, main_arg2, main_arg3, main_arg4, main_arg5]

/-- Writing none of the arguments, for one operation. -/
abbrev KeepsArgs (op : HloOp τ sig (Elt F)) : Prop := ∀ r ∈ argRefs, Proc.devRef .tc r ∉ op.writes

/-- An operation that writes the one buffer `y`, not an argument, writes no argument. -/
theorem keepsArgs_of_writes {op : HloOp τ sig (Elt F)} {y : Ref sig .tc} (hw : op.writes = {Proc.devRef .tc y})
    (hy : y ∉ argRefs) : KeepsArgs op := by
  intro r hr hm
  rw [hw, Finset.mem_singleton] at hm
  exact hy (Proc.devRef_injective _ hm ▸ hr)

/-- Closes `KeepsArgs op` for a literal operation of the builders: its one written buffer, told apart from the arguments. -/
local macro "keeps_args" : tactic =>
  `(tactic| first
    | exact keepsArgs_of_writes (StableHlo.nullary_writes ..) (by decide)
    | exact keepsArgs_of_writes (StableHlo.unary_writes ..) (by decide)
    | exact keepsArgs_of_writes (StableHlo.binary_writes ..) (by decide)
    | exact keepsArgs_of_writes (StableHlo.ternary_writes ..) (by decide)
    | exact keepsArgs_of_writes (StableHlo.reshape_writes ..) (by decide)
    | exact keepsArgs_of_writes (StableHlo.quaternary_writes ..) (by decide)
    | exact keepsArgs_of_writes (StableHlo.nary_writes ..) (by decide)
    | exact keepsArgs_of_writes (StableHlo.unaryIndexed_writes ..) (by decide)
    | exact keepsArgs_of_writes (StableHlo.binaryIndexed_writes ..) (by decide))

theorem hostOps0_keepsArgs : (hostOps0 : List (HloOp τ sig (Elt F))).Forall KeepsArgs := by
  simp only [List.Forall]; repeat' constructor
  all_goals keeps_args
theorem hostOps0_1_keepsArgs : (hostOps0_1 : List (HloOp τ sig (Elt F))).Forall KeepsArgs := by
  simp only [List.Forall]; repeat' constructor
  all_goals keeps_args
theorem hostOps0_2_keepsArgs : (hostOps0_2 : List (HloOp τ sig (Elt F))).Forall KeepsArgs := by
  simp only [List.Forall]; repeat' constructor
  all_goals keeps_args
theorem hostOps0_3_keepsArgs : (hostOps0_3 : List (HloOp τ sig (Elt F))).Forall KeepsArgs := by
  simp only [List.Forall]; repeat' constructor
  all_goals keeps_args
theorem hostOps0_4_keepsArgs : (hostOps0_4 : List (HloOp τ sig (Elt F))).Forall KeepsArgs := by
  simp only [List.Forall]; repeat' constructor
  all_goals keeps_args
theorem hostOps0_5_keepsArgs : (hostOps0_5 : List (HloOp τ sig (Elt F))).Forall KeepsArgs := by
  simp only [List.Forall]; repeat' constructor
  all_goals keeps_args
theorem hostOps1_keepsArgs : (hostOps1 : List (HloOp τ sig (Elt F))).Forall KeepsArgs := by
  simp only [List.Forall]; repeat' constructor
  all_goals keeps_args
theorem hostOps1_1_keepsArgs : (hostOps1_1 : List (HloOp τ sig (Elt F))).Forall KeepsArgs := by
  simp only [List.Forall]; repeat' constructor
  all_goals keeps_args
set_option maxHeartbeats 40000000 in
theorem hostOps1_2_keepsArgs : (hostOps1_2 : List (HloOp τ sig (Elt F))).Forall KeepsArgs := by
  simp only [List.Forall]; repeat' constructor
  all_goals keeps_args

/-- No operation before the call writes an argument. -/
theorem pre_keepsArgs : ∀ op ∈ (preOps (F := F)).flatten, KeepsArgs op := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps0_keepsArgs) op hop
  · exact (List.forall_iff_forall_mem.mp hostOps0_1_keepsArgs) op hop
  · exact (List.forall_iff_forall_mem.mp hostOps0_2_keepsArgs) op hop
  · exact (List.forall_iff_forall_mem.mp hostOps0_3_keepsArgs) op hop
  · exact (List.forall_iff_forall_mem.mp hostOps0_4_keepsArgs) op hop
  · exact (List.forall_iff_forall_mem.mp hostOps0_5_keepsArgs) op hop

/-- No operation after the call writes an argument. -/
theorem tail_keepsArgs : ∀ op ∈ (tailOps (F := F)).flatten, KeepsArgs op := by
  intro op hop
  obtain ⟨ops, hops, hop⟩ := List.mem_flatten.mp hop
  simp only [List.mem_cons, List.mem_nil_iff, or_false] at hops
  rcases hops with rfl | rfl | rfl
  · exact (List.forall_iff_forall_mem.mp hostOps1_keepsArgs) op hop
  · exact (List.forall_iff_forall_mem.mp hostOps1_1_keepsArgs) op hop
  · exact (List.forall_iff_forall_mem.mp hostOps1_2_keepsArgs) op hop

variable (m : (ℓ : Loc nD τ sig) → Buf (Elt F) ℓ) (c : Dev nD)
  (dats : (p : Fin 1) → (c : Dev nD) → Pipeline.Dat τ (Elt F) Unit ℕ (UR sig nD τ) ℕ (cfgs p) c)

/-- An argument that is none of the call's arrays holds, after the whole program's host operations, what the launch
    memory held. -/
theorem tail_of_arg (r : Ref sig .tc) (hr : r ∈ argRefs) (harr : ∀ w, Pipeline.arrRef spec0 w ≠ r) :
    Pipeline.afterTail₀ cfgs dats 0 (V0 m) tailOps c r = m ((c.tc : Thread nD τ).loc r) := by
  unfold Pipeline.afterTail₀
  rw [StableHlo.after_of_forall_not_mem _ _ (fun op hop => tail_keepsArgs op hop r hr),
    Pipeline.withArrays_of_ne _ c _ _ r harr]
  exact StableHlo.after_of_forall_not_mem _ _ (fun op hop => pre_keepsArgs op hop r hr)

theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem arg2_rest : main_arg2 ∈ Pipeline.restRefs sig spec0 := Pipeline.mem_restRefs_of main_arg2 rfl (by decide)
theorem arg3_rest : main_arg3 ∈ Pipeline.restRefs sig spec0 := Pipeline.mem_restRefs_of main_arg3 rfl (by decide)
theorem arg4_rest : main_arg4 ∈ Pipeline.restRefs sig spec0 := Pipeline.mem_restRefs_of main_arg4 rfl (by decide)
theorem arg5_rest : main_arg5 ∈ Pipeline.restRefs sig spec0 := Pipeline.mem_restRefs_of main_arg5 rfl (by decide)

theorem tail_arg0 : Pipeline.afterTail₀ cfgs dats 0 (V0 m) tailOps c main_arg0 = m ((c.tc : Thread nD τ).loc main_arg0) :=
  tail_of_arg m c dats main_arg0 (by decide) (by decide)
theorem tail_arg1 : Pipeline.afterTail₀ cfgs dats 0 (V0 m) tailOps c main_arg1 = m ((c.tc : Thread nD τ).loc main_arg1) :=
  tail_of_arg m c dats main_arg1 (by decide) (by decide)
theorem tail_arg2 : Pipeline.afterTail₀ cfgs dats 0 (V0 m) tailOps c main_arg2 = m ((c.tc : Thread nD τ).loc main_arg2) :=
  tail_of_arg m c dats main_arg2 (by decide) (by decide)
theorem tail_arg3 : Pipeline.afterTail₀ cfgs dats 0 (V0 m) tailOps c main_arg3 = m ((c.tc : Thread nD τ).loc main_arg3) :=
  tail_of_arg m c dats main_arg3 (by decide) (by decide)
theorem tail_arg4 : Pipeline.afterTail₀ cfgs dats 0 (V0 m) tailOps c main_arg4 = m ((c.tc : Thread nD τ).loc main_arg4) :=
  tail_of_arg m c dats main_arg4 (by decide) (by decide)
theorem tail_arg5 : Pipeline.afterTail₀ cfgs dats 0 (V0 m) tailOps c main_arg5 = m ((c.tc : Thread nD τ).loc main_arg5) :=
  tail_of_arg m c dats main_arg5 (by decide) (by decide)

end Cert.KernelIdeal.Fr

end
-- ==== Proof.KI.FrameClaim.lean ====
/-
  The frame of the program: every weakly fair execution terminates without a fault and the six argument arrays end
  as they began.  From the program's run: an argument is none of the call's five arrays, so it ends as the later host
  operations leave it, and no host operation, before or after the call, writes an argument.
-/
import proofs.«406952_j62079457296450_3_alg».proof.Proof.KI.Frame
import proofs.«406952_j62079457296450_3_alg».proof.Proof.KI.Args

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_arg0 arg0_rest).trans (tail_arg0 m c (dats m)),
     ((h c).2 main_arg1 arg1_rest).trans (tail_arg1 m c (dats m)),
     ((h c).2 main_arg2 arg2_rest).trans (tail_arg2 m c (dats m)),
     ((h c).2 main_arg3 arg3_rest).trans (tail_arg3 m c (dats m)),
     ((h c).2 main_arg4 arg4_rest).trans (tail_arg4 m c (dats m)),
     ((h c).2 main_arg5 arg5_rest).trans (tail_arg5 m c (dats m))⟩)
    (run_main m ρ)

end Cert.KernelIdeal.Fr

end
-- ==== Proof.KI.Results.lean ====
/-
  The idealized kernel program's run with its three results named: each is what the host operations after the call
  compute from the call's two arrays and from the buffers the earlier host operations filled; the arguments end
  unchanged.
-/
import proofs.«406952_j62079457296450_3_alg».proof.Proof.KI.Frame
import proofs.«406952_j62079457296450_3_alg».proof.Proof.KI.Args

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem v69_rest : main_v69 ∈ Pipeline.restRefs sig spec0 := Pipeline.mem_restRefs_of main_v69 rfl (by decide)
theorem v130_rest : main_v130 ∈ Pipeline.restRefs sig spec0 := Pipeline.mem_restRefs_of main_v130 rfl (by decide)
theorem v110_rest : main_v110 ∈ Pipeline.restRefs sig spec0 := Pipeline.mem_restRefs_of main_v110 rfl (by decide)

/-- The three results, as the later host operations leave them. -/
abbrev res0 (c : Dev nD) := Pipeline.afterTail₀ cfgs (dats (F := Ideal) m) 0 (V0 m) tailOps c main_v69
abbrev res1 (c : Dev nD) := Pipeline.afterTail₀ cfgs (dats (F := Ideal) m) 0 (V0 m) tailOps c main_v130
abbrev res2 (c : Dev nD) := Pipeline.afterTail₀ cfgs (dats (F := Ideal) m) 0 (V0 m) tailOps c main_v110

theorem run_results : θ_run defs (onTc (τ := τ) (main (F := Ideal))) ⟨m, fun _ => 0, ρ⟩ (fun r => ∀ c : Dev nD,
      r.2.mem ((c.tc : Thread nD τ).loc main_v69) = res0 m c
      ∧ r.2.mem ((c.tc : Thread nD τ).loc main_v130) = res1 m c
      ∧ r.2.mem ((c.tc : Thread nD τ).loc main_v110) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).2 main_v69 v69_rest, (h c).2 main_v130 v130_rest, (h c).2 main_v110 v110_rest,
     ((h c).2 main_arg0 arg0_rest).trans (tail_arg0 m c (dats m)),
     ((h c).2 main_arg1 arg1_rest).trans (tail_arg1 m c (dats m)),
     ((h c).2 main_arg2 arg2_rest).trans (tail_arg2 m c (dats m)),
     ((h c).2 main_arg3 arg3_rest).trans (tail_arg3 m c (dats m)),
     ((h c).2 main_arg4 arg4_rest).trans (tail_arg4 m c (dats m)),
     ((h c).2 main_arg5 arg5_rest).trans (tail_arg5 m c (dats m))⟩)
    (run_main m ρ)

end Cert.KernelIdeal.Fr

end
-- ==== Proof.TailShared.lean ====
/-
  The second and third results of the two programs (ad_loss and co_loss: the two contrastive losses over the three
  256 x 256 similarity matrices of the normalised rows of feat with themselves, with the normalised rows of feat_gen
  and with those of feat_aug, each divided by the temperature, masked by equality of the gathered target labels)
  do not depend on the pallas_call: the kernel program
  computes them by host operations from the arguments alone, and the reference computes them by the same
  operations, in the same order, from its own arguments.  So where the two launch memories agree on the six
  arguments, the two results are the same term.

  Each result is read off the kernel program's final contents by composing its host operations: those after the call
  down to the four buffers they read of those written before the call (the three scaled similarity matrices and the
  gathered labels, none of them an array of the call, so each still holds what it held when the call was entered),
  then those before the call down to the arguments.  The composed term is then the reference's composed term once the
  reference's arguments are rewritten to the kernel program's.  The comparison is made for an arbitrary float
  family, where every operation is an uninterpreted constant and the two terms are compared constructor by
  constructor; the statements at the extended reals are instances.
-/
import proofs.«406952_j62079457296450_3_alg».proof.Proof.KI.Base
import proofs.«406952_j62079457296450_3_alg».proof.Proof.RefRun

set_option maxRecDepth 16384

noncomputable section

namespace Cert.Bridge

open Idealize.ShloMosaic Idealize.ShloMosaic.TcCoe Idealize.ShloMosaic.StableHlo

section AnyFloats

variable {F : FTy → Type} [FloatOps F] [Named F]

set_option maxHeartbeats 40000000 in
/-- The kernel program's second result is the reference's, for any float family, where the launch memories agree on the arguments. -/
theorem res1_eq_gen
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (dats : (p : Fin 1) → (c : Dev Cert.KernelIdeal.nD) → Pipeline.Dat Cert.KernelIdeal.τ (Elt F) Unit ℕ (UR Cert.KernelIdeal.sig Cert.KernelIdeal.nD Cert.KernelIdeal.τ) ℕ (Cert.KernelIdeal.cfgs p) c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs dats 0 (Cert.KernelIdeal.Fr.V0 m) Cert.KernelIdeal.Fr.tailOps c Cert.KernelIdeal.main_v130
      = Cert.ReferenceIdeal.ValueP.res_out1 m' c := by
  unfold Pipeline.afterTail₀
  -- the operations after the call, down to the four buffers they read of those written before it
  simp only [Cert.KernelIdeal.Fr.tailOps, Cert.KernelIdeal.Gen.hostOps1, Cert.KernelIdeal.Gen.hostOps1_1, Cert.KernelIdeal.Gen.hostOps1_2,
    List.flatten_cons, List.flatten_nil, List.append_nil, List.cons_append, List.nil_append]
  after_results_simp
  -- none of the four is an array of the call: each holds what it held when the call was entered
  simp only [Pipeline.withArrays_of_ne (Cert.KernelIdeal.cfgs 0).spec c _ _ Cert.KernelIdeal.main_v12 (by decide),
    Pipeline.withArrays_of_ne (Cert.KernelIdeal.cfgs 0).spec c _ _ Cert.KernelIdeal.main_v16 (by decide),
    Pipeline.withArrays_of_ne (Cert.KernelIdeal.cfgs 0).spec c _ _ Cert.KernelIdeal.main_v20 (by decide),
    Pipeline.withArrays_of_ne (Cert.KernelIdeal.cfgs 0).spec c _ _ Cert.KernelIdeal.main_v27 (by decide)]
  -- the operations before the call, down to the arguments
  simp only [Cert.KernelIdeal.Fr.V0, Cert.KernelIdeal.Fr.preOps, Cert.KernelIdeal.Gen.hostOps0, Cert.KernelIdeal.Gen.hostOps0_1,
    Cert.KernelIdeal.Gen.hostOps0_2, Cert.KernelIdeal.Gen.hostOps0_3, Cert.KernelIdeal.Gen.hostOps0_4, Cert.KernelIdeal.Gen.hostOps0_5,
    List.flatten_cons, List.flatten_nil, List.append_nil, List.cons_append, List.nil_append]
  after_results_simp
  simp only [TRef.ofBuf, TRef.toBuf, cast_eq]
  -- the reference's term, at the same arguments
  show _ = Cert.ReferenceIdeal.ValueP.res_main_v141 m' c
  unfold Cert.ReferenceIdeal.ValueP.res_main_v141
  simp only [h0, h1, h2, h3, h4, h5]
  rfl

set_option maxHeartbeats 40000000 in
/-- The kernel program's third result is the reference's, for any float family, where the launch memories agree on the arguments. -/
theorem res2_eq_gen
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (dats : (p : Fin 1) → (c : Dev Cert.KernelIdeal.nD) → Pipeline.Dat Cert.KernelIdeal.τ (Elt F) Unit ℕ (UR Cert.KernelIdeal.sig Cert.KernelIdeal.nD Cert.KernelIdeal.τ) ℕ (Cert.KernelIdeal.cfgs p) c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs dats 0 (Cert.KernelIdeal.Fr.V0 m) Cert.KernelIdeal.Fr.tailOps c Cert.KernelIdeal.main_v110
      = Cert.ReferenceIdeal.ValueP.res_out2 m' c := by
  unfold Pipeline.afterTail₀
  -- the operations after the call, down to the four buffers they read of those written before it
  simp only [Cert.KernelIdeal.Fr.tailOps, Cert.KernelIdeal.Gen.hostOps1, Cert.KernelIdeal.Gen.hostOps1_1, Cert.KernelIdeal.Gen.hostOps1_2,
    List.flatten_cons, List.flatten_nil, List.append_nil, List.cons_append, List.nil_append]
  after_results_simp
  -- none of the four is an array of the call: each holds what it held when the call was entered
  simp only [Pipeline.withArrays_of_ne (Cert.KernelIdeal.cfgs 0).spec c _ _ Cert.KernelIdeal.main_v12 (by decide),
    Pipeline.withArrays_of_ne (Cert.KernelIdeal.cfgs 0).spec c _ _ Cert.KernelIdeal.main_v16 (by decide),
    Pipeline.withArrays_of_ne (Cert.KernelIdeal.cfgs 0).spec c _ _ Cert.KernelIdeal.main_v20 (by decide),
    Pipeline.withArrays_of_ne (Cert.KernelIdeal.cfgs 0).spec c _ _ Cert.KernelIdeal.main_v27 (by decide)]
  -- the operations before the call, down to the arguments
  simp only [Cert.KernelIdeal.Fr.V0, Cert.KernelIdeal.Fr.preOps, Cert.KernelIdeal.Gen.hostOps0, Cert.KernelIdeal.Gen.hostOps0_1,
    Cert.KernelIdeal.Gen.hostOps0_2, Cert.KernelIdeal.Gen.hostOps0_3, Cert.KernelIdeal.Gen.hostOps0_4, Cert.KernelIdeal.Gen.hostOps0_5,
    List.flatten_cons, List.flatten_nil, List.append_nil, List.cons_append, List.nil_append]
  after_results_simp
  simp only [TRef.ofBuf, TRef.toBuf, cast_eq]
  -- the reference's term, at the same arguments
  show _ = Cert.ReferenceIdeal.ValueP.res_main_v121 m' c
  unfold Cert.ReferenceIdeal.ValueP.res_main_v121
  simp only [h0, h1, h2, h3, h4, h5]
  rfl

end AnyFloats

/-- The second result, at the extended reals. -/
theorem res1_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (dats : (p : Fin 1) → (c : Dev Cert.KernelIdeal.nD) → Pipeline.Dat Cert.KernelIdeal.τ (Elt Ideal) Unit ℕ (UR Cert.KernelIdeal.sig Cert.KernelIdeal.nD Cert.KernelIdeal.τ) ℕ (Cert.KernelIdeal.cfgs p) c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs dats 0 (Cert.KernelIdeal.Fr.V0 m) Cert.KernelIdeal.Fr.tailOps c Cert.KernelIdeal.main_v130
      = Cert.ReferenceIdeal.ValueP.res_out1 m' c :=
  res1_eq_gen m m' c dats h0 h1 h2 h3 h4 h5

/-- The third result, at the extended reals. -/
theorem res2_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (dats : (p : Fin 1) → (c : Dev Cert.KernelIdeal.nD) → Pipeline.Dat Cert.KernelIdeal.τ (Elt Ideal) Unit ℕ (UR Cert.KernelIdeal.sig Cert.KernelIdeal.nD Cert.KernelIdeal.τ) ℕ (Cert.KernelIdeal.cfgs p) c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs dats 0 (Cert.KernelIdeal.Fr.V0 m) Cert.KernelIdeal.Fr.tailOps c Cert.KernelIdeal.main_v110
      = Cert.ReferenceIdeal.ValueP.res_out2 m' c :=
  res2_eq_gen m m' c dats h0 h1 h2 h3 h4 h5

end Cert.Bridge

end
-- ==== Proof.Spec.lean ====
/-
  The two quantities on which the kernel and the reference meet, as plain sums over the 65536 rows of the memory bank.

  A bank row m belongs to class k when its label, read as a signed 32-bit integer, is k.  The count of class k is
  the number of such rows.  The label-aggregated similarity of query row b with class k is the sum, over the rows m
  of class k, of the inner product of the normalised query row b with bank row m, divided by the temperature
  D = f32(0.05) = 13421773 / 2^28 — written as a product with 1 / D.
-/
import Idealize.ShloMosaic.PureOps.Ideal
import Idealize.ShloMosaic.Lib.ValueIdx

noncomputable section

open Idealize.ShloMosaic Idealize.ShloMosaic.ValueIdx

namespace Cert.Spec

/-- The temperature the reference divides by: the real number the f32 literal 0.05 (word 0x3D4CCCCD) denotes. -/
def temp : ℝ := 13421773 / 268435456

theorem temp_ne_zero : temp ≠ 0 := by unfold temp; norm_num
theorem one_div_temp : (1 / temp : ℝ) = 268435456 / 13421773 := by unfold temp; norm_num

/-- Bank row m belongs to class k: its label read signed is k. -/
def hit (lab : IVec ⟨1, ![65536]⟩ 32) (m : Fin 65536) (k : Fin 8192) : Prop := (lab (ix1 m)).toInt = (k.val : Int)

instance (lab : IVec ⟨1, ![65536]⟩ 32) (m : Fin 65536) (k : Fin 8192) : Decidable (hit lab m k) := by
  unfold hit; infer_instance

/-- The number of bank rows of class k. -/
def cnt (lab : IVec ⟨1, ![65536]⟩ 32) (k : Fin 8192) : EReal :=
  ∑ m : Fin 65536, if hit lab m k then (1 : EReal) else 0

/-- The label-aggregated similarity of query row b with class k. -/
def simv (A : FVec Ideal ⟨2, ![256, 256]⟩ .f32) (X : FVec Ideal ⟨2, ![65536, 256]⟩ .f32) (lab : IVec ⟨1, ![65536]⟩ 32)
    (b : Fin 256) (k : Fin 8192) : EReal :=
  (∑ m : Fin 65536, if hit lab m k then ∑ f : Fin 256, A (ix2 b f) * X (ix2 m f) else 0) * ((1 / temp : ℝ) : EReal)

end Cert.Spec

end
-- ==== Proof.KI.Pay.lean ====
/-
  The kernel body's arithmetic read at an index, over the extended reals.

  The body of one grid step works on a tile of 512 bank rows (their features in bf16, their labels as 32-bit words)
  and on one half of the 8192 classes (4096 class columns). It forms the one-hot block of the tile, whose entry at
  bank row r and class column j is 1 when the label of row r is the class j + 4096 * (class half), and 0 otherwise;
  it adds to the per-class feature sums the product of the transposed one-hot block with the tile's features, and to
  the per-class counts the column sums of the one-hot block; the two accumulators start from zero. At the last tile
  of a class half it multiplies the 256 query rows with the per-class feature sums and scales by the reciprocal of
  the temperature. Each of these six values is stated here entry by entry as a finite sum.
-/
import proofs.«406952_j62079457296450_3_alg».proof.Proof.Gen.KernelIdeal.Skeleton
import proofs.«406952_j62079457296450_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.PayVal

open Cert.KernelIdeal Cert.KernelIdeal.Gen Idealize.ShloMosaic Idealize.ShloMosaic.ValueIdx

/-! ## The two accumulators start from zero -/

/-- The value the per-class feature sums are reset to: zero at every entry. -/
theorem pay1_apply (y : S4096x256.Idx) : k0_pay1 (F := Ideal) y = 0 := by
  unfold k0_pay1
  rw [shapeCast_self]
  exact Ideal.ofBits_zero_f32

/-- The value the per-class counts are reset to: zero at every entry. -/
theorem pay2_apply (y : S1x4096.Idx) : k0_pay2 (F := Ideal) y = 0 := by
  unfold k0_pay2
  exact Ideal.ofBits_zero_f32

/-! ## The one-hot block -/

/-- A [512,1] column broadcast to [512,4096] reads, at (r, j), the column's entry r. -/
theorem bcast_col {α : Type} (v : S512x1.Idx → α) (h : S512x1.Broadcasts S512x4096) (r : Fin 512) (j : Fin 4096) :
    broadcastTo S512x4096 v h (ix2 r j) = v (ix2 r 0) := by
  refine broadcastTo_apply v h (ix2 r j) (ix2 r 0) fun ax => ?_
  match ax with
  | ⟨0, _⟩ => show r.val = if (512 : Nat) = 1 then 0 else r.val; rw [if_neg (by decide)]
  | ⟨1, _⟩ => show 0 = if (1 : Nat) = 1 then 0 else j.val; rw [if_pos rfl]

/-- The class of column j in class half h, as a 32-bit word: the column's word plus the half's word times 4096. -/
theorem class_word (h j : Nat) :
    BitVec.ofNat 32 j + Scalar.muli (BitVec.ofNat 32 h) 4096#32 = BitVec.ofNat 32 (j + h * 4096) := by
  show BitVec.ofNat 32 j + BitVec.ofNat 32 h * BitVec.ofNat 32 4096 = _
  rw [← BitVec.ofNat_mul, ← BitVec.ofNat_add]

/-- A true comparison bit, widened to 32 bits and read signed, is the integer 1. -/
theorem bit_true : (BitVec.setWidth 32 (BitVec.ofBool true)).toInt = 1 := by decide
/-- A false comparison bit, widened to 32 bits and read signed, is the integer 0. -/
theorem bit_false : (BitVec.setWidth 32 (BitVec.ofBool false)).toInt = 0 := by decide

/-- The one-hot entry: bank row r of the tile against class column j of class half (i 0). -/
def oh (i : grid0.Coords) (v5 : Vec Ideal S512x1 .i32) (r : Fin 512) (j : Fin 4096) : EReal :=
  if v5 (ix2 r 0) = BitVec.ofNat 32 (j.val + (i 0).val * 4096) then 1 else 0

/-- The one-hot block at (r, j): 1 when the label of bank row r is the class of column j in this class half. -/
theorem pay3_apply (i : grid0.Coords) (v5 : Vec Ideal S512x1 .i32) (r : Fin 512) (j : Fin 4096) :
    k0_pay3 (F := Ideal) i v5 (ix2 r j) = oh i v5 r j := by
  unfold k0_pay3 oh
  rw [shapeCast_self]
  rw [sitofp_apply, extui_apply]
  show FloatOps.sitofp (F := Ideal) FTy.f32 (BitVec.setWidth 32 (IntOp.cmpi CmpIPredicate.eq
      (broadcastTo S512x4096 v5 broadcasts_S512x1_S512x4096 (ix2 r j))
      (broadcastTo S512x4096 (addi (iota Kind.tc S1x4096 32 [1] iota_S1x4096_d1_w32)
              (broadcast S1x4096 (Scalar.muli (BitVec.ofNat 32 (i 0).val) 4096#32)))
            broadcasts_S1x4096_S512x4096 (ix2 r j)))) = _
  rw [bcast_col, broadcastTo_1b_ab_apply]
  show FloatOps.sitofp (F := Ideal) FTy.f32 (BitVec.setWidth 32 (IntOp.cmpi CmpIPredicate.eq
      (v5 (ix2 r 0))
      (iota Kind.tc S1x4096 32 [1] iota_S1x4096_d1_w32 (ix2 (0 : Fin 1) j)
        + Scalar.muli (BitVec.ofNat 32 (i 0).val) 4096#32))) = _
  rw [iota_single_apply]
  show FloatOps.sitofp (F := Ideal) FTy.f32 (BitVec.setWidth 32 (IntOp.cmpi CmpIPredicate.eq
      (v5 (ix2 r 0)) (BitVec.ofNat 32 j.val + Scalar.muli (BitVec.ofNat 32 (i 0).val) 4096#32))) = _
  rw [class_word]
  by_cases hc : v5 (ix2 r 0) = BitVec.ofNat 32 (j.val + (i 0).val * 4096)
  · rw [if_pos hc, hc]
    show (((BitVec.setWidth 32 (BitVec.ofBool (BitVec.ofNat 32 (j.val + (i 0).val * 4096) == BitVec.ofNat 32 (j.val + (i 0).val * 4096)))).toInt : ℝ) : EReal) = 1
    rw [beq_self_eq_true, bit_true, Int.cast_one, EReal.coe_one]
  · rw [if_neg hc]
    show (((BitVec.setWidth 32 (BitVec.ofBool (v5 (ix2 r 0) == BitVec.ofNat 32 (j.val + (i 0).val * 4096)))).toInt : ℝ) : EReal) = 0
    rw [beq_eq_false_iff_ne.mpr hc, bit_false, Int.cast_zero, EReal.coe_zero]

/-! ## The per-class feature sums: the transposed one-hot block times the tile's features -/

theorem lhs4_0 (y : S4096x256.Idx) (q : dot_S512x4096_S512x256_S4096x256_0_0_1_1_n_n.contr.Idx) :
    (dot_S512x4096_S512x256_S4096x256_0_0_1_1_n_n.lhsIdx y q 0).val = (q ⟨0, by decide⟩).val :=
  dot_S512x4096_S512x256_S4096x256_0_0_1_1_n_n.lhsIdx_val_of_single rfl y q
theorem lhs4_1 (y : S4096x256.Idx) (q : dot_S512x4096_S512x256_S4096x256_0_0_1_1_n_n.contr.Idx) :
    (dot_S512x4096_S512x256_S4096x256_0_0_1_1_n_n.lhsIdx y q 1).val = (y 0).val := by
  unfold DotDims.lhsIdx
  rw [dif_neg (show ¬(1 : Fin S512x4096.rank) ∈ dot_S512x4096_S512x256_S4096x256_0_0_1_1_n_n.lhsBatch by decide), dif_pos (show (1 : Fin S512x4096.rank) ∈ dot_S512x4096_S512x256_S4096x256_0_0_1_1_n_n.lhsNonContracting by decide)]
  rfl
theorem rhs4_0 (y : S4096x256.Idx) (q : dot_S512x4096_S512x256_S4096x256_0_0_1_1_n_n.contr.Idx) :
    (dot_S512x4096_S512x256_S4096x256_0_0_1_1_n_n.rhsIdx y q 0).val = (q ⟨0, by decide⟩).val :=
  dot_S512x4096_S512x256_S4096x256_0_0_1_1_n_n.rhsIdx_val_of_single rfl y q
theorem rhs4_1 (y : S4096x256.Idx) (q : dot_S512x4096_S512x256_S4096x256_0_0_1_1_n_n.contr.Idx) :
    (dot_S512x4096_S512x256_S4096x256_0_0_1_1_n_n.rhsIdx y q 1).val = (y 1).val := by
  unfold DotDims.rhsIdx
  rw [dif_neg (show ¬(1 : Fin S512x256.rank) ∈ dot_S512x4096_S512x256_S4096x256_0_0_1_1_n_n.rhsBatch by decide), dif_pos (show (1 : Fin S512x256.rank) ∈ dot_S512x4096_S512x256_S4096x256_0_0_1_1_n_n.rhsNonContracting by decide)]
  rfl

/-- The feature sums after the tile, at class column j and feature f: what was there plus, over the tile's bank
    rows r, the one-hot entry (r, j) times feature f of row r. -/
theorem pay4_apply (i : grid0.Coords) (v3 : Vec Ideal S512x256 .bf16) (v5 : Vec Ideal S512x1 .i32) (v18 : Vec Ideal S4096x256 .f32) (j : Fin 4096) (f : Fin 256) :
    k0_pay4 (F := Ideal) i v3 v5 v18 (ix2 j f) = v18 (ix2 j f) + ∑ r : Fin 512, oh i v5 r j * v3 (ix2 r f) := by
  unfold k0_pay4
  rw [shapeCast_self, addf_apply, shapeCast_self]
  refine congrArg (v18 (ix2 j f) + ·) ?_
  simp only [matmul]
  rw [Ideal.matmul_constant_zero_apply, ← Equiv.sum_comp (contrEquiv1 dot_S512x4096_S512x256_S4096x256_0_0_1_1_n_n 512 rfl rfl).symm]
  refine Finset.sum_congr rfl fun r _ => ?_
  have hk := contrEquiv1_symm_val dot_S512x4096_S512x256_S4096x256_0_0_1_1_n_n 512 rfl rfl r
  have el : dot_S512x4096_S512x256_S4096x256_0_0_1_1_n_n.lhsIdx (ix2 j f) ((contrEquiv1 dot_S512x4096_S512x256_S4096x256_0_0_1_1_n_n 512 rfl rfl).symm r) = ix2 r j := funext fun a => Fin.ext (by
    match a with
    | ⟨0, _⟩ => exact (lhs4_0 _ _).trans hk
    | ⟨1, _⟩ => exact lhs4_1 _ _)
  have er : dot_S512x4096_S512x256_S4096x256_0_0_1_1_n_n.rhsIdx (ix2 j f) ((contrEquiv1 dot_S512x4096_S512x256_S4096x256_0_0_1_1_n_n 512 rfl rfl).symm r) = ix2 r f := funext fun a => Fin.ext (by
    match a with
    | ⟨0, _⟩ => exact (rhs4_0 _ _).trans hk
    | ⟨1, _⟩ => exact rhs4_1 _ _)
  rw [el, er, truncf_apply, pay3_apply]

/-! ## The per-class counts: the column sums of the one-hot block -/

/-- The counts after the tile, at class column j: what was there plus the number of the tile's bank rows whose
    label is that class. -/
theorem pay5_apply (i : grid0.Coords) (v5 : Vec Ideal S512x1 .i32) (v26 : Vec Ideal S1x4096 .f32) (j : Fin 4096) :
    k0_pay5 (F := Ideal) i v5 v26 (ix2 0 j) = v26 (ix2 0 j) + ∑ r : Fin 512, oh i v5 r j := by
  unfold k0_pay5
  rw [addf_apply, shapeCast_self, shapeCast_a_1a_apply]
  refine congrArg (v26 (ix2 0 j) + ·) ?_
  refine (Ideal.multiReduction_add_single (k0_pay3 (F := Ideal) i v5) 0x00000000#32 reduces_S512x4096_S4096 (.inl rfl) rfl (ix1 j)).trans ?_
  show ∑ r : Fin 512, k0_pay3 (F := Ideal) i v5 (reduces_S512x4096_S4096.lift (ix1 j) r) = _
  refine Finset.sum_congr rfl fun r _ => ?_
  have e : reduces_S512x4096_S4096.lift (ix1 j) r = ix2 r j := funext fun a => Fin.ext (by
    match a with
    | ⟨0, _⟩ => rfl
    | ⟨1, _⟩ => rfl)
  rw [e, pay3_apply]

/-! ## The scaled product of the query rows with the per-class feature sums -/

theorem lhs6_0 (y : S256x4096.Idx) (q : dot_S256x256_S4096x256_S256x4096_1_1_0_0_n_n.contr.Idx) :
    (dot_S256x256_S4096x256_S256x4096_1_1_0_0_n_n.lhsIdx y q 0).val = (y 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem lhs6_1 (y : S256x4096.Idx) (q : dot_S256x256_S4096x256_S256x4096_1_1_0_0_n_n.contr.Idx) :
    (dot_S256x256_S4096x256_S256x4096_1_1_0_0_n_n.lhsIdx y q 1).val = (q ⟨0, by decide⟩).val :=
  dot_S256x256_S4096x256_S256x4096_1_1_0_0_n_n.lhsIdx_val_of_single rfl y q
theorem rhs6_0 (y : S256x4096.Idx) (q : dot_S256x256_S4096x256_S256x4096_1_1_0_0_n_n.contr.Idx) :
    (dot_S256x256_S4096x256_S256x4096_1_1_0_0_n_n.rhsIdx y q 0).val = (y 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem rhs6_1 (y : S256x4096.Idx) (q : dot_S256x256_S4096x256_S256x4096_1_1_0_0_n_n.contr.Idx) :
    (dot_S256x256_S4096x256_S256x4096_1_1_0_0_n_n.rhsIdx y q 1).val = (q ⟨0, by decide⟩).val :=
  dot_S256x256_S4096x256_S256x4096_1_1_0_0_n_n.rhsIdx_val_of_single rfl y q

/-- The named scale factor denotes the reciprocal of the temperature. -/
theorem inv_temp : Named.named (F := Ideal) κ "inv_temp" (φ := .f32) 0x41A00000#32 = ((1 / Cert.Spec.temp : ℝ) : EReal) := by
  rw [Cert.Spec.one_div_temp]
  exact IdealRules.named_const.ideal_named_scalar _ _ _ _ rfl

/-- The scaled product at query row b and class column j: the inner product of query row b with the feature sums of
    class column j, times the reciprocal of the temperature. -/
theorem pay6_apply (v33 : Vec Ideal S256x256 .f32) (v35 : Vec Ideal S4096x256 .f32) (b : Fin 256) (j : Fin 4096) :
    k0_pay6 (F := Ideal) v33 v35 (ix2 b j) = (∑ f : Fin 256, v33 (ix2 b f) * v35 (ix2 j f)) * ((1 / Cert.Spec.temp : ℝ) : EReal) := by
  unfold k0_pay6
  rw [mulf_apply, broadcast_apply, inv_temp, shapeCast_self]
  refine congrArg (· * ((1 / Cert.Spec.temp : ℝ) : EReal)) ?_
  simp only [matmul]
  rw [Ideal.matmul_constant_zero_apply, ← Equiv.sum_comp (contrEquiv1 dot_S256x256_S4096x256_S256x4096_1_1_0_0_n_n 256 rfl rfl).symm]
  refine Finset.sum_congr rfl fun f _ => ?_
  have hk := contrEquiv1_symm_val dot_S256x256_S4096x256_S256x4096_1_1_0_0_n_n 256 rfl rfl f
  have el : dot_S256x256_S4096x256_S256x4096_1_1_0_0_n_n.lhsIdx (ix2 b j) ((contrEquiv1 dot_S256x256_S4096x256_S256x4096_1_1_0_0_n_n 256 rfl rfl).symm f) = ix2 b f := funext fun a => Fin.ext (by
    match a with
    | ⟨0, _⟩ => exact lhs6_0 _ _
    | ⟨1, _⟩ => exact (lhs6_1 _ _).trans hk)
  have er : dot_S256x256_S4096x256_S256x4096_1_1_0_0_n_n.rhsIdx (ix2 b j) ((contrEquiv1 dot_S256x256_S4096x256_S256x4096_1_1_0_0_n_n 256 rfl rfl).symm f) = ix2 j f := funext fun a => Fin.ext (by
    match a with
    | ⟨0, _⟩ => exact rhs6_0 _ _
    | ⟨1, _⟩ => exact (rhs6_1 _ _).trans hk)
  rw [el, er]

end Cert.KernelIdeal.PayVal

end
-- ==== Proof.KI.Acc.lean ====
/-
  What the kernel's two accumulators hold after each grid point, in closed form.

  The grid is 2 x 128: point t has class half t / 128 and tile t mod 128.  Tile i of the memory bank is its rows
  i * 512 ... i * 512 + 511, and the tile's labels are the same rows of the label vector, read as a column.  The
  one-hot entry of a bank row against class column j of class half cc is 1 when the row's label is the word
  j + cc * 4096, and 0 otherwise.  After point t the counts buffer holds, at column j, the sum of the one-hot entries
  of the bank rows below (t mod 128 + 1) * 512, and the scratch holds, at (j, f), the sum over the same rows of the
  one-hot entry times feature f of the row: at the first tile of a class half the update starts from zero, at every
  later tile from what the tile before left, and a sum over the rows below (i + 1) * 512 is the sum over the rows
  below i * 512 plus the sum over the 512 rows of tile i.  Only sums of extended reals are involved, so nothing
  about finiteness is needed.
-/
import proofs.«406952_j62079457296450_3_alg».proof.Proof.KI.Frame
import proofs.«406952_j62079457296450_3_alg».proof.Proof.KI.Pay
import Idealize.ShloMosaic.Lib.StableHlo.Run
import Idealize.ShloMosaic.Lib.ValueIdx
import Idealize.ShloMosaic.Lib.ValueLayout
import Idealize.ShloMosaic.Lib.Pipeline.Value
import Mathlib.Algebra.BigOperators.Group.Finset.Basic
import Mathlib.Data.Fintype.BigOperators

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.StableHlo

variable (m : (ℓ : Loc nD τ sig) → Buf (Elt Ideal) ℓ) (c : Dev nD)

/-! ## The grid point's coordinates -/

/-- The class half of point t. -/
theorem coords0 : ∀ t : Fin cfg0.N, ((grid0.coords t) 0).val = t.val / 128 :=
  (by decide +kernel : ∀ t : Fin grid0.N, ((grid0.coords t) 0).val = t.val / 128)

/-- The tile of point t. -/
theorem coords1 : ∀ t : Fin cfg0.N, ((grid0.coords t) 1).val = t.val % 128 :=
  (by decide +kernel : ∀ t : Fin grid0.N, ((grid0.coords t) 1).val = t.val % 128)

/-! ## The bank and the labels as the call finds them -/

/-- The bf16 copy of the bank is the bank: at the extended reals a change of format is the identity. -/
theorem V_bank (y : S65536x256.Idx) : V m c main_v28 y = m ((c.tc : Thread nD τ).loc main_arg3) y := by
  dsimp only [V, V0]
  simp only [preOps, hostOps0, hostOps0_1, hostOps0_2, hostOps0_3, hostOps0_4, hostOps0_5, List.flatten_cons, List.flatten_nil, List.append_nil, List.cons_append, List.nil_append]
  after_results
  rfl

/-- The label column at row mm is label mm. -/
theorem V_lab (mm : Fin 65536) : V m c main_v29 (ix2 mm 0) = m ((c.tc : Thread nD τ).loc main_arg5) (ix1 mm) := by
  dsimp only [V, V0]
  simp only [preOps, hostOps0, hostOps0_1, hostOps0_2, hostOps0_3, hostOps0_4, hostOps0_5, List.flatten_cons, List.flatten_nil, List.append_nil, List.cons_append, List.nil_append]
  after_results
  show shapeCast S65536x1 (m (c, Proc.devRef .tc main_arg5)) shapeCasts_S65536_S65536x1 (ix2 mm 0) = _
  refine shapeCast_apply _ _ _ (ix1 mm) ?_
  rw [Shape.rowMajor_val_one, Shape.rowMajor_val_two]
  show mm.val = mm.val * 1 + 0
  omega

/-! ## The blocks of the three input windows -/

/-- The block indices of the input windows: the bank's and the labels' blocks move with the tile along the rows; the
    augmented features' block is the whole array. -/
theorem idx_facts : ∀ t : Fin cfg0.N, win0_0.index t (0 : Fin 2) = t.val % 128 ∧ win0_0.index t (1 : Fin 2) = 0
    ∧ win0_1.index t (0 : Fin 2) = t.val % 128 ∧ win0_1.index t (1 : Fin 2) = 0
    ∧ win0_2.index t (0 : Fin 2) = 0 ∧ win0_2.index t (1 : Fin 2) = 0 :=
  (by decide +kernel : ∀ t : Fin grid0.N, _)

/-- Row r, feature f of the tile's block of the bank is row (t mod 128) * 512 + r of the bank. -/
theorem xblk_apply (t : Fin cfg0.N) (r : Fin 512) (f : Fin 256) :
    xblk m c t (ix2 r f) = m ((c.tc : Thread nD τ).loc main_arg3) (ix2 ⟨(t.val % 128) * 512 + r.val, by have := r.isLt; have := Nat.mod_lt t.val (by norm_num : 0 < 128); omega⟩ f) := by
  obtain ⟨e0, e1, -, -, -, -⟩ := idx_facts t
  refine Eq.trans ?_ (V_bank m c _)
  show V m c main_v28 (((cfg0.win 0).blk t).view.emb (ix2 r f)) = V m c main_v28 _
  refine congrArg _ ?_
  funext a; apply Fin.ext
  match a with
  | ⟨0, _⟩ => show win0_0.index t (0 : Fin 2) * 512 + 1 * r.val = (t.val % 128) * 512 + r.val; rw [e0]; omega
  | ⟨1, _⟩ => show win0_0.index t (1 : Fin 2) * 256 + 1 * f.val = f.val; rw [e1]; omega

/-- Row r of the tile's block of labels is label (t mod 128) * 512 + r. -/
theorem lblk_apply (t : Fin cfg0.N) (r : Fin 512) :
    lblk m c t (ix2 r 0) = m ((c.tc : Thread nD τ).loc main_arg5) (ix1 ⟨(t.val % 128) * 512 + r.val, by have := r.isLt; have := Nat.mod_lt t.val (by norm_num : 0 < 128); omega⟩) := by
  obtain ⟨-, -, e2, e3, -, -⟩ := idx_facts t
  refine Eq.trans ?_ (V_lab m c _)
  show V m c main_v29 (((cfg0.win 1).blk t).view.emb (ix2 r 0)) = V m c main_v29 _
  refine congrArg _ ?_
  funext a; apply Fin.ext
  match a with
  | ⟨0, _⟩ => show win0_1.index t (0 : Fin 2) * 512 + 1 * r.val = (t.val % 128) * 512 + r.val; rw [e2]; omega
  | ⟨1, _⟩ => show win0_1.index t (1 : Fin 2) * 1 + 1 * 0 = 0; rw [e3]

/-- The block of the augmented features is the whole array at every point. -/
theorem ablk_eq (t : Fin cfg0.N) : ablk m c t = V m c main_v8 := by
  obtain ⟨-, -, -, -, e4, e5⟩ := idx_facts t
  funext y
  show V m c main_v8 (((cfg0.win 2).blk t).view.emb y) = V m c main_v8 y
  refine congrArg _ ?_
  funext a; apply Fin.ext
  match a with
  | ⟨0, _⟩ => show win0_2.index t (0 : Fin 2) * 256 + 1 * (y 0).val = (y 0).val; rw [e4]; omega
  | ⟨1, _⟩ => show win0_2.index t (1 : Fin 2) * 256 + 1 * (y 1).val = (y 1).val; rw [e5]; omega

/-! ## A prefix sum grows by one block -/

section Prefix

variable {M : Type*} [AddCommMonoid M]

/-- A sum over the first N naturals restricted to the positions below n ≤ N is the sum over the first n naturals. -/
theorem sum_below_eq_range (N : ℕ) (g : ℕ → M) (n : ℕ) (hn : n ≤ N) :
    (∑ mm : Fin N, if mm.val < n then g mm.val else 0) = ∑ x ∈ Finset.range n, g x := by
  rw [Fin.sum_univ_eq_sum_range (fun x => if x < n then g x else 0) N, ← Finset.sum_filter]
  refine Finset.sum_congr ?_ (fun _ _ => rfl)
  ext x
  simp only [Finset.mem_filter, Finset.mem_range]
  omega

/-- The sum over the positions below (i + 1) * k is the sum over the positions below i * k plus the sum over the
    k positions of block i. -/
theorem sum_below_step (N k i : ℕ) (g : Fin N → M) (h : (i + 1) * k ≤ N) :
    (∑ mm : Fin N, if mm.val < (i + 1) * k then g mm else 0)
      = (∑ mm : Fin N, if mm.val < i * k then g mm else 0)
        + ∑ r : Fin k, g ⟨i * k + r.val, lt_of_lt_of_le (by rw [Nat.add_mul, Nat.one_mul]; exact Nat.add_lt_add_left r.isLt _) h⟩ := by
  obtain ⟨g', hg⟩ : ∃ g' : ℕ → M, ∀ mm : Fin N, g mm = g' mm.val :=
    ⟨fun x => if hx : x < N then g ⟨x, hx⟩ else 0, fun mm => by
      show g mm = (if hx : mm.val < N then g ⟨mm.val, hx⟩ else 0)
      rw [dif_pos mm.isLt]⟩
  have hik : i * k ≤ N := le_trans (Nat.mul_le_mul_right k (Nat.le_succ i)) h
  have e1 : ∀ n, (∑ mm : Fin N, if mm.val < n then g mm else 0) = ∑ mm : Fin N, if mm.val < n then g' mm.val else 0 :=
    fun n => Finset.sum_congr rfl (fun mm _ => by rw [hg mm])
  have hk : (i + 1) * k = i * k + k := by rw [Nat.add_mul, Nat.one_mul]
  rw [e1, e1, sum_below_eq_range N g' _ h, sum_below_eq_range N g' _ hik, congrArg Finset.range hk, Finset.sum_range_add]
  refine congrArg (_ + ·) ?_
  rw [← Fin.sum_univ_eq_sum_range (fun x => g' (i * k + x)) k]
  exact Finset.sum_congr rfl (fun r _ => by rw [hg])

end Prefix

/-! ## The one-hot entries against the whole bank -/

/-- the one-hot entry of bank row mm against class column j of class half cc -/
def ohm (cc : ℕ) (lab : IVec S65536 32) (mm : Fin 65536) (j : Fin 4096) : EReal :=
  if lab (ix1 mm) = BitVec.ofNat 32 (j.val + cc * 4096) then 1 else 0

/-- Row r of tile (t mod 128) is a row of the bank. -/
theorem row_lt (t : ℕ) (r : Fin 512) : (t % 128) * 512 + r.val < 65536 := by
  have := r.isLt; have := Nat.mod_lt t (by norm_num : 0 < 128); omega

/-- The one-hot entry of the tile's row r is the one-hot entry of bank row (t mod 128) * 512 + r, in class half t / 128. -/
theorem oh_lblk (t : Fin cfg0.N) (r : Fin 512) (j : Fin 4096) :
    PayVal.oh (grid0.coords t) (lblk m c t) r j
      = ohm (t.val / 128) (m ((c.tc : Thread nD τ).loc main_arg5)) ⟨(t.val % 128) * 512 + r.val, row_lt t.val r⟩ j := by
  unfold PayVal.oh ohm
  rw [lblk_apply m c t r, coords0 t]

/-- One tile's update of the counts: the prefix sum grows by the tile's 512 rows. -/
theorem counts_step (t : Fin cfg0.N) (j : Fin 4096) (acc : Vec Ideal S1x4096 .f32)
    (hacc : acc (ix2 0 j) = ∑ mm : Fin 65536, if mm.val < (t.val % 128) * 512 then ohm (t.val / 128) (m ((c.tc : Thread nD τ).loc main_arg5)) mm j else 0) :
    k0_pay5 (F := Ideal) (grid0.coords t) (lblk m c t) acc (ix2 0 j)
      = ∑ mm : Fin 65536, if mm.val < (t.val % 128 + 1) * 512 then ohm (t.val / 128) (m ((c.tc : Thread nD τ).loc main_arg5)) mm j else 0 := by
  have hb : (t.val % 128 + 1) * 512 ≤ 65536 := by have := Nat.mod_lt t.val (by norm_num : 0 < 128); omega
  rw [PayVal.pay5_apply (grid0.coords t) (lblk m c t) acc j, hacc,
    sum_below_step 65536 512 (t.val % 128) (fun mm => ohm (t.val / 128) (m ((c.tc : Thread nD τ).loc main_arg5)) mm j) hb]
  refine congrArg (_ + ·) ?_
  exact Finset.sum_congr rfl (fun r _ => oh_lblk m c t r j)

/-- One tile's update of the feature sums. -/
theorem scratch_step (t : Fin cfg0.N) (j : Fin 4096) (f : Fin 256) (acc : Vec Ideal S4096x256 .f32)
    (hacc : acc (ix2 j f) = ∑ mm : Fin 65536, if mm.val < (t.val % 128) * 512 then ohm (t.val / 128) (m ((c.tc : Thread nD τ).loc main_arg5)) mm j * (m ((c.tc : Thread nD τ).loc main_arg3) (ix2 mm f) : EReal) else 0) :
    k0_pay4 (F := Ideal) (grid0.coords t) (xblk m c t) (lblk m c t) acc (ix2 j f)
      = ∑ mm : Fin 65536, if mm.val < (t.val % 128 + 1) * 512 then ohm (t.val / 128) (m ((c.tc : Thread nD τ).loc main_arg5)) mm j * (m ((c.tc : Thread nD τ).loc main_arg3) (ix2 mm f) : EReal) else 0 := by
  have hb : (t.val % 128 + 1) * 512 ≤ 65536 := by have := Nat.mod_lt t.val (by norm_num : 0 < 128); omega
  rw [PayVal.pay4_apply (grid0.coords t) (xblk m c t) (lblk m c t) acc j f, hacc,
    sum_below_step 65536 512 (t.val % 128) (fun mm => ohm (t.val / 128) (m ((c.tc : Thread nD τ).loc main_arg5)) mm j * (m ((c.tc : Thread nD τ).loc main_arg3) (ix2 mm f) : EReal)) hb]
  refine congrArg (_ + ·) ?_
  exact Finset.sum_congr rfl (fun r _ => by rw [oh_lblk m c t r j, xblk_apply m c t r f])

/-- An empty prefix sums to zero. -/
theorem sum_below_zero {M : Type*} [AddCommMonoid M] (N : ℕ) (g : Fin N → M) (n : ℕ) (hn : n = 0) :
    (∑ mm : Fin N, if mm.val < n * 512 then g mm else 0) = 0 :=
  Finset.sum_eq_zero (fun mm _ => if_neg (by subst hn; omega))

/-! ## The accumulators after each point -/

theorem acc_counts_aux : ∀ (n : ℕ) (hn : n < cfg0.N) (j : Fin 4096),
    (accAt m c n hn).1 (ix2 0 j)
      = ∑ mm : Fin 65536, if mm.val < (n % 128 + 1) * 512 then ohm (n / 128) (m ((c.tc : Thread nD τ).loc main_arg5)) mm j else 0 := by
  intro n
  induction n using Nat.strong_induction_on with
  | _ n ih =>
    intro hn j
    by_cases h : n % 128 = 0
    · rw [show accAt m c n hn = _ from accAt_first m c ⟨n, hn⟩ h]
      exact counts_step m c ⟨n, hn⟩ j _ (by rw [PayVal.pay2_apply]; exact (sum_below_zero 65536 _ _ h).symm)
    · rw [show accAt m c n hn = _ from accAt_later m c ⟨n, hn⟩ h]
      have e1 : (n - 1) % 128 + 1 = n % 128 := by omega
      have e2 : (n - 1) / 128 = n / 128 := by omega
      refine counts_step m c ⟨n, hn⟩ j _ ?_
      have := ih (n - 1) (by omega) (Nat.lt_of_le_of_lt (Nat.sub_le _ _) hn) j
      rw [e1, e2] at this
      exact this

theorem acc_scratch_aux : ∀ (n : ℕ) (hn : n < cfg0.N) (j : Fin 4096) (f : Fin 256),
    (accAt m c n hn).2 (ix2 j f)
      = ∑ mm : Fin 65536, if mm.val < (n % 128 + 1) * 512 then ohm (n / 128) (m ((c.tc : Thread nD τ).loc main_arg5)) mm j * (m ((c.tc : Thread nD τ).loc main_arg3) (ix2 mm f) : EReal) else 0 := by
  intro n
  induction n using Nat.strong_induction_on with
  | _ n ih =>
    intro hn j f
    by_cases h : n % 128 = 0
    · rw [show accAt m c n hn = _ from accAt_first m c ⟨n, hn⟩ h]
      exact scratch_step m c ⟨n, hn⟩ j f _ (by rw [PayVal.pay1_apply]; exact (sum_below_zero 65536 _ _ h).symm)
    · rw [show accAt m c n hn = _ from accAt_later m c ⟨n, hn⟩ h]
      have e1 : (n - 1) % 128 + 1 = n % 128 := by omega
      have e2 : (n - 1) / 128 = n / 128 := by omega
      refine scratch_step m c ⟨n, hn⟩ j f _ ?_
      have := ih (n - 1) (by omega) (Nat.lt_of_le_of_lt (Nat.sub_le _ _) hn) j f
      rw [e1, e2] at this
      exact this

/-- The counts buffer after point t, at class column j: the number of bank rows among the first (t mod 128 + 1)
    tiles whose label is class j of class half t / 128. -/
theorem acc_counts (t : Fin cfg0.N) (j : Fin 4096) :
    (accAt m c t.val t.isLt).1 (ix2 0 j)
      = ∑ mm : Fin 65536, if mm.val < (t.val % 128 + 1) * 512 then ohm (t.val / 128) (m ((c.tc : Thread nD τ).loc main_arg5)) mm j else 0 :=
  acc_counts_aux m c t.val t.isLt j

/-- The scratch after point t, at class column j and feature f: the sum of feature f over those rows. -/
theorem acc_scratch (t : Fin cfg0.N) (j : Fin 4096) (f : Fin 256) :
    (accAt m c t.val t.isLt).2 (ix2 j f)
      = ∑ mm : Fin 65536, if mm.val < (t.val % 128 + 1) * 512 then ohm (t.val / 128) (m ((c.tc : Thread nD τ).loc main_arg5)) mm j * (m ((c.tc : Thread nD τ).loc main_arg3) (ix2 mm f) : EReal) else 0 :=
  acc_scratch_aux m c t.val t.isLt j f

end Cert.KernelIdeal.Val

end
-- ==== Proof.KI.Arrays.lean ====
/-
  The pallas_call's two result arrays after the run, entry by entry.

  Class k = cc * 4096 + j lies in class half cc = k / 4096 at column j = k % 4096.  The block of class half cc is
  written back once, at the last tile of that half (grid point cc * 128 + 127), when the accumulators have seen the
  whole bank.  There the counts buffer holds, at column j, the column sum of the one-hot block over all 65536 bank
  rows, which is the number of rows whose label is the word of k, that is whose label read signed is k.  The
  scaled-product block holds, at (b, j), the inner product of query row b with the feature sum of class k, times
  1 / D.  Exchanging the sum over features with the sum over bank rows and pulling the 0/1 factor out turns it into
  the sum over the rows of class k of the inner products: that uses distributivity, which holds for real numbers, so
  the query matrix and the bank are taken finite.  The two blocks of each array tile it, so each array ends at one
  function of the arguments.
-/
import proofs.«406952_j62079457296450_3_alg».proof.Proof.KI.Frame
import proofs.«406952_j62079457296450_3_alg».proof.Proof.KI.Pay
import proofs.«406952_j62079457296450_3_alg».proof.Proof.KI.Acc
import proofs.«406952_j62079457296450_3_alg».proof.Proof.Spec
import Idealize.ShloMosaic.Lib.Pipeline.Value
import Mathlib.Data.EReal.Operations
import Mathlib.Algebra.BigOperators.Ring.Finset

set_option maxRecDepth 16384

noncomputable section

namespace Cert.KernelIdeal.Val

open Cert.KernelIdeal Cert.KernelIdeal.Gen Cert.KernelIdeal.Fr Idealize.ShloMosaic Idealize.ShloMosaic.ValueIdx

variable (m : (ℓ : Loc nD τ sig) → Buf (Elt Ideal) ℓ) (c : Dev nD)

namespace Arrays

/-! ## Labels as words, sums of coercions, and the exchange of the two sums -/

/-- A signed 32-bit word reads as the small natural number k exactly when it is the word of k. -/
theorem toInt_eq_natCast_iff (x : BitVec 32) (k : ℕ) (hk : k < 2 ^ 31) : x.toInt = (k : Int) ↔ x = BitVec.ofNat 32 k := by
  constructor
  · intro h
    have := BitVec.ofInt_toInt (x := x)
    rw [← this, h, BitVec.ofInt_natCast]
  · intro h
    subst h
    have h1 : (BitVec.ofNat 32 k).toNat = k := by rw [BitVec.toNat_ofNat]; omega
    rw [BitVec.toInt_eq_toNat_of_lt (by rw [h1]; omega), h1]

/-- Bank row mm belongs to class k exactly when its label is the word of k. -/
theorem hit_iff (lab : IVec S65536 32) (mm : Fin 65536) (k : Fin 8192) :
    Cert.Spec.hit lab mm k ↔ lab (ix1 mm) = BitVec.ofNat 32 k.val :=
  toInt_eq_natCast_iff _ _ (by have := k.isLt; omega)

/-- The one-hot entry of row mm at column j of class half cc is the indicator of class k = j + cc * 4096. -/
theorem ohm_eq (cc : ℕ) (lab : IVec S65536 32) (mm : Fin 65536) (j : Fin 4096) (k : Fin 8192) (hk : k.val = j.val + cc * 4096) :
    ohm cc lab mm j = if Cert.Spec.hit lab mm k then 1 else 0 := by
  unfold ohm
  rw [← hk]
  exact if_congr (hit_iff lab mm k).symm rfl rfl

/-- The coercion of a finite real sum is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s h ih => rw [Finset.sum_insert h, Finset.sum_insert h, EReal.coe_add, ih]

/-- Weights times a 0/1-selected sum, summed over the weights, is the selected sum of the weighted sums: both are the
    double sum over the selected pairs. For real entries, where multiplication distributes over addition. -/
theorem sum_mul_sum_ite {ι κ : Type*} [Fintype ι] [Fintype κ] (p : κ → Prop) [DecidablePred p] (a : ι → ℝ) (x : κ → ι → ℝ) :
    (∑ f, (a f : EReal) * ∑ mm, (if p mm then (1 : EReal) else 0) * (x mm f : EReal))
      = ∑ mm, if p mm then ∑ f, (a f : EReal) * (x mm f : EReal) else 0 := by
  have hL : ∀ f, (a f : EReal) * ∑ mm, (if p mm then (1 : EReal) else 0) * (x mm f : EReal)
      = ((a f * ∑ mm, (if p mm then x mm f else 0) : ℝ) : EReal) := by
    intro f
    rw [EReal.coe_mul, coe_sum]
    congr 1
    refine Finset.sum_congr rfl fun mm _ => ?_
    by_cases h : p mm
    · rw [if_pos h, if_pos h, one_mul]
    · rw [if_neg h, if_neg h, zero_mul, EReal.coe_zero]
  have hR : ∀ mm, (if p mm then ∑ f, (a f : EReal) * (x mm f : EReal) else 0)
      = ((if p mm then ∑ f, a f * x mm f else 0 : ℝ) : EReal) := by
    intro mm
    by_cases h : p mm
    · rw [if_pos h, if_pos h, coe_sum]
      exact Finset.sum_congr rfl fun f _ => (EReal.coe_mul _ _).symm
    · rw [if_neg h, if_neg h, EReal.coe_zero]
  rw [Finset.sum_congr rfl fun f _ => hL f, Finset.sum_congr rfl fun mm _ => hR mm, ← coe_sum, ← coe_sum]
  congr 1
  rw [Finset.sum_congr rfl fun f _ => Finset.mul_sum _ _ _, Finset.sum_comm]
  refine Finset.sum_congr rfl fun mm _ => ?_
  by_cases h : p mm
  · rw [if_pos h]
    exact Finset.sum_congr rfl fun f _ => by rw [if_pos h]
  · rw [if_neg h]
    exact Finset.sum_eq_zero fun f _ => by rw [if_neg h, mul_zero]

/-! ## One class: the column sums of the one-hot block, and the scaled product with the class's feature sum -/

/-- The column sum of the one-hot block over the whole bank is the count of the class. -/
theorem counts_eq (lab : IVec S65536 32) (cc : ℕ) (j : Fin 4096) (k : Fin 8192) (hk : k.val = j.val + cc * 4096) :
    (∑ mm : Fin 65536, ohm cc lab mm j) = Cert.Spec.cnt lab k := by
  unfold Cert.Spec.cnt
  exact Finset.sum_congr rfl fun mm _ => ohm_eq cc lab mm j k hk

/-- The scaled product of query row b with the class's feature sum is the label-aggregated similarity, when the
    query matrix and the bank are finite. -/
theorem sim_eq (A : FVec Ideal S256x256 .f32) (X : FVec Ideal S65536x256 .f32) (lab : IVec S65536 32)
    (hA : ∀ b f : Fin 256, ∃ r : ℝ, A (ix2 b f) = (r : EReal))
    (hX : ∀ (mm : Fin 65536) (f : Fin 256), ∃ r : ℝ, X (ix2 mm f) = (r : EReal))
    (cc : ℕ) (b : Fin 256) (j : Fin 4096) (k : Fin 8192) (hk : k.val = j.val + cc * 4096) :
    (∑ f : Fin 256, A (ix2 b f) * ∑ mm : Fin 65536, ohm cc lab mm j * X (ix2 mm f)) * ((1 / Cert.Spec.temp : ℝ) : EReal)
      = Cert.Spec.simv A X lab b k := by
  unfold Cert.Spec.simv
  refine congrArg (· * ((1 / Cert.Spec.temp : ℝ) : EReal)) ?_
  choose a ha using hA
  choose x hx using hX
  have e1 : ∀ f : Fin 256, A (ix2 b f) * ∑ mm : Fin 65536, ohm cc lab mm j * X (ix2 mm f)
      = (a b f : EReal) * ∑ mm : Fin 65536, (if Cert.Spec.hit lab mm k then (1 : EReal) else 0) * (x mm f : EReal) := by
    intro f
    rw [ha b f]
    refine congrArg ((a b f : EReal) * ·) ?_
    exact Finset.sum_congr rfl fun mm _ => by rw [ohm_eq cc lab mm j k hk, hx mm f]
  have e2 : ∀ mm : Fin 65536, (if Cert.Spec.hit lab mm k then ∑ f : Fin 256, A (ix2 b f) * X (ix2 mm f) else 0)
      = if Cert.Spec.hit lab mm k then ∑ f : Fin 256, (a b f : EReal) * (x mm f : EReal) else 0 := by
    intro mm
    refine if_congr Iff.rfl ?_ rfl
    exact Finset.sum_congr rfl fun f _ => by rw [ha b f, hx mm f]
  rw [Finset.sum_congr rfl fun f _ => e1 f, Finset.sum_congr rfl fun mm _ => e2 mm]
  exact sum_mul_sum_ite (fun mm => Cert.Spec.hit lab mm k) (a b) x

/-! ## From blocks to the arrays -/

/-- The block index of the two result windows at a grid point: zero on the row axis, the class half on the class axis. -/
theorem res_idx : ∀ t : Fin cfg0.N, win0_3.index t (0 : Fin 2) = 0 ∧ win0_3.index t (1 : Fin 2) = t.val / 128
    ∧ win0_4.index t (0 : Fin 2) = 0 ∧ win0_4.index t (1 : Fin 2) = t.val / 128 :=
  (by decide +kernel : ∀ t : Fin grid0.N, _)

/-- The counts array the call leaves: at column k the count of class k. -/
abbrev cntArr (lab : IVec S65536 32) : S1x8192.Idx → EReal := fun i => Cert.Spec.cnt lab ⟨(i 1).val, (i 1).isLt⟩

/-- The similarity array the call leaves: at (b, k) the label-aggregated similarity of query row b with class k. -/
abbrev simArr (A : FVec Ideal S256x256 .f32) (X : FVec Ideal S65536x256 .f32) (lab : IVec S65536 32) : S256x8192.Idx → EReal :=
  fun i => Cert.Spec.simv A X lab ⟨(i 0).val, (i 0).isLt⟩ ⟨(i 1).val, (i 1).isLt⟩

/-- An index of the counts array is in point t's block iff each coordinate is in the block's range on its axis. -/
theorem mem_cntBlk (t : Fin cfg0.N) (i : S1x8192.Idx) :
    i ∈ ((cfg0.win 4).blk t).view.set ↔ ∀ a : Fin 2, win0_4.index t a * S1x4096.size a ≤ (i a).val ∧ (i a).val < win0_4.index t a * S1x4096.size a + S1x4096.size a := by
  show i ∈ ((View.whole main_v30_1).slice (win0_4.rect t)).set ↔ _
  rw [View.set_slice_whole, Rect.mem_set_unit]
  exact Iff.rfl

/-- The same for the similarity array. -/
theorem mem_simBlk (t : Fin cfg0.N) (i : S256x8192.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v30_0).slice (win0_3.rect t)).set ↔ _
  rw [View.set_slice_whole, Rect.mem_set_unit]
  exact Iff.rfl

/-- Every column of the counts array lies in the block written back at the last tile of its class half. -/
theorem cnt_cover (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 256 := N_0
  have ht : (i 1).val / 4096 * 128 + 127 < cfg0.N := by rw [hN]; omega
  refine ⟨⟨(i 1).val / 4096 * 128 + 127, ht⟩, (flush0_4 _).mpr (by show ((i 1).val / 4096 * 128 + 127) % 128 = 127; omega), ?_⟩
  rw [mem_cntBlk]
  obtain ⟨-, -, e0, e1⟩ := res_idx ⟨(i 1).val / 4096 * 128 + 127, ht⟩
  have e1' : win0_4.index ⟨(i 1).val / 4096 * 128 + 127, ht⟩ (1 : Fin 2) = (i 1).val / 4096 := by
    rw [e1]; show ((i 1).val / 4096 * 128 + 127) / 128 = _; omega
  intro a
  match a with
  | ⟨0, _⟩ => show win0_4.index ⟨(i 1).val / 4096 * 128 + 127, ht⟩ (0 : Fin 2) * 1 ≤ (i 0).val ∧ (i 0).val < win0_4.index ⟨(i 1).val / 4096 * 128 + 127, ht⟩ (0 : Fin 2) * 1 + 1; omega
  | ⟨1, _⟩ => show win0_4.index ⟨(i 1).val / 4096 * 128 + 127, ht⟩ (1 : Fin 2) * 4096 ≤ (i 1).val ∧ (i 1).val < win0_4.index ⟨(i 1).val / 4096 * 128 + 127, ht⟩ (1 : Fin 2) * 4096 + 4096; omega

/-- Every entry of the similarity array lies in the block written back at the last tile of its class half. -/
theorem sim_cover (i : S256x8192.Idx) : ∃ t : Fin cfg0.N, (cfg0.win 3).flush t = true ∧ i ∈ ((cfg0.win 3).blk t).view.set := by
  have hi0 : (i 0).val < 256 := (i 0).isLt
  have hi1 : (i 1).val < 8192 := (i 1).isLt
  have hN : cfg0.N = 256 := N_0
  have ht : (i 1).val / 4096 * 128 + 127 < cfg0.N := by rw [hN]; omega
  refine ⟨⟨(i 1).val / 4096 * 128 + 127, ht⟩, (flush0_3 _).mpr (by show ((i 1).val / 4096 * 128 + 127) % 128 = 127; omega), ?_⟩
  rw [mem_simBlk]
  obtain ⟨e0, e1, -, -⟩ := res_idx ⟨(i 1).val / 4096 * 128 + 127, ht⟩
  have e1' : win0_3.index ⟨(i 1).val / 4096 * 128 + 127, ht⟩ (1 : Fin 2) = (i 1).val / 4096 := by
    rw [e1]; show ((i 1).val / 4096 * 128 + 127) / 128 = _; omega
  intro a
  match a with
  | ⟨0, _⟩ => show win0_3.index ⟨(i 1).val / 4096 * 128 + 127, ht⟩ (0 : Fin 2) * 256 ≤ (i 0).val ∧ (i 0).val < win0_3.index ⟨(i 1).val / 4096 * 128 + 127, ht⟩ (0 : Fin 2) * 256 + 256; omega
  | ⟨1, _⟩ => show win0_3.index ⟨(i 1).val / 4096 * 128 + 127, ht⟩ (1 : Fin 2) * 4096 ≤ (i 1).val ∧ (i 1).val < win0_3.index ⟨(i 1).val / 4096 * 128 + 127, ht⟩ (1 : Fin 2) * 4096 + 4096; omega

/-- What the last tile of a class half writes back to the counts array is that half's block of the counts. -/
theorem cnt_flushed (t : Fin cfg0.N) (hf : (cfg0.win 4).flush t = true) :
    (dats m 0 c).flushed 4 t = ((cfg0.win 4).blk t).view.read (Elt Ideal) (cntArr (m ((c.tc : Thread nD τ).loc main_arg5))) := by
  have h127 : t.val % 128 = 127 := (flush0_4 t).mp hf
  obtain ⟨-, -, e0, e1⟩ := res_idx t
  have hN : t.val < 256 := lt_of_lt_of_eq t.isLt (show cfg0.N = 256 from N_0)
  show (cfg0.win 4).cut (grid0.coords t) ((dats m 0 c).after 4 t) = _
  rw [after0_4]
  funext j
  obtain ⟨j0, j1, rfl⟩ : ∃ (j0 : Fin 1) (j1 : Fin 4096), j = ix2 j0 j1 := ⟨j 0, j 1, eq_ix2 (n0 := 1) (n1 := 4096) j⟩
  have hj0 : j0 = 0 := Subsingleton.elim _ _
  subst hj0
  have hl : (cfg0.win 4).cut (grid0.coords t) (accAt m c t.val t.isLt).1 (ix2 0 j1) = (accAt m c t.val t.isLt).1 (ix2 0 j1) := rfl
  have key : (accAt m c t.val t.isLt).1 (ix2 0 j1)
      = Cert.Spec.cnt (m ((c.tc : Thread nD τ).loc main_arg5)) ⟨j1.val + t.val / 128 * 4096, by have := j1.isLt; omega⟩ := by
    rw [acc_counts m c t j1, Finset.sum_congr rfl fun mm _ => if_pos (show mm.val < (t.val % 128 + 1) * 512 by have := mm.isLt; omega)]
    exact counts_eq _ (t.val / 128) j1 _ rfl
  rw [hl, View.read_apply, cast_eq, key]
  refine congrArg (Cert.Spec.cnt (m ((c.tc : Thread nD τ).loc main_arg5))) (Fin.ext ?_)
  show j1.val + t.val / 128 * 4096 = win0_4.index t (1 : Fin 2) * 4096 + 1 * j1.val
  rw [e1]; omega

/-- The scaled product of the query matrix with a scratch holding the feature sums of one class half, at (b, j), is
    the label-aggregated similarity of query row b with the class of column j. -/
theorem sim_point (A : FVec Ideal S256x256 .f32) (X : FVec Ideal S65536x256 .f32) (lab : IVec S65536 32)
    (hA : ∀ b f : Fin 256, ∃ r : ℝ, A (ix2 b f) = (r : EReal))
    (hX : ∀ (mm : Fin 65536) (f : Fin 256), ∃ r : ℝ, X (ix2 mm f) = (r : EReal))
    (cc : ℕ) (b : Fin 256) (j : Fin 4096) (acc : Vec Ideal S4096x256 .f32)
    (hacc : ∀ f : Fin 256, acc (ix2 j f) = ∑ mm : Fin 65536, ohm cc lab mm j * X (ix2 mm f))
    (k : Fin 8192) (hk : k.val = j.val + cc * 4096) :
    k0_pay6 (F := Ideal) A acc (ix2 b j) = Cert.Spec.simv A X lab b k := by
  have h2 : (∑ f : Fin 256, A (ix2 b f) * acc (ix2 j f))
      = ∑ f : Fin 256, A (ix2 b f) * ∑ mm : Fin 65536, ohm cc lab mm j * X (ix2 mm f) :=
    Finset.sum_congr rfl fun f _ => by rw [hacc f]
  rw [PayVal.pay6_apply, h2]
  exact sim_eq A X lab hA hX cc b j k hk

/-- What the last tile of a class half writes back to the similarity array is that half's block of the similarities. -/
theorem sim_flushed (hA : ∀ b f : Fin 256, ∃ r : ℝ, V m c main_v8 (ix2 b f) = (r : EReal))
    (hX : ∀ (mm : Fin 65536) (f : Fin 256), ∃ r : ℝ, m ((c.tc : Thread nD τ).loc main_arg3) (ix2 mm f) = (r : EReal))
    (t : Fin cfg0.N) (hf : (cfg0.win 3).flush t = true) :
    (dats m 0 c).flushed 3 t = ((cfg0.win 3).blk t).view.read (Elt Ideal)
      (simArr (V m c main_v8) (m ((c.tc : Thread nD τ).loc main_arg3)) (m ((c.tc : Thread nD τ).loc main_arg5))) := by
  have h127 : t.val % 128 = 127 := (flush0_3 t).mp hf
  obtain ⟨e0, e1, -, -⟩ := res_idx t
  have hN : t.val < 256 := lt_of_lt_of_eq t.isLt (show cfg0.N = 256 from N_0)
  show (cfg0.win 3).cut (grid0.coords t) ((dats m 0 c).after 3 t) = _
  rw [after0_3]
  funext j
  obtain ⟨b, j1, rfl⟩ : ∃ (b : Fin 256) (j1 : Fin 4096), j = ix2 b j1 := ⟨j 0, j 1, eq_ix2 (n0 := 256) (n1 := 4096) j⟩
  have hl : (cfg0.win 3).cut (grid0.coords t) (simAt m c t) (ix2 b j1) = simAt m c t (ix2 b j1) := rfl
  have hs : ∀ f : Fin 256, (accAt m c t.val t.isLt).2 (ix2 j1 f)
      = ∑ mm : Fin 65536, ohm (t.val / 128) (m ((c.tc : Thread nD τ).loc main_arg5)) mm j1 * m ((c.tc : Thread nD τ).loc main_arg3) (ix2 mm f) := fun f =>
    (acc_scratch m c t j1 f).trans (Finset.sum_congr rfl fun mm _ => if_pos (show mm.val < (t.val % 128 + 1) * 512 by have := mm.isLt; omega))
  have key : simAt m c t (ix2 b j1)
      = Cert.Spec.simv (V m c main_v8) (m ((c.tc : Thread nD τ).loc main_arg3)) (m ((c.tc : Thread nD τ).loc main_arg5)) b
          ⟨j1.val + t.val / 128 * 4096, by have := j1.isLt; omega⟩ := by
    unfold simAt
    rw [ablk_eq m c t]
    exact sim_point _ _ _ hA hX (t.val / 128) b j1 _ hs _ rfl
  rw [hl, View.read_apply, cast_eq, key]
  refine congrArg₂ (Cert.Spec.simv (V m c main_v8) (m ((c.tc : Thread nD τ).loc main_arg3)) (m ((c.tc : Thread nD τ).loc main_arg5))) (Fin.ext ?_) (Fin.ext ?_)
  · show b.val = win0_3.index t (0 : Fin 2) * 256 + 1 * b.val
    rw [e0]; omega
  · show j1.val + t.val / 128 * 4096 = win0_3.index t (1 : Fin 2) * 4096 + 1 * j1.val
    rw [e1]; omega

end Arrays

open Arrays

/-! ## The two result arrays after the run -/

/-- The counts array after the run: at column k the number of bank rows of class k. -/
theorem cnt_arr (k : Fin 8192) :
    (dats m 0 c).arrAt 4 cfg0.N (ix2 0 k) = Cert.Spec.cnt (m ((c.tc : Thread nD τ).loc main_arg5)) k :=
  congrFun ((dats m 0 c).arrAt_eq_of_cover 4 (cntArr (m ((c.tc : Thread nD τ).loc main_arg5))) (cnt_flushed m c) cnt_cover) (ix2 0 k)

/-- The similarity array after the run: at (b, k) the label-aggregated similarity of query row b with class k, when
    the normalised query matrix and the bank are finite. -/
theorem sim_arr (hA : ∀ b f : Fin 256, ∃ r : ℝ, V m c main_v8 (ix2 b f) = (r : EReal))
    (hX : ∀ (mm : Fin 65536) (f : Fin 256), ∃ r : ℝ, m ((c.tc : Thread nD τ).loc main_arg3) (ix2 mm f) = (r : EReal))
    (b : Fin 256) (k : Fin 8192) :
    (dats m 0 c).arrAt 3 cfg0.N (ix2 b k)
      = Cert.Spec.simv (V m c main_v8) (m ((c.tc : Thread nD τ).loc main_arg3)) (m ((c.tc : Thread nD τ).loc main_arg5)) b k :=
  congrFun ((dats m 0 c).arrAt_eq_of_cover 3
    (simArr (V m c main_v8) (m ((c.tc : Thread nD τ).loc main_arg3)) (m ((c.tc : Thread nD τ).loc main_arg5)))
    (sim_flushed m c hA hX) sim_cover) (ix2 b k)

end Cert.KernelIdeal.Val

end
-- ==== Proof.LibPointScatter.lean ====
/-
  General facts about a scatter-add read at the exact instance (floats as extended reals), for any shapes and any
  dimension numbers:
  * `resultIdx?_eq_some_iff`: an update lands at operand index p exactly when, on every operand axis, its start
    (the index array's entry read signed, unclamped) plus its window coordinate is p's coordinate — being inside
    the operand is then automatic, so the "dropped when outside" clause disappears;
  * `scatterAdd_apply`: `Host.scatterAdd` at a result entry is the operand's entry plus the sum of the updates
    that land there;
  * `sum_filter_equiv`: two sums over filtered index sets agree when a bijection of the index types carries one
    predicate to the other and one summand to the other — the step that joins a scatter over flattened updates to
    the scatter over the unflattened ones.
  All three are stated over variables (shapes, index types), so instantiating them never makes Lean evaluate over
  a large literal extent.
-/
import Idealize.ShloMosaic.PureOps.Ideal

noncomputable section

open Idealize.ShloMosaic

namespace Cert.Lib.PointScatter

/-- An update lands at operand index `p` exactly when, on every operand axis, its start plus its window
    coordinate is `p`'s coordinate: being inside the operand is then automatic. -/
theorem resultIdx?_eq_some_iff {s si u : Shape} (d : ScatterDims s si u) {w : Nat} (j : u.Idx) (idx : IVec si w) (p : s.Idx) :
    d.resultIdx? j idx = some p ↔ ∀ a, d.start j idx a + (d.window j a : Int) = ((p a).val : Int) := by
  unfold ScatterDims.resultIdx?
  constructor
  · intro h
    by_cases hh : ∀ a, 0 ≤ d.start j idx a + d.window j a ∧ d.start j idx a + d.window j a < s.size a
    · rw [dif_pos hh] at h
      intro a
      have h1 := congrArg Fin.val (congrFun (Option.some.inj h) a)
      have h2 := hh a
      simp only at h1
      omega
    · rw [dif_neg hh] at h
      exact absurd h (by simp)
  · intro h
    have hh : ∀ a, 0 ≤ d.start j idx a + d.window j a ∧ d.start j idx a + d.window j a < s.size a := fun a => by
      have := h a; have := (p a).isLt; omega
    rw [dif_pos hh]
    congr 1
    funext a
    apply Fin.ext
    have := h a
    simp only
    omega

/-- The exact scatter-add at a result entry: the operand's entry plus the sum of the updates that land there. -/
theorem scatterAdd_apply {s si su : Shape} (d : ScatterDims s si su) {w : Nat} (x : FVec Ideal s .f32) (idx : IVec si w)
    (upd : FVec Ideal su .f32) (i : s.Idx) [DecidablePred fun j : su.Idx => d.resultIdx? j idx = some i] :
    Host.scatterAdd d x idx upd i = x i + ∑ j ∈ Finset.univ.filter (fun j => d.resultIdx? j idx = some i), upd j := by
  show Ideal.hostScatterAdd d x idx upd i = _
  unfold Ideal.hostScatterAdd
  congr

/-- Two sums over filtered index sets agree when a bijection of the index types carries one predicate to the
    other and one summand to the other. -/
theorem sum_filter_equiv {ι κ M : Type} [Fintype ι] [Fintype κ] [AddCommMonoid M] (e : ι ≃ κ) (P : ι → Prop) (Q : κ → Prop)
    [DecidablePred P] [DecidablePred Q] (f : ι → M) (g : κ → M) (hPQ : ∀ j, P j ↔ Q (e j)) (hfg : ∀ j, f j = g (e j)) :
    ∑ j ∈ Finset.univ.filter P, f j = ∑ k ∈ Finset.univ.filter Q, g k :=
  Finset.sum_equiv e (fun j => by simp only [Finset.mem_filter, Finset.mem_univ, true_and]; exact hPQ j) (fun j _ => hfg j)

end Cert.Lib.PointScatter

end
-- ==== Proof.RefSim.lean ====
/-
  The reference program's two scatter-adds, read at one entry, are the plain sums of Proof/Spec.lean.

  * The class count: scattering a one for every bank row m to the position its label names (read signed, dropped
    when it names no class) leaves at class k the number of rows whose label is k.
  * The label-aggregated similarity: scattering row m of the transposed, temperature-divided product
    (aug_n · featuresᵀ) / D to the row its label names leaves at entry (k, b) the sum over the rows m of class k of
    <aug_n[b], features[m]> / D.  Division by the real D ≠ 0 is multiplication by 1 / D, and for real inner
    products the common factor 1 / D comes out of the sum; that step is done in ℝ, because in the extended reals
    multiplication does not distribute over a sum that meets both infinities.
-/
import proofs.«406952_j62079457296450_3_alg».proof.Proof.RefRead
import proofs.«406952_j62079457296450_3_alg».proof.Proof.LibPointScatter
import proofs.«406952_j62079457296450_3_alg».proof.Proof.Spec
import Idealize.ShloMosaic.PureOps.Ideal
import Idealize.ShloMosaic.Lib.ValueIdx
import Mathlib.Data.EReal.Inv
import Mathlib.Algebra.BigOperators.Ring.Finset

noncomputable section

open Idealize.ShloMosaic Idealize.ShloMosaic.ValueIdx
open Cert.ReferenceIdeal Cert.ReferenceIdeal.ReadP

namespace Cert.Bridge.Ref

/-! ## The constants -/

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of the f32 nearest 0.05 denotes 13421773 / 2^28, the temperature. -/
theorem ofBits_temp : Ideal.ofBits .f32 0x3D4CCCCD#32 = ((Cert.Spec.temp : ℝ) : EReal) := by
  unfold Cert.Spec.temp
  simp [Ideal.ofBits, Ideal.ieee, -EReal.coe_mul]; norm_num

/-! ## Sums -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem exists_real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- A real factor comes out of a sum of real terms taken under a condition. -/
theorem sum_ite_mul_const {ι : Type*} (s : Finset ι) (P : ι → Prop) [DecidablePred P] (g : ι → EReal)
    (hg : ∀ i, ∃ r : ℝ, g i = (r : EReal)) (c : ℝ) :
    ∑ i ∈ s, (if P i then g i * (c : EReal) else 0) = (∑ i ∈ s, if P i then g i else 0) * (c : EReal) := by
  choose r hr using hg
  have e1 : ∀ i, (if P i then g i * (c : EReal) else 0) = ((if P i then r i * c else 0 : ℝ) : EReal) := by
    intro i
    rw [hr i]
    split_ifs
    · rw [EReal.coe_mul]
    · rw [EReal.coe_zero]
  have e2 : ∀ i, (if P i then g i else 0) = ((if P i then r i else 0 : ℝ) : EReal) := by
    intro i
    rw [hr i]
    split_ifs
    · rfl
    · rw [EReal.coe_zero]
  rw [Finset.sum_congr rfl fun i _ => e1 i, Finset.sum_congr rfl fun i _ => e2 i, ← coe_sum, ← coe_sum, ← EReal.coe_mul,
    Finset.sum_mul]
  refine congrArg _ (Finset.sum_congr rfl fun i _ => ?_)
  split_ifs
  · rfl
  · rw [zero_mul]

/-! ## Where an update lands -/

theorem start39 (idx : IVec S65536x1 32) (j : S65536.Idx) :
    scatter_S8192_S65536x1_S65536_n_0_0_1.start j idx 0 = (idx (ix2 (j 0) 0)).toInt := by
  unfold ScatterDims.start
  rw [dif_pos (by decide)]
  congr 2
  funext b
  match b with
  | ⟨0, _⟩ =>
    apply Fin.ext
    simp only [ScatterDims.siIdx]
    rw [dif_neg (by decide)]
    rfl
  | ⟨1, _⟩ =>
    apply Fin.ext
    simp only [ScatterDims.siIdx]
    rw [dif_pos (by decide)]
    rfl

theorem window39 (j : S65536.Idx) : scatter_S8192_S65536x1_S65536_n_0_0_1.window j 0 = 0 := by
  unfold ScatterDims.window
  rw [dif_neg (by decide)]

theorem start35_0 (idx : IVec S65536x1 32) (j : S65536x256.Idx) :
    scatter_S8192x256_S65536x1_S65536x256_1_0_0_1.start j idx 0 = (idx (ix2 (j 0) 0)).toInt := by
  unfold ScatterDims.start
  rw [dif_pos (by decide)]
  congr 2
  funext b
  match b with
  | ⟨0, _⟩ =>
    apply Fin.ext
    simp only [ScatterDims.siIdx]
    rw [dif_neg (by decide)]
    rfl
  | ⟨1, _⟩ =>
    apply Fin.ext
    simp only [ScatterDims.siIdx]
    rw [dif_pos (by decide)]
    rfl

theorem start35_1 (idx : IVec S65536x1 32) (j : S65536x256.Idx) :
    scatter_S8192x256_S65536x1_S65536x256_1_0_0_1.start j idx 1 = 0 := by
  unfold ScatterDims.start
  rw [dif_neg (by decide)]

theorem window35_0 (j : S65536x256.Idx) : scatter_S8192x256_S65536x1_S65536x256_1_0_0_1.window j 0 = 0 := by
  unfold ScatterDims.window
  rw [dif_neg (by decide)]

theorem window35_1 (j : S65536x256.Idx) : scatter_S8192x256_S65536x1_S65536x256_1_0_0_1.window j 1 = (j 1).val := by
  unfold ScatterDims.window
  rw [dif_pos (by decide)]
  rfl

/-- The labels as a column, read at row m, are the label of m. -/
theorem lab38 (lab : IVec S65536 32) (m : Fin 65536) : val_main_v38 (F := Ideal) lab (ix2 m 0) = lab (ix1 m) := by
  rw [val_main_v38_apply]
  congr 1
  funext a
  match a with
  | ⟨0, _⟩ => rfl

theorem lab34 (lab : IVec S65536 32) (m : Fin 65536) : val_main_v34 (F := Ideal) lab (ix2 m 0) = lab (ix1 m) := by
  rw [val_main_v34_apply]
  congr 1
  funext a
  match a with
  | ⟨0, _⟩ => rfl

/-- In the count's scatter, the update of bank row m lands at class k exactly when m is of class k. -/
theorem lands39 (lab : IVec S65536 32) (m : Fin 65536) (k : Fin 8192) :
    scatter_S8192_S65536x1_S65536_n_0_0_1.resultIdx? (ix1 m) (val_main_v38 (F := Ideal) lab) = some (ix1 k)
      ↔ Cert.Spec.hit lab m k := by
  rw [Cert.Lib.PointScatter.resultIdx?_eq_some_iff]
  unfold Cert.Spec.hit
  constructor
  · intro h
    have h0 := h 0
    rw [start39, window39, lab38] at h0
    simpa using h0
  · intro h a
    match a with
    | ⟨0, _⟩ =>
      show scatter_S8192_S65536x1_S65536_n_0_0_1.start (ix1 m) (val_main_v38 (F := Ideal) lab) 0
        + ((scatter_S8192_S65536x1_S65536_n_0_0_1.window (ix1 m) 0 : Nat) : Int) = ((k : Nat) : Int)
      rw [start39, window39, lab38]
      simpa using h

/-- The reference's class count at class k is the number of bank rows of class k. -/
theorem ref_cnt (lab : IVec S65536 32) (k : Fin 8192) :
    val_main_v39 (F := Ideal) lab (ix1 k) = Cert.Spec.cnt lab k := by
  classical
  unfold val_main_v39
  rw [Cert.Lib.PointScatter.scatterAdd_apply, val_main_v37_apply, val_main_cst_6_apply, Ideal.ofBits_def, ofBits_zero,
    zero_add, Finset.sum_filter, sum_idx1]
  unfold Cert.Spec.cnt
  refine Finset.sum_congr rfl fun m _ => ?_
  rw [val_main_v36_apply, val_main_cst_5_apply, Ideal.ofBits_def, ofBits_one]
  exact if_congr (lands39 lab m k) rfl rfl

/-- In the similarity's scatter, the update at (m, b') lands at (k, b) exactly when m is of class k and b' = b. -/
theorem lands35 (lab : IVec S65536 32) (m : Fin 65536) (b' b : Fin 256) (k : Fin 8192) :
    scatter_S8192x256_S65536x1_S65536x256_1_0_0_1.resultIdx? (ix2 m b') (val_main_v34 (F := Ideal) lab) = some (ix2 k b)
      ↔ (Cert.Spec.hit lab m k ∧ b' = b) := by
  rw [Cert.Lib.PointScatter.resultIdx?_eq_some_iff]
  unfold Cert.Spec.hit
  constructor
  · intro h
    have h0 := h 0
    have h1 := h 1
    rw [start35_0, window35_0, lab34] at h0
    rw [start35_1, window35_1] at h1
    refine ⟨by simpa using h0, Fin.ext ?_⟩
    have h1' : (0 : Int) + ((b'.val : Nat) : Int) = ((b.val : Nat) : Int) := h1
    omega
  · rintro ⟨h, rfl⟩ a
    match a with
    | ⟨0, _⟩ =>
      show scatter_S8192x256_S65536x1_S65536x256_1_0_0_1.start (ix2 m b') (val_main_v34 (F := Ideal) lab) 0
        + ((scatter_S8192x256_S65536x1_S65536x256_1_0_0_1.window (ix2 m b') 0 : Nat) : Int) = ((k : Nat) : Int)
      rw [start35_0, window35_0, lab34]
      simpa using h
    | ⟨1, _⟩ =>
      show scatter_S8192x256_S65536x1_S65536x256_1_0_0_1.start (ix2 m b') (val_main_v34 (F := Ideal) lab) 1
        + ((scatter_S8192x256_S65536x1_S65536x256_1_0_0_1.window (ix2 m b') 1 : Nat) : Int) = ((b' : Nat) : Int)
      rw [start35_1, window35_1]
      simp

/-! ## One entry of the scattered updates -/

/-- Entry (m, b) of the updates is the inner product of the normalised query row b with bank row m, times 1 / D. -/
theorem upd_entry (a2 : FVec Ideal S256x256 .f32) (a3 : FVec Ideal S65536x256 .f32) (m : Fin 65536) (b : Fin 256) :
    val_main_v32 (F := Ideal) a2 a3 (ix2 m b)
      = (∑ f : Fin 256, val_main_v8 (F := Ideal) a2 (ix2 b f) * a3 (ix2 m f)) * ((1 / Cert.Spec.temp : ℝ) : EReal) := by
  have e32 : idx_main_v32 (ix2 m b) = ix2 b m := funext fun a => by
    match a with
    | ⟨0, _⟩ => rfl
    | ⟨1, _⟩ => rfl
  rw [val_main_v32_apply, e32, val_main_v24_apply, val_main_v23_apply, val_main_cst_2_apply, Ideal.hostDivf_def,
    Ideal.ofBits_def, ofBits_temp, Ideal.div_coe Cert.Spec.temp_ne_zero, val_main_v22_apply]
  refine congrArg (· * _) (Finset.sum_congr rfl fun f _ => ?_)
  have el : lidx_main_v22 (ix2 b m) f = ix2 b f := funext fun a => by
    match a with
    | ⟨0, _⟩ => rfl
    | ⟨1, _⟩ => rfl
  have er : idx_main_v21 (ridx_main_v22 (ix2 b m) f) = ix2 m f := funext fun a => by
    match a with
    | ⟨0, _⟩ => rfl
    | ⟨1, _⟩ => rfl
  rw [val_main_v21_apply, el, er]

/-! ## The similarity -/

/-- The reference's scattered similarity at entry (k, b) is the label-aggregated similarity of query row b with
    class k. -/
theorem ref_sim (a2 : FVec Ideal S256x256 .f32) (a3 : FVec Ideal S65536x256 .f32) (lab : IVec S65536 32)
    (hA : ∀ b f, ∃ r : ℝ, val_main_v8 (F := Ideal) a2 (ix2 b f) = (r : EReal))
    (hX : ∀ mm f, ∃ r : ℝ, a3 (ix2 mm f) = (r : EReal)) (b : Fin 256) (k : Fin 8192) :
    val_main_v35 (F := Ideal) a2 a3 lab (ix2 k b) = Cert.Spec.simv (val_main_v8 (F := Ideal) a2) a3 lab b k := by
  classical
  unfold val_main_v35
  rw [Cert.Lib.PointScatter.scatterAdd_apply, val_main_v33_apply, val_main_cst_4_apply, Ideal.ofBits_def, ofBits_zero,
    zero_add, Finset.sum_filter, sum_idx2]
  unfold Cert.Spec.simv
  -- of the updates (m, b') only b' = b can land in column b
  have step1 : ∀ m : Fin 65536,
      (∑ b' : Fin 256, if scatter_S8192x256_S65536x1_S65536x256_1_0_0_1.resultIdx? (ix2 m b') (val_main_v34 (F := Ideal) lab)
          = some (ix2 k b) then val_main_v32 (F := Ideal) a2 a3 (ix2 m b') else 0)
        = if Cert.Spec.hit lab m k then val_main_v32 (F := Ideal) a2 a3 (ix2 m b) else 0 := by
    intro m
    rw [Finset.sum_eq_single b]
    · exact if_congr ((lands35 lab m b b k).trans (and_iff_left rfl)) rfl rfl
    · intro b' _ hb'
      rw [if_neg]
      intro h
      exact hb' ((lands35 lab m b' b k).1 h).2
    · intro h
      exact absurd (Finset.mem_univ b) h
  refine (Finset.sum_congr rfl fun m _ => step1 m).trans ?_
  refine (Finset.sum_congr rfl fun m _ => by rw [upd_entry]).trans ?_
  -- every inner product is a real number, so the factor 1 / D comes out of the sum
  exact sum_ite_mul_const _ (fun m => Cert.Spec.hit lab m k)
    (fun m => ∑ f : Fin 256, val_main_v8 (F := Ideal) a2 (ix2 b f) * a3 (ix2 m f))
    (fun m => exists_real_sum _ _ fun f => by
      obtain ⟨x, hx⟩ := hA b f
      obtain ⟨y, hy⟩ := hX m f
      exact ⟨x * y, by rw [hx, hy, EReal.coe_mul]⟩) _

end Cert.Bridge.Ref

end
-- ==== Proof.AugN.lean ====
/-
  The row-normalised augmented features, entry by entry.

  Both programs divide each entry of the 256 x 256 augmented feature matrix by the Euclidean norm of its row: the
  squares of the row are summed from zero, the square root is taken, and the entry is divided by it. Here that value
  is written once as a function of the matrix, and both programs' arrays are read at an entry as that function, so
  that the two arrays agree when the two programs are given the same matrix.
-/
import proofs.«406952_j62079457296450_3_alg».proof.Proof.KI.Base
import proofs.«406952_j62079457296450_3_alg».proof.Proof.RefRead
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.ShloMosaic.ValueIdx Idealize.ShloMosaic.StableHlo Idealize.SL.Sem

/-- The normalised row entry: entry (b, f) divided by the square root of the sum of the squares of row b. -/
def augn (a2 : FVec Ideal ⟨2, ![256, 256]⟩ .f32) (b f : Fin 256) : EReal :=
  Ideal.div (a2 (ix2 b f)) (Ideal.sqrt (0 + ∑ g : Fin 256, a2 (ix2 b g) * a2 (ix2 b g)))

/-- The chain of host operations both programs apply to the matrix, read at an entry. -/
theorem norm_chain_apply (a2 : FVec Ideal ⟨2, ![256, 256]⟩ .f32)
    (hR : (⟨2, ![256, 256]⟩ : Shape).ReducesTo [1] ⟨1, ![256]⟩) (hu : 0 < (⟨0, ![]⟩ : Shape).numel)
    (hb1 : (⟨1, ![256]⟩ : Shape).BroadcastsInDim ⟨2, ![256, 1]⟩ ![0])
    (hb2 : (⟨2, ![256, 1]⟩ : Shape).BroadcastsInDim ⟨2, ![256, 256]⟩ ![0, 1]) (b f : Fin 256) :
    Host.divf (F := Ideal) a2 (broadcastInDim ⟨2, ![256, 256]⟩ ![0, 1] hb2 (Host.sqrt (F := Ideal) (broadcastInDim ⟨2, ![256, 1]⟩ ![0] hb1
       (Host.reduceAdd (F := Ideal) (mulf a2 a2) (constant (F := Ideal) ⟨0, ![]⟩ .f32 0x00000000#32) hR hu)))) (ix2 b f) = augn a2 b f := by
  unfold augn
  generalize hS : Host.reduceAdd (F := Ideal) (mulf a2 a2) (constant (F := Ideal) ⟨0, ![]⟩ .f32 0x00000000#32) hR hu = S
  generalize hQ : Host.sqrt (F := Ideal) (broadcastInDim ⟨2, ![256, 1]⟩ ![0] hb1 S) = Q
  show Ideal.div (a2 (ix2 b f)) (broadcastInDim ⟨2, ![256, 256]⟩ ![0, 1] hb2 Q (ix2 b f)) = _
  refine congrArg (Ideal.div (a2 (ix2 b f))) ?_
  refine (broadcastInDim_apply ![0, 1] hb2 Q (ix2 b f) (ix2 b 0) (fun a => match a with
    | ⟨0, _⟩ => by show b.val = if (256 : Nat) = 1 then 0 else b.val; rw [if_neg (by decide)]
    | ⟨1, _⟩ => by show 0 = if (1 : Nat) = 1 then 0 else f.val; rw [if_pos rfl])).trans ?_
  subst hQ
  show Ideal.sqrt (broadcastInDim ⟨2, ![256, 1]⟩ ![0] hb1 S (ix2 b 0)) = _
  refine congrArg Ideal.sqrt ?_
  refine (broadcastInDim_apply ![0] hb1 S (ix2 b 0) (ix1 b) (fun a => match a with
    | ⟨0, _⟩ => by show b.val = if (256 : Nat) = 1 then 0 else b.val; rw [if_neg (by decide)])).trans ?_
  subst hS
  show Ideal.hostReduceAdd hR (mulf a2 a2) (Ideal.ofBits .f32 0x00000000#32) (ix1 b) = _
  rw [Ideal.hostReduceAdd_single hR (by decide), Ideal.ofBits_zero_f32]
  refine congrArg (0 + ·) (Finset.sum_congr rfl fun g _ => ?_)
  have e : (by decide : (⟨2, ![256, 256]⟩ : Shape).Reduces [1] ⟨1, ![256]⟩).lift (ix1 b) g = ix2 b g := funext fun a => Fin.ext (by
    match a with
    | ⟨0, _⟩ => rfl
    | ⟨1, _⟩ => rfl)
  exact congrArg (fun i => a2 i * a2 i) e

theorem ker_augn_apply (m : (ℓ : Loc Cert.KernelIdeal.nD Cert.KernelIdeal.τ Cert.KernelIdeal.sig) → Buf (Elt Ideal) ℓ) (c : Dev Cert.KernelIdeal.nD) (b f : Fin 256) :
    Cert.KernelIdeal.Fr.V m c Cert.KernelIdeal.main_v8 (ix2 b f) = augn (m ((c.tc : Thread Cert.KernelIdeal.nD Cert.KernelIdeal.τ).loc Cert.KernelIdeal.main_arg2)) b f := by
  dsimp only [Cert.KernelIdeal.Fr.V, Cert.KernelIdeal.Fr.V0]
  simp only [Cert.KernelIdeal.Fr.preOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, List.flatten_cons, List.flatten_nil, List.append_nil, List.cons_append, List.nil_append]
  after_results
  exact norm_chain_apply (m ((c.tc : Thread Cert.KernelIdeal.nD Cert.KernelIdeal.τ).loc Cert.KernelIdeal.main_arg2))
    Cert.KernelIdeal.Gen.reducesTo_S256x256_S256_d1 Cert.KernelIdeal.Gen.h_S_ Cert.KernelIdeal.Gen.bcast_S256_S256x1_0
    Cert.KernelIdeal.Gen.bcast_S256x1_S256x256_0_1 b f

/-- The reference's normalised matrix at an entry. -/
theorem ref_augn_apply (a2 : FVec Ideal Cert.ReferenceIdeal.S256x256 .f32) (b f : Fin 256) :
    Cert.ReferenceIdeal.ReadP.val_main_v8 (F := Ideal) a2 (ix2 b f) = augn a2 b f := by
  unfold Cert.ReferenceIdeal.ReadP.val_main_v8 Cert.ReferenceIdeal.ReadP.val_main_v7 Cert.ReferenceIdeal.ReadP.val_main_v6
    Cert.ReferenceIdeal.ReadP.val_main_call2_v2 Cert.ReferenceIdeal.ReadP.val_main_call2_v1 Cert.ReferenceIdeal.ReadP.val_main_call2_v0
    Cert.ReferenceIdeal.ReadP.val_main_call2_cst
  exact norm_chain_apply a2 Cert.ReferenceIdeal.Gen.reducesTo_S256x256_S256_d1 Cert.ReferenceIdeal.Gen.h_S_
    Cert.ReferenceIdeal.Gen.bcast_S256_S256x1_0 Cert.ReferenceIdeal.Gen.bcast_S256x1_S256x256_0_1 b f

/-- Given the same augmented feature matrix, the two programs hold the same normalised matrix. -/
theorem ker_augn_eq_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Fr.V m c Cert.KernelIdeal.main_v8 : FVec Ideal ⟨2, ![256, 256]⟩ .f32) = Cert.ReferenceIdeal.ReadP.val_main_v8 (F := Ideal) (m' ((c.tc : Thread Cert.ReferenceIdeal.nD Cert.ReferenceIdeal.τ).loc Cert.ReferenceIdeal.main_arg2)) := by
  refine funext fun (y : (⟨2, ![256, 256]⟩ : Shape).Idx) => ?_
  obtain ⟨p, q, rfl⟩ : ∃ (p : Fin 256) (q : Fin 256), y = ix2 p q := ⟨y 0, y 1, eq_ix2 y⟩
  exact (ker_augn_apply m c p q).trans ((ref_augn_apply _ p q).trans (by rw [h2])).symm

end Cert.Bridge

end
-- ==== Proof.PreFacts.lean ====
/-
  The precondition, decoded. The printed predicate is the conjunction of five tests: for each of the four float arguments
  x, "every |x i| < +∞", and for the third argument (the augmented features, a 256 × 256 matrix) "every row's sum of
  squares is > 0". Read at the extended reals, |x| < +∞ says x is neither ⊤ nor ⊥, that is, x is a real; and the host's
  sum over the second axis, from the initial value zero, read at row b, is 0 + Σ_f x(b,f)·x(b,f). So from "the predicate is
  1" follow: every entry of the augmented features and of the memory bank is a real, and every row of the augmented
  features has a positive sum of squares. Last, the arithmetic consequence used downstream: a real row divided entrywise
  by the square root of its positive sum of squares is again a row of reals (the square root of a positive real is a
  positive real, so the division is a product with a real inverse).
-/
import proofs.«406952_j62079457296450_3_alg».proof.Pre_finite_inputs
import proofs.«406952_j62079457296450_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

namespace Cert.Bridge

open Idealize.ShloMosaic Idealize.ShloMosaic.ValueIdx Cert.Pre_finite_inputs

/-- A rank-zero shape has one index. -/
instance : Subsingleton S_.Idx := ⟨fun a b => funext fun d => d.elim0⟩

/-- The f32 pattern `0x7F800000` is the extended real `⊤`. -/
theorem ofBits_inf_f32 : Ideal.ofBits .f32 0x7F800000#32 = (⊤ : EReal) := by simp [Ideal.ofBits, Ideal.ieee]

/-- An extended real whose absolute value is below `+∞` is a real. -/
theorem real_of_abs_lt_top (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- A comparison "greater than" that came out 1 says the order. -/
theorem lt_of_cmp_ogt {x y : EReal} (h : Ideal.cmp .ogt x y = 1#1) : y < x := by
  have h' : BitVec.ofBool (decide (y < x)) = 1#1 := h
  by_contra hn
  rw [decide_eq_false hn] at h'
  exact absurd h' (by decide)

/-- The coercion of a finite sum of reals is the sum of the coercions. -/
theorem coe_finset_sum {ι : Type} (s : Finset ι) (y : ι → ℝ) : ((∑ g ∈ s, y g : ℝ) : EReal) = ∑ g ∈ s, (y g : EReal) := by
  classical
  induction s using Finset.induction_on with
  | empty => simp
  | insert a s ha ih => rw [Finset.sum_insert ha, Finset.sum_insert ha, EReal.coe_add, ih]

section
variable [Cert.Pre_finite_inputs.Facts]

/-- The printed predicate, read back: every entry of the third and of the fourth argument is a real, and every row of the
    third argument has its sum of squares (the host's sum over the second axis, from zero) above zero. -/
theorem pre_split (a0 a1 a2 : FVec Ideal S256x256 .f32) (a3 : FVec Ideal S65536x256 .f32) (a4 : IVec S256 32) (a5 : IVec S65536 32)
    (h : Cert.Pre_finite_inputs.fn (F := Ideal) a0 a1 a2 a3 a4 a5 = fun _ => 1#1) :
    (∀ i : S256x256.Idx, ∃ r : ℝ, a2 i = (r : EReal)) ∧ (∀ i : S65536x256.Idx, ∃ r : ℝ, a3 i = (r : EReal))
      ∧ ∀ j : S256.Idx, (0 : EReal) < Ideal.hostReduceAdd Facts.reducesTo_S256x256_S256_d1 (fun i => a2 i * a2 i) 0 j := by
  have h0 := congrFun h ValueIdx.ix0
  dsimp only [fn, fn_part1] at h0
  obtain ⟨h18, h23⟩ := IntOp.andi_eq_one.1 h0
  obtain ⟨h13, h17⟩ := IntOp.andi_eq_one.1 h18
  obtain ⟨h8, h12⟩ := IntOp.andi_eq_one.1 h13
  refine ⟨fun i => ?_, fun i => ?_, fun j => ?_⟩
  · exact real_of_abs_lt_top (a2 i) (Host.reduce_andi_all _ _ _ _ _ h12 i)
  · exact real_of_abs_lt_top (a3 i) (Host.reduce_andi_all _ _ _ _ _ h17 i)
  · have e := lt_of_cmp_ogt (Host.reduce_andi_all _ _ _ _ _ h23 j)
    have e' : Ideal.ofBits .f32 0x00000000#32
        < Ideal.hostReduceAdd Facts.reducesTo_S256x256_S256_d1 (fun i => a2 i * a2 i) (Ideal.ofBits .f32 0x00000000#32) j := e
    rw [Ideal.ofBits_zero_f32] at e'
    exact e'

/-- Every entry of the augmented features is a real. -/
theorem pre_aug_real (a0 a1 a2 : FVec Ideal S256x256 .f32) (a3 : FVec Ideal S65536x256 .f32) (a4 : IVec S256 32) (a5 : IVec S65536 32)
    (h : Cert.Pre_finite_inputs.fn (F := Ideal) a0 a1 a2 a3 a4 a5 = fun _ => 1#1) :
    ∀ (b f : Fin 256), ∃ r : ℝ, a2 (ix2 b f) = (r : EReal) :=
  fun b f => (pre_split a0 a1 a2 a3 a4 a5 h).1 (ix2 b f)

/-- Every entry of the memory bank is a real. -/
theorem pre_bank_real (a0 a1 a2 : FVec Ideal S256x256 .f32) (a3 : FVec Ideal S65536x256 .f32) (a4 : IVec S256 32) (a5 : IVec S65536 32)
    (h : Cert.Pre_finite_inputs.fn (F := Ideal) a0 a1 a2 a3 a4 a5 = fun _ => 1#1) :
    ∀ (mm : Fin 65536) (f : Fin 256), ∃ r : ℝ, a3 (ix2 mm f) = (r : EReal) :=
  fun mm f => (pre_split a0 a1 a2 a3 a4 a5 h).2.1 (ix2 mm f)

/-- Every row of the augmented features has a positive sum of squares. -/
theorem pre_aug_row_pos (a0 a1 a2 : FVec Ideal S256x256 .f32) (a3 : FVec Ideal S65536x256 .f32) (a4 : IVec S256 32) (a5 : IVec S65536 32)
    (h : Cert.Pre_finite_inputs.fn (F := Ideal) a0 a1 a2 a3 a4 a5 = fun _ => 1#1) :
    ∀ b : Fin 256, (0 : EReal) < ∑ f : Fin 256, a2 (ix2 b f) * a2 (ix2 b f) := by
  intro b
  have e := (pre_split a0 a1 a2 a3 a4 a5 h).2.2 (ix1 b)
  have hR : S256x256.Reduces [1] S256 := by decide
  rw [Ideal.hostReduceAdd_single _ hR, zero_add] at e
  refine lt_of_lt_of_eq e ?_
  refine Finset.sum_congr rfl fun f _ => ?_
  have hl : hR.lift (ix1 b) f = ix2 b f := by
    funext c
    match c with
    | ⟨0, _⟩ => exact Fin.ext rfl
    | ⟨1, _⟩ => exact Fin.ext rfl
  show a2 (hR.lift (ix1 b) f) * a2 (hR.lift (ix1 b) f) = _
  rw [hl]
  rfl
end

/-- A real row divided by the square root of its positive sum of squares is real. -/
theorem aug_normalised_real' (x : Fin 256 → EReal) (hx : ∀ f, ∃ r : ℝ, x f = (r : EReal)) (hpos : (0 : EReal) < ∑ f, x f * x f)
    (f : Fin 256) : ∃ r : ℝ, Ideal.div (x f) (Ideal.sqrt (∑ g : Fin 256, x g * x g)) = (r : EReal) := by
  choose y hy using hx
  have hs : ∑ g : Fin 256, x g * x g = ((∑ g : Fin 256, y g * y g : ℝ) : EReal) := by
    rw [coe_finset_sum]
    exact Finset.sum_congr rfl fun g _ => by rw [hy g, EReal.coe_mul]
  rw [hs] at hpos
  have hS : 0 < ∑ g : Fin 256, y g * y g := EReal.coe_pos.1 hpos
  have hq : 0 < Real.sqrt (∑ g : Fin 256, y g * y g) := Real.sqrt_pos.2 hS
  refine ⟨y f * (Real.sqrt (∑ g : Fin 256, y g * y g))⁻¹, ?_⟩
  rw [hs, Ideal.sqrt_coe, if_neg (not_lt.2 hS.le)]
  unfold Ideal.div
  rw [if_neg (EReal.coe_ne_zero.2 hq.ne'), hy f, ← EReal.coe_inv, ← EReal.coe_mul]

/-- The same with the radicand as the host's sum prints it, from the initial value zero. -/
theorem aug_normalised_real (x : Fin 256 → EReal) (hx : ∀ f, ∃ r : ℝ, x f = (r : EReal)) (hpos : (0 : EReal) < ∑ f, x f * x f)
    (f : Fin 256) : ∃ r : ℝ, Ideal.div (x f) (Ideal.sqrt (0 + ∑ g : Fin 256, x g * x g)) = (r : EReal) := by
  rw [zero_add]
  exact aug_normalised_real' x hx hpos f

end Cert.Bridge
-- ==== Proof.LibPointGather.lean ====
/-
  A gather of single entries of a matrix at pairs of indices, read at a result index.

  The operand is an R x C matrix, the start indices an N x 2 array of (row, column) pairs, the result a vector of
  N entries: entry n is the operand at pair n, each component read as a signed integer and clamped into range.
  Here: the gather at a result index is the operand at a position that does not depend on the operand, so an
  entrywise operation commutes with the gather; the row coordinate of that position for result n is the first
  component of pair n, clamped into [0, R - 1]; and an index that is a small non-negative number already is left
  unchanged by the wrap-around normalisation select (i < 0) (i + extent) i and reads back, signed, as itself.
-/
import Idealize.ShloMosaic.PureOps.ShapeOps
import Idealize.ShloMosaic.PureOps.Dims
import Idealize.ShloMosaic.Lib.ValueIdx

noncomputable section

namespace Cert.Lib.PointGather

open Idealize.ShloMosaic Idealize.ShloMosaic.ValueIdx

/-- The dimension numbers of that gather: no offset axes, both operand axes collapsed, the start index map the
    two operand axes in order, the index vector along axis 1, slices of one entry. -/
abbrev pointDims (R C N : Nat) (wf : GatherDims.WF ⟨2, ![R, C]⟩ ⟨2, ![N, 2]⟩ ⟨1, ![N]⟩ [] [0, 1] [] [0, 1] [] 1 ![1, 1]) :
    GatherDims ⟨2, ![R, C]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

/-- The row coordinate of the entry read for result n: the first component of pair n, read signed and clamped. -/
theorem operandIdx_row {R C N w : Nat} (wf : GatherDims.WF ⟨2, ![R, C]⟩ ⟨2, ![N, 2]⟩ ⟨1, ![N]⟩ [] [0, 1] [] [0, 1] [] 1 ![1, 1])
    (idx : IVec ⟨2, ![N, 2]⟩ w) (b : Fin N) :
    ((pointDims R C N wf).operandIdx (ix1 b) idx 0).val = min (idx (ix2 b (0 : Fin 2))).toInt.toNat (R - 1) := by
  show (pointDims R C N wf).start (ix1 b) idx 0 + (pointDims R C N wf).batchCoord (ix1 b) 0
    + (pointDims R C N wf).offCoord (ix1 b) 0 = _
  rw [GatherDims.batchCoord_eq_zero _ _ _ List.not_mem_nil,
    GatherDims.offCoord_eq_zero _ _ _ (fun h => ((GatherDims.mem_sKept _ _).mp h).1 (List.mem_cons_self))]
  simp only [Nat.add_zero]
  unfold GatherDims.start
  rw [dif_pos (show (0 : Fin 2) ∈ (pointDims R C N wf).startIndexMap from List.mem_cons_self)]
  have hsi : (pointDims R C N wf).siIdx (ix1 b) ⟨List.idxOf (0 : Fin 2) (pointDims R C N wf).startIndexMap,
      List.idxOf_lt_length_iff.2 List.mem_cons_self⟩ = ix2 b (0 : Fin 2) := by
    funext a; refine Fin.ext ?_
    match a with
    | ⟨0, _⟩ => rfl
    | ⟨1, _⟩ => rfl
  rw [hsi]
  rfl

/-- A natural number below 2^31, as a 32-bit word, reads back signed as itself. -/
theorem toInt_ofNat_small (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

/-- The wrap-around normalisation of an index leaves a small non-negative one unchanged. -/
theorem wrap_small (n : Nat) (hn : n < 2 ^ 31) (e : BitVec 32) :
    Scalar.select (IntOp.cmpi .slt (BitVec.ofNat 32 n) 0#32) (IntOp.addi (BitVec.ofNat 32 n) e) (BitVec.ofNat 32 n)
      = BitVec.ofNat 32 n := by
  have h : (BitVec.ofNat 32 n).slt 0#32 = false := by
    rw [Bool.eq_false_iff]
    intro hs
    rw [BitVec.slt_iff_toInt_lt, toInt_ofNat_small n hn] at hs
    simp at hs
    omega
  show (if BitVec.ofBool ((BitVec.ofNat 32 n).slt 0#32) = 1 then _ else _) = _
  rw [h]
  rfl

end Cert.Lib.PointGather

end
-- ==== Proof.TailSpcl.lean ====
/-
  The first result (spcl_loss) of the kernel program equals the reference's, given that the pallas_call's two
  result arrays agree entry by entry with the reference's two scatter-adds.

  After the call both programs compute, per query row b and class k, the masked exponential
  E[b, k] = exp (sim[b, k] / (n[k] if n[k] > 0 else 1)) * (1 if n[k] > 0 else 0), with n the class counts; then the
  row sums S[b] = sum over k of E[b, k], plus a small constant; then they gather one entry per row, at the pair
  (b, target of b), the kernel from E, dividing the gathered entry by S[b], the reference from the array E / S already
  divided. The two agree because the gather reads, for result b, an entry of row b: the first component of pair b is
  iota's b, which the wrap-around normalisation and the clamp into [0, 255] leave unchanged. The closing operations
  (add the small constant, log, sum, divide by 256, negate) are the same function on both sides.

  The kernel side is opened once, over any contents W of the unscoped buffers: the later operations' first result
  is an explicit composed term of W at the call's two results and at the target labels. The reference side is read
  through its generated read-at-an-index lemmas.
-/
import proofs.«406952_j62079457296450_3_alg».proof.Proof.KI.Base
import proofs.«406952_j62079457296450_3_alg».proof.Proof.RefRead
import Idealize.ShloMosaic.Lib.StableHlo.Run
import Idealize.ShloMosaic.Lib.ValueIdx
import Idealize.ShloMosaic.Lib.ValueLayout
import Idealize.ShloMosaic.Lib.Pipeline.FrameSuffix
import Idealize.ShloMosaic.Lib.Pipeline.Value
import proofs.«406952_j62079457296450_3_alg».proof.Proof.LibPointGather

set_option maxRecDepth 16384

noncomputable section

namespace Cert.Bridge

open Idealize.ShloMosaic Idealize.ShloMosaic.TcCoe Idealize.ShloMosaic.ValueIdx Idealize.SL.Sem

/-! ## The kernel program's host operations after the call, as functions of the three arrays they read -/

section K
open Cert.KernelIdeal Cert.KernelIdeal.Gen

/-- The counts as a vector: the call's [1, 8192] result with its unit axis dropped. -/
def kNum (nums : FVec Ideal S1x8192 .f32) : FVec Ideal S8192 .f32 :=
  fun i => shapeCast S8192 nums shapeCasts_S1x8192_S8192 i

/-- The class mask: 1 where the count is positive, else 0. -/
def kMask (nums : FVec Ideal S1x8192 .f32) : FVec Ideal S8192 .f32 :=
  uitofp (F := Ideal) .f32 (cmpf (F := Ideal) .ogt (kNum nums) (broadcastInDim S8192 ![] bcast_S_S8192 (constant (F := Ideal) S_ .f32 0x00000000#32)))

/-- The divisor: the count where it is positive, else 1. -/
def kDen (nums : FVec Ideal S1x8192 .f32) : FVec Ideal S8192 .f32 :=
  select (cmpf (F := Ideal) .ogt (kNum nums) (broadcastInDim S8192 ![] bcast_S_S8192 (constant (F := Ideal) S_ .f32 0x00000000#32)))
    (kNum nums) (broadcastInDim S8192 ![] bcast_S_S8192 (constant (F := Ideal) S_ .f32 0x3F800000#32))

/-- The masked exponentials: exp (sim[b, k] / divisor[k]) * mask[k]. -/
def kExp (sim : FVec Ideal S256x8192 .f32) (nums : FVec Ideal S1x8192 .f32) :
    FVec Ideal S256x8192 .f32 :=
  mulf (Host.exp (Host.divf sim
      (broadcastInDim S256x8192 ![0, 1] bcast_S1x8192_S256x8192_0_1 (broadcastInDim S1x8192 ![1] bcast_S8192_S1x8192_1 (kDen nums)))))
    (broadcastInDim S256x8192 ![0, 1] bcast_S1x8192_S256x8192_0_1 (broadcastInDim S1x8192 ![1] bcast_S8192_S1x8192_1 (kMask nums)))

/-- The row sums of the masked exponentials, plus the small constant. -/
def kRow (E : FVec Ideal S256x8192 .f32) : FVec Ideal S256 .f32 :=
  addf (Host.reduceAdd E (constant (F := Ideal) S_ .f32 0x00000000#32) reducesTo_S256x8192_S256_d1 h_S_)
    (broadcastInDim S256 ![] bcast_S_S256 (constant (F := Ideal) S_ .f32 0x358637BD#32))

/-- The index pairs of the gather: (b, target of b), each component normalised by the wrap-around select. -/
def kIdx (tgt : IVec S256 32) : IVec S256x2 32 :=
  concatenate S256x2 1
    [⟨S256x1, broadcastInDim S256x1 ![0] bcast_S256_S256x1_0
        (select (cmpi .slt (iotaInDim S256 32 0) (broadcastInDim S256 ![] bcast_S_S256 (constantI S_ 32 0#32)))
          (addi (iotaInDim S256 32 0) (broadcastInDim S256 ![] bcast_S_S256 (constantI S_ 32 256#32))) (iotaInDim S256 32 0))⟩,
     ⟨S256x1, broadcastInDim S256x1 ![0] bcast_S256_S256x1_0
        (select (cmpi .slt tgt (broadcastInDim S256 ![] bcast_S_S256 (constantI S_ 32 0#32)))
          (addi tgt (broadcastInDim S256 ![] bcast_S_S256 (constantI S_ 32 8192#32))) tgt)⟩]
    concatenates_S256x1_S256x1_S256x2_d1

/-- The closing operations, shared by the two programs: minus the mean over the 256 rows of log (v + small constant). -/
def kLoss (v : FVec Ideal S256 .f32) : FVec Ideal S_ .f32 :=
  Host.negf (Host.divf (Host.reduceAdd (Host.log (addf v (broadcastInDim S256 ![] bcast_S_S256 (constant (F := Ideal) S_ .f32 0x358637BD#32))))
    (constant (F := Ideal) S_ .f32 0x00000000#32) reducesTo_S256_S_d0 h_S_) (constant (F := Ideal) S_ .f32 0x43800000#32))

set_option maxHeartbeats 200000000 in
/-- The first result after the call's later operations, from any contents of the unscoped buffers: the closing
    operations applied to the gathered entries of the masked exponentials, each divided by its row's sum. -/
theorem tail_after (W : Valuation τ sig (Elt Ideal)) :
    StableHlo.after (List.flatten (Fr.tailOps (F := Ideal))) W (Proc.devRef .tc main_v69)
      = kLoss (Host.divf
          (Host.gather gather_S256x8192_S256x2_S256_n_01_n_n_01_1_11
            (kExp (W (Proc.devRef .tc main_v30_0)) (W (Proc.devRef .tc main_v30_1))) (kIdx (W (Proc.devRef .tc main_v27))))
          (kRow (kExp (W (Proc.devRef .tc main_v30_0)) (W (Proc.devRef .tc main_v30_1))))) := by
  simp only [List.flatten_cons, List.flatten_nil, List.append_nil, List.cons_append, List.nil_append]
  after_results_simp
  rfl

end K

/-! ## The masked exponentials agree entry by entry -/

section Cell

/-- A vector broadcast along the rows of a matrix through a one-row matrix, read at an entry: the vector's entry
    at the column. -/
theorem bcast_row {α : Type} {R C : Nat} (hC : C ≠ 1) (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (b : Fin R) (k : Fin C) :
    broadcastInDim ⟨2, ![R, C]⟩ ![0, 1] h2 (broadcastInDim ⟨2, ![1, C]⟩ ![1] h1 v) (ix2 b k) = v (ix1 k) := by
  rw [broadcastInDim_apply ![0, 1] h2 _ (ix2 b k) (ix2 (0 : Fin 1) k) (fun a => match a with
    | ⟨0, _⟩ => by show (0 : Nat) = if (1 : Nat) = 1 then 0 else b.val; rw [if_pos rfl]
    | ⟨1, _⟩ => by show k.val = if C = 1 then 0 else k.val; rw [if_neg hC])]
  exact broadcastInDim_apply ![1] h1 v (ix2 (0 : Fin 1) k) (ix1 k) (fun a => match a with
    | ⟨0, _⟩ => by show k.val = if C = 1 then 0 else k.val; rw [if_neg hC])

/-- A scalar broadcast to a vector, read at an entry. -/
theorem bcast_scalar {α : Type} {n : Nat} (v : (⟨0, ![]⟩ : Shape).Idx → α)
    (h : (⟨0, ![]⟩ : Shape).BroadcastsInDim ⟨1, ![n]⟩ ![]) (i : (⟨1, ![n]⟩ : Shape).Idx) :
    broadcastInDim ⟨1, ![n]⟩ ![] h v i = v ix0 :=
  broadcastInDim_apply ![] h v i ix0 (fun a => a.elim0)

/-- One entry of the masked exponentials from the similarity s and the count n of its class:
    exp (s / (n if n > 0 else 1)) * (1 if n > 0 else 0). -/
def cell (s n : Ideal .f32) : Ideal .f32 :=
  FloatOps.mulf
    (FloatOps.hostUnary .exp (FloatOps.hostDivf s
      (Scalar.select (FloatOps.cmpf (F := Ideal) .ogt n (FloatOps.ofBits .f32 0x00000000#32)) n (FloatOps.ofBits .f32 0x3F800000#32))))
    (FloatOps.uitofp (F := Ideal) .f32 (FloatOps.cmpf (F := Ideal) .ogt n (FloatOps.ofBits .f32 0x00000000#32)))

end Cell

section KCell
open Cert.KernelIdeal Cert.KernelIdeal.Gen

theorem kNum_apply (nums : FVec Ideal S1x8192 .f32) (k : Fin 8192) : kNum nums (ix1 k) = nums (ix2 (0 : Fin 1) k) :=
  shapeCast_1a_a_apply nums shapeCasts_S1x8192_S8192 k

/-- The kernel's masked exponential at (b, k). -/
theorem kExp_apply (sim : FVec Ideal S256x8192 .f32) (nums : FVec Ideal S1x8192 .f32) (b : Fin 256) (k : Fin 8192) :
    kExp sim nums (ix2 b k) = cell (sim (ix2 b k)) (nums (ix2 (0 : Fin 1) k)) := by
  have hD : kDen nums (ix1 k) = Scalar.select (FloatOps.cmpf (F := Ideal) .ogt (nums (ix2 (0 : Fin 1) k)) (FloatOps.ofBits .f32 0x00000000#32))
      (nums (ix2 (0 : Fin 1) k)) (FloatOps.ofBits .f32 0x3F800000#32) := by
    unfold kDen
    show Scalar.select (FloatOps.cmpf (F := Ideal) .ogt (kNum nums (ix1 k)) (broadcastInDim S8192 ![] bcast_S_S8192 (constant (F := Ideal) S_ .f32 0x00000000#32) (ix1 k)))
      (kNum nums (ix1 k)) (broadcastInDim S8192 ![] bcast_S_S8192 (constant (F := Ideal) S_ .f32 0x3F800000#32) (ix1 k)) = _
    rw [bcast_scalar, bcast_scalar, kNum_apply]; rfl
  have hM : kMask nums (ix1 k) = FloatOps.uitofp (F := Ideal) .f32 (FloatOps.cmpf (F := Ideal) .ogt (nums (ix2 (0 : Fin 1) k)) (FloatOps.ofBits .f32 0x00000000#32)) := by
    unfold kMask
    show FloatOps.uitofp (F := Ideal) .f32 (FloatOps.cmpf (F := Ideal) .ogt (kNum nums (ix1 k)) (broadcastInDim S8192 ![] bcast_S_S8192 (constant (F := Ideal) S_ .f32 0x00000000#32) (ix1 k))) = _
    rw [bcast_scalar, kNum_apply]; rfl
  unfold kExp cell
  show FloatOps.mulf (FloatOps.hostUnary .exp (FloatOps.hostDivf (sim (ix2 b k))
      (broadcastInDim S256x8192 ![0, 1] bcast_S1x8192_S256x8192_0_1 (broadcastInDim S1x8192 ![1] bcast_S8192_S1x8192_1 (kDen nums)) (ix2 b k))))
    (broadcastInDim S256x8192 ![0, 1] bcast_S1x8192_S256x8192_0_1 (broadcastInDim S1x8192 ![1] bcast_S8192_S1x8192_1 (kMask nums)) (ix2 b k)) = _
  rw [bcast_row (by decide), bcast_row (by decide), hD, hM]

end KCell

section RCell
open Cert.ReferenceIdeal Cert.ReferenceIdeal.Gen Cert.ReferenceIdeal.ReadP

/-- The reference's masked exponential at (b, k). -/
theorem rExp_apply (x2 : FVec Ideal S256x256 .f32) (x3 : FVec Ideal S65536x256 .f32) (x5 : IVec S65536 32) (b : Fin 256) (k : Fin 8192) :
    val_main_v53 (F := Ideal) x2 x3 x5 (ix2 b k) = cell (val_main_v35 (F := Ideal) x2 x3 x5 (ix2 k b)) (val_main_v39 (F := Ideal) x5 (ix1 k)) := by
  have e1 : idx_main_v49 (ix2 b k) = ix2 k b := by
    funext a; match a with | ⟨0, _⟩ => rfl | ⟨1, _⟩ => rfl
  have e2 : idx_main_v40 (idx_main_v47 (ix2 k b)) = ix1 k := by
    funext a; match a with | ⟨0, _⟩ => rfl
  rw [val_main_v53_apply, val_main_v50_apply, val_main_v49_apply, val_main_v48_apply, val_main_v47_apply, val_main_v46_apply,
    val_main_v45_apply, val_main_v40_apply, val_main_v44_apply, val_main_cst_8_apply, val_main_call3_v1_apply, val_main_call3_v0_apply,
    val_main_cst_9_apply, val_main_v52_apply, val_main_v51_apply, val_main_v43_apply, val_main_v42_apply, val_main_v40_apply,
    val_main_v41_apply, val_main_cst_7_apply, e1, e2]
  rfl

end RCell

/-! ## The gather's row coordinate, and the gathered entry divided by its row's sum -/

section RGather
open Cert.ReferenceIdeal Cert.ReferenceIdeal.Gen Cert.ReferenceIdeal.ReadP

/-- The first component of index pair b is b itself: iota, unchanged by the wrap-around normalisation. -/
theorem idx_col0 (x4 : IVec S256 32) (x5 : IVec S65536 32) (b : Fin 256) :
    val_main_v73 (F := Ideal) x4 x5 (ix2 b (0 : Fin 2)) = BitVec.ofNat 32 b.val := by
  unfold val_main_v73
  rw [concatenate_pair_apply_left 1 (val_main_v71 (F := Ideal)) (val_main_v72 (F := Ideal) x4 x5)
    concatenates_S256x1_S256x1_S256x2_d1 (ix2 b (0 : Fin 2)) rfl (ix2 b (0 : Fin 1))
    (fun a => match a with | ⟨0, _⟩ => rfl | ⟨1, _⟩ => rfl)]
  rw [val_main_v71_apply, val_main_v65_apply, val_main_v62_apply, val_main_v64_apply, val_main_v60_apply, val_main_v61_apply,
    val_main_c_12_apply, val_main_v63_apply, val_main_c_13_apply]
  exact Cert.Lib.PointGather.wrap_small b.val (by have := b.isLt; omega) 256#32

/-- The entry the gather reads for result b lies in row b. -/
theorem row_eq (x4 : IVec S256 32) (x5 : IVec S65536 32) (b : Fin 256) :
    (gather_S256x8192_S256x2_S256_n_01_n_n_01_1_11.operandIdx (ix1 b) (val_main_v73 (F := Ideal) x4 x5) 0).val = b.val := by
  have h := Cert.Lib.PointGather.operandIdx_row (R := 256) (C := 8192) (N := 256)
    Facts₀.gather_S256x8192_S256x2_S256_n_01_n_n_01_1_11_wf (val_main_v73 (F := Ideal) x4 x5) b
  rw [idx_col0, Cert.Lib.PointGather.toInt_ofNat_small b.val (by have := b.isLt; omega), Int.toNat_natCast] at h
  refine Eq.trans h ?_
  have := b.isLt
  omega

end RGather

section RDiv
open Cert.ReferenceIdeal Cert.ReferenceIdeal.Gen Cert.ReferenceIdeal.ReadP

/-- The reference gathers from the array already divided by the row sums; since the entry read for result b lies in
    row b, that is the gathered entry of the masked exponentials divided by the sum of row b. -/
theorem gathered_eq (x2 : FVec Ideal S256x256 .f32) (x3 : FVec Ideal S65536x256 .f32) (x4 : IVec S256 32) (x5 : IVec S65536 32)
    (b : Fin 256) :
    val_main_v74 (F := Ideal) x2 x3 x4 x5 (ix1 b)
      = FloatOps.hostDivf
          (Host.gather gather_S256x8192_S256x2_S256_n_01_n_n_01_1_11 (val_main_v53 (F := Ideal) x2 x3 x5) (val_main_v73 (F := Ideal) x4 x5) (ix1 b))
          (kRow (val_main_v53 (F := Ideal) x2 x3 x5) (ix1 b)) := by
  have e : idx_main_v55 (idx_main_v58 (gather_S256x8192_S256x2_S256_n_01_n_n_01_1_11.operandIdx (ix1 b) (val_main_v73 (F := Ideal) x4 x5))) = ix1 b := by
    funext a; match a with | ⟨0, _⟩ => exact Fin.ext (row_eq x4 x5 b)
  show val_main_v59 (F := Ideal) x2 x3 x5 (gather_S256x8192_S256x2_S256_n_01_n_n_01_1_11.operandIdx (ix1 b) (val_main_v73 (F := Ideal) x4 x5)) = _
  rw [val_main_v59_apply, val_main_v58_apply, val_main_v57_apply, val_main_v55_apply, val_main_v56_apply, val_main_cst_11_apply, e]
  unfold kRow
  show _ = FloatOps.hostDivf _ (FloatOps.addf (Host.reduceAdd _ _ _ _ (ix1 b)) (broadcastInDim _ _ _ _ (ix1 b)))
  rw [bcast_scalar]
  rfl

end RDiv

/-! ## The target labels, computed before the call -/

section KPre
open Cert.KernelIdeal Cert.KernelIdeal.Gen

set_option maxHeartbeats 200000000 in
/-- The target labels after the operations before the call, from any contents of the unscoped buffers: the bank's
    labels gathered at the normalised query indices. -/
theorem pre_after (V : Valuation τ sig (Elt Ideal)) :
    StableHlo.after (List.flatten (Fr.preOps (F := Ideal))) V (Proc.devRef .tc main_v27)
      = Host.gather gather_S65536_S256x1_S256_n_0_n_n_0_1_1 (V (Proc.devRef .tc main_arg5))
          (broadcastInDim S256x1 ![0] bcast_S256_S256x1_0
            (select (cmpi .slt (V (Proc.devRef .tc main_arg4)) (broadcastInDim S256 ![] bcast_S_S256 (constantI S_ 32 0#32)))
              (addi (V (Proc.devRef .tc main_arg4)) (broadcastInDim S256 ![] bcast_S_S256 (constantI S_ 32 65536#32)))
              (V (Proc.devRef .tc main_arg4)))) := by
  simp only [List.flatten_cons, List.flatten_nil, List.append_nil, List.cons_append, List.nil_append]
  after_results_simp

end KPre

/-! ## The first result -/

set_option maxHeartbeats 8000000 in
open Cert.KernelIdeal Cert.KernelIdeal.Gen in
/-- The first result (spcl_loss) of the two programs is equal, given that the call's two result arrays agree entry
    by entry with the reference's two scatter-adds: the masked exponentials then agree entry by entry, the index
    pairs are the same, the kernel divides the gathered entry by its row's sum where the reference gathers from the
    divided array, and the closing operations are shared. -/
theorem res0_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (dats : (p : Fin 1) → (c : Dev Cert.KernelIdeal.nD) → Pipeline.Dat Cert.KernelIdeal.τ (Elt Ideal) Unit ℕ (UR Cert.KernelIdeal.sig Cert.KernelIdeal.nD Cert.KernelIdeal.τ) ℕ (Cert.KernelIdeal.cfgs p) c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hsim : ∀ (b : Fin 256) (k : Fin 8192), (dats 0 c).arrAt 3 Cert.KernelIdeal.cfg0.N (ix2 b k)
        = Cert.ReferenceIdeal.ReadP.val_main_v35 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (ix2 k b))
    (hcnt : ∀ k : Fin 8192, (dats 0 c).arrAt 4 Cert.KernelIdeal.cfg0.N (ix2 0 k)
        = Cert.ReferenceIdeal.ReadP.val_main_v39 (F := Ideal) (m' ((c.tc : Thread Cert.ReferenceIdeal.nD Cert.ReferenceIdeal.τ).loc Cert.ReferenceIdeal.main_arg5)) (ix1 k)) :
    Pipeline.afterTail₀ Cert.KernelIdeal.cfgs dats 0 (Cert.KernelIdeal.Fr.V0 m) Cert.KernelIdeal.Fr.tailOps c Cert.KernelIdeal.main_v69
      = Cert.ReferenceIdeal.ValueP.res_out0 m' c := by
  -- the reference's result: the closing operations applied to its gathered vector
  have hR : Cert.ReferenceIdeal.ValueP.res_out0 m' c
      = kLoss (Cert.ReferenceIdeal.ReadP.val_main_v74 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) :=
    (Cert.ReferenceIdeal.ReadP.val_main_v80_eq m' c).trans rfl
  unfold Pipeline.afterTail₀
  generalize hW : Pipeline.withArrays _ c _ _ = W
  -- what the later operations read: the call's two results, and the target labels computed before the call
  have hW0 : W (Proc.devRef .tc main_v30_0) = (dats 0 c).arrAt 3 cfg0.N := by
    rw [← hW]; exact Pipeline.withArrays_arr spec0 launch0.win.arr_inj c _ _ 3
  have hW1 : W (Proc.devRef .tc main_v30_1) = (dats 0 c).arrAt 4 cfg0.N := by
    rw [← hW]; exact Pipeline.withArrays_arr spec0 launch0.win.arr_inj c _ _ 4
  have hW27 : W (Proc.devRef .tc main_v27) = Cert.ReferenceIdeal.ReadP.val_main_v31 (F := Ideal) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
    rw [← hW, Pipeline.withArrays_of_ne _ c _ _ main_v27 (by decide)]
    show StableHlo.after (List.flatten (Fr.preOps (F := Ideal))) (fun b => m (c, b)) (Proc.devRef .tc main_v27) = _
    rw [pre_after, h4, h5]
    rfl
  refine (tail_after W).trans ?_
  rw [hW0, hW1, hW27, hR]
  refine congrArg kLoss ?_
  -- the masked exponentials agree entry by entry
  have hE : kExp ((dats 0 c).arrAt 3 cfg0.N) ((dats 0 c).arrAt 4 cfg0.N)
      = Cert.ReferenceIdeal.ReadP.val_main_v53 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) := by
    funext i
    obtain ⟨b, k, rfl⟩ : ∃ (b : Fin 256) (k : Fin 8192), i = ix2 b k := ⟨i 0, i 1, eq_ix2 i⟩
    rw [kExp_apply, rExp_apply, hsim, hcnt]
  -- the index pairs are the same array
  have hI : kIdx (Cert.ReferenceIdeal.ReadP.val_main_v31 (F := Ideal) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
      = Cert.ReferenceIdeal.ReadP.val_main_v73 (F := Ideal) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := rfl
  rw [hE, hI]
  funext j
  obtain ⟨b, rfl⟩ : ∃ b : Fin 256, j = ix1 b := ⟨j 0, eq_ix1 j⟩
  exact (gathered_eq _ _ _ _ b).symm

end Cert.Bridge

end
-- ==== Proof.Bridge.lean ====
/-
  The first result (the label-aggregated softmax loss) is equal on the two sides.

  Under the precondition the bank is a real matrix and every row of feat_aug is real with a positive sum of squares,
  so the normalised rows are real; the kernel's normalised matrix is the reference's.  Then the pallas_call's
  [256,8192] result agrees entry by entry with the reference's label-wise scatter-add (both are the sum over the bank
  rows of a class of the inner products, times 1/temperature) and its [1,8192] result with the class counts, and the
  host operations after them compute the same loss.
-/
import proofs.«406952_j62079457296450_3_alg».proof.Proof.KI.Results
import proofs.«406952_j62079457296450_3_alg».proof.Proof.KI.Arrays
import proofs.«406952_j62079457296450_3_alg».proof.Proof.RefSim
import proofs.«406952_j62079457296450_3_alg».proof.Proof.AugN
import proofs.«406952_j62079457296450_3_alg».proof.Proof.PreFacts
import proofs.«406952_j62079457296450_3_alg».proof.Proof.TailSpcl

noncomputable section

namespace Cert.Bridge

open Idealize.ShloMosaic Idealize.ShloMosaic.TcCoe Idealize.ShloMosaic.ValueIdx Idealize.SL.Sem

theorem res0_final [hPre : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Fr.res0 m c = Cert.ReferenceIdeal.ValueP.res_out0 m' c := by
  have hX := pre_bank_real _ _ _ _ _ _ hp
  have ha := pre_aug_real _ _ _ _ _ _ hp
  have hpos := pre_aug_row_pos _ _ _ _ _ _ hp
  have hA : ∀ b f : Fin 256, ∃ r : ℝ, Cert.KernelIdeal.Fr.V m c Cert.KernelIdeal.main_v8 (ix2 b f) = (r : EReal) := fun b f => by
    rw [ker_augn_apply]
    exact aug_normalised_real _ (fun g => ha b g) (hpos b) f
  have hAeq := ker_augn_eq_ref m m' c h2
  have hA' : ∀ b f : Fin 256, ∃ r : ℝ, Cert.ReferenceIdeal.ReadP.val_main_v8 (F := Ideal) (m' ((c.tc : Thread Cert.ReferenceIdeal.nD Cert.ReferenceIdeal.τ).loc Cert.ReferenceIdeal.main_arg2)) (ix2 b f) = (r : EReal) := fun b f => by
    rw [← hAeq]; exact hA b f
  have hX' : ∀ (mm : Fin 65536) (f : Fin 256), ∃ r : ℝ, m' ((c.tc : Thread Cert.ReferenceIdeal.nD Cert.ReferenceIdeal.τ).loc Cert.ReferenceIdeal.main_arg3) (ix2 mm f) = (r : EReal) := fun mm f => by
    rw [h3]; exact hX mm f
  refine res0_eq m m' c (Cert.KernelIdeal.Fr.dats m) h0 h1 h2 h3 h4 h5 (fun b k => ?_) (fun k => ?_)
  · rw [Cert.KernelIdeal.Val.sim_arr m c hA hX b k, Cert.Bridge.Ref.ref_sim _ _ _ hA' hX' b k, hAeq, h3, h5]
  · rw [Cert.KernelIdeal.Val.cnt_arr m c k, Cert.Bridge.Ref.ref_cnt _ k, h5]

end Cert.Bridge

end
-- ==== Proof.lean ====
/-
  The certificate of the label-aggregated contrastive-loss kernel against its reference.

  The kernel computes, for a row-normalised [256,256] query matrix and a memory bank of 65536 labelled rows, the
  per-class sums of the bank rows by a one-hot matrix product accumulated over 128 tiles (for two halves of the 8192
  classes), the class counts, and the product of the queries with the per-class sums times 1/temperature; the host
  then forms three losses.  The reference multiplies the queries with the whole bank, divides by the temperature and
  scatter-adds by label.  Over the extended reals, for finite inputs whose feat_aug rows are nonzero, and with the
  kernel's folded 1/temperature read as the exact reciprocal of the reference's divisor, the two agree:
  the label-wise sum of inner products is the inner product with the label-wise sum.

  The frames of the two kernel programs come from the run of the pallas_call between its host operations; the
  reference's from its run.  The second and third results never read the pallas_call and are the same host terms.
-/
import proofs.«406952_j62079457296450_3_alg».proof.Defs
import proofs.«406952_j62079457296450_3_alg».proof.Proof.Gen.Kernel
import proofs.«406952_j62079457296450_3_alg».proof.Proof.Gen.KernelIdeal
import proofs.«406952_j62079457296450_3_alg».proof.Proof.Gen.ReferenceIdeal
import proofs.«406952_j62079457296450_3_alg».proof.Proof.Gen.Pre_finite_inputs
import proofs.«406952_j62079457296450_3_alg».proof.Proof.K.FrameClaim
import proofs.«406952_j62079457296450_3_alg».proof.Proof.KI.FrameClaim
import proofs.«406952_j62079457296450_3_alg».proof.Proof.KI.Results
import proofs.«406952_j62079457296450_3_alg».proof.Proof.RefRun
import proofs.«406952_j62079457296450_3_alg».proof.Proof.TailShared
import proofs.«406952_j62079457296450_3_alg».proof.Proof.Bridge
import Idealize.ShloMosaic.PureOps.IdealRules

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_r : Cert.frame_ReferenceIdeal := fun m ρ _ =>
  (θ_run Cert.ReferenceIdeal.defs _ _).mono (fun _ h c => (h c).2.2.2) (Cert.ReferenceIdeal.ValueP.run (F := Ideal) m ρ)

/-- The ideal pass's two rewrites: a bf16 round trip of the one-hot block removed, and the folded 1/temperature named. -/
theorem preserves : Cert.preserves_Kernel_KernelIdeal :=
  ⟨IdealRules.truncf_extf.statement _ .f32 .bf16,
   IdealRules.named_const.statement Cert.KernelIdeal.κ "inv_temp" .f32 0x41A00000#32 ((268435456 / 13421773 : ℝ) : EReal) rfl⟩

theorem algebraic : Cert.algebraic_KernelIdeal_ReferenceIdeal := by
  intro m ρ m' ρ' hpre hagree
  refine ⟨fun c => Cert.KernelIdeal.Fr.res0 m c, fun c => Cert.KernelIdeal.Fr.res1 m c, fun c => Cert.KernelIdeal.Fr.res2 m c,
    Cert.KernelIdeal.Fr.run_results m ρ, ?_⟩
  refine (θ_run Cert.ReferenceIdeal.defs _ _).mono (fun r h c => ?_) (Cert.ReferenceIdeal.ValueP.run (F := Ideal) m' ρ')
  obtain ⟨h0, h1, h2, h3, h4, h5⟩ := hagree c
  exact ⟨(h c).1.trans (Cert.Bridge.res0_final m m' c (hpre c) h0 h1 h2 h3 h4 h5).symm,
    (h c).2.1.trans (Cert.Bridge.res1_eq m m' c (Cert.KernelIdeal.Fr.dats m) h0 h1 h2 h3 h4 h5).symm,
    (h c).2.2.1.trans (Cert.Bridge.res2_eq m m' c (Cert.KernelIdeal.Fr.dats m) h0 h1 h2 h3 h4 h5).symm,
    (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
